-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S768x128 : Shape := ⟨2, ![768, 128]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S768x128 : S_.BroadcastsInDim S768x128 (![] : Fin 0 → Fin S768x128.rank)
  reducesTo_S768x128_S_d0_1 : S768x128.ReducesTo [0, 1] S_

variable [Facts]

def fn_part1 {F : FTy → Type} [FloatOps F] (main_v13 : IVec S_ 1) (main_v16 : IVec S768x128 1) : IVec S_ 1 :=
  let main_c_5 : IVec S_ 1 := constantI S_ 1 1#1
  let main_v17 : IVec S_ 1 := (fun x v => Host.reduce IntOp.andi x v reducesTo_S768x128_S_d0_1 h_S_) main_v16 main_c_5
  let main_v18 : IVec S_ 1 := andi main_v13 main_v17
  main_v18

def fn {F : FTy → Type} [FloatOps F] (main_arg0 : FVec F S16x1024x768 .f32) (main_arg1 : FVec F S768x128 .f32) (main_arg2 : FVec F S768x128 .f32) (main_arg3 : FVec F S768x128 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S768x128 .f32 := Host.absf main_arg1
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S768x128 .f32 := Host.absf main_arg2
  let main_cst_2 : FVec F S_ .f32 := constant S_ .f32 0x7F800000#32
  let main_v10 : FVec F S768x128 .f32 := broadcastInDim S768x128 ![] bcast_S_S768x128 main_cst_2
  let main_v11 : IVec S768x128 1 := cmpf .olt main_v9 main_v10
  let main_c_3 : IVec S_ 1 := constantI S_ 1 1#1
  let main_v12 : IVec S_ 1 := (fun x v => Host.reduce IntOp.andi x v reducesTo_S768x128_S_d0_1 h_S_) main_v11 main_c_3
  let main_v13 : IVec S_ 1 := andi main_v8 main_v12
  let main_v14 : FVec F S768x128 .f32 := Host.absf main_arg3
  let main_cst_4 : FVec F S_ .f32 := constant S_ .f32 0x7F800000#32
  let main_v15 : FVec F S768x128 .f32 := broadcastInDim S768x128 ![] bcast_S_S768x128 main_cst_4
  let main_v16 : IVec S768x128 1 := cmpf .olt main_v14 main_v15
  fn_part1 (F := F) main_v13 main_v16
-- ==== Kernel.lean ====
abbrev S16x1024x768 : Shape := ⟨3, ![16, 1024, 768]⟩
abbrev S768x128 : Shape := ⟨2, ![768, 128]⟩
abbrev S768x384 : Shape := ⟨2, ![768, 384]⟩
abbrev S16x1024x128 : Shape := ⟨3, ![16, 1024, 128]⟩
abbrev S1x1024x768 : Shape := ⟨3, ![1, 1024, 768]⟩
abbrev S1x1024x128 : Shape := ⟨3, ![1, 1024, 128]⟩
abbrev S1024x128 : Shape := ⟨2, ![1024, 128]⟩
abbrev S1024x768 : Shape := ⟨2, ![1024, 768]⟩
abbrev S1024x384 : Shape := ⟨2, ![1024, 384]⟩
abbrev S256x256 : Shape := ⟨2, ![256, 256]⟩
abbrev S256x128 : Shape := ⟨2, ![256, 128]⟩
abbrev S256x1 : Shape := ⟨2, ![256, 1]⟩
abbrev S256 : Shape := ⟨1, ![256]⟩
abbrev S1x256x128 : Shape := ⟨3, ![1, 256, 128]⟩

abbrev nBuf : Space → Nat
  | .hbm => 6
  | .vmem => 8
  | .smem => 0
  | _ => 0

abbrev bufTy : (tb : Table) → Fin (tcTables nBuf tb) → BufTy
  | .hbm, ⟨0, _⟩ => ⟨S16x1024x768, .f32⟩
  | .hbm, ⟨1, _⟩ => ⟨S768x128, .f32⟩
  | .hbm, ⟨2, _⟩ => ⟨S768x128, .f32⟩
  | .hbm, ⟨3, _⟩ => ⟨S768x128, .f32⟩
  | .hbm, ⟨4, _⟩ => ⟨S768x384, .f32⟩
  | .hbm, ⟨5, _⟩ => ⟨S16x1024x128, .f32⟩
  | .local _ .vmem, ⟨0, _⟩ => ⟨S1x1024x768, .f32⟩
  | .local _ .vmem, ⟨1, _⟩ => ⟨S1x1024x768, .f32⟩
  | .local _ .vmem, ⟨2, _⟩ => ⟨S768x384, .f32⟩
  | .local _ .vmem, ⟨3, _⟩ => ⟨S1x1024x128, .f32⟩
  | .local _ .vmem, ⟨4, _⟩ => ⟨S1x1024x128, .f32⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c256_i32 : BitVec 32 := 256#32
  let v31 : BitVec 32 := Scalar.muli c0_i32 c256_i32
  v31
def k0_off1 : Fin 2 → Nat :=
  let c0_i32 : BitVec 32 := 0#32
  let c256_i32 : BitVec 32 := 256#32
  let v31 : BitVec 32 := Scalar.muli c0_i32 c256_i32
  let v32 : BitVec 32 := v31
  let v33 : Index := Scalar.indexCast v32
  let c0_16 : Index := 0#32
  ![v33.toNat, 0]
@[reducible] def k0_t1_loop : Scf.Loop 32 :=
  let c0_i32_32 : BitVec 32 := 0#32
  let c2_i32 : BitVec 32 := 2#32
  let v70 : BitVec 32 := Scalar.addi c0_i32_32 c2_i32
  let c1_i32_33 : BitVec 32 := 1#32
  ⟨c0_i32_32, v70, c1_i32_33⟩
def k0_mult2 (k0_t1 : Fin k0_t1_loop.trips) : BitVec 32 :=
  let c0_i32_32 : BitVec 32 := 0#32
  let c1_i32_33 : BitVec 32 := 1#32
  let arg7 : BitVec 32 := Scf.iv c0_i32_32 c1_i32_33 k0_t1
  let c256_i32_58 : BitVec 32 := 256#32
  let v99 : BitVec 32 := Scalar.muli arg7 c256_i32_58
  v99
def k0_off2 (k0_t1 : Fin k0_t1_loop.trips) : Fin 2 → Nat :=
  let c0_i32_32 : BitVec 32 := 0#32
  let c1_i32_33 : BitVec 32 := 1#32
  let arg7 : BitVec 32 := Scf.iv c0_i32_32 c1_i32_33 k0_t1
  let c256_i32_58 : BitVec 32 := 256#32
  let v99 : BitVec 32 := Scalar.muli arg7 c256_i32_58
  let v100 : BitVec 32 := v99
  let v101 : Index := Scalar.indexCast v100
  let c0_59 : Index := 0#32
  ![v101.toNat, 0]
@[reducible] def k0_t2_loop : Scf.Loop 32 :=
  let c0_i32_42 : BitVec 32 := 0#32
  let c3_i32 : BitVec 32 := 3#32
  let v81 : BitVec 32 := Scalar.addi c0_i32_42 c3_i32
  let c1_i32_43 : BitVec 32 := 1#32
  ⟨c0_i32_42, v81, c1_i32_43⟩
def k0_mult3 (k0_t2 : Fin k0_t2_loop.trips) : BitVec 32 :=
  let c0_i32_42 : BitVec 32 := 0#32
  let c1_i32_43 : BitVec 32 := 1#32
  let arg7 : BitVec 32 := Scf.iv c0_i32_42 c1_i32_43 k0_t2
  let c256_i32_58 : BitVec 32 := 256#32
  let v99 : BitVec 32 := Scalar.muli arg7 c256_i32_58
  v99
def k0_off3 (k0_t2 : Fin k0_t2_loop.trips) : Fin 2 → Nat :=
  let c0_i32_42 : BitVec 32 := 0#32
  let c1_i32_43 : BitVec 32 := 1#32
  let arg7 : BitVec 32 := Scf.iv c0_i32_42 c1_i32_43 k0_t2
  let c256_i32_58 : BitVec 32 := 256#32
  let v99 : BitVec 32 := Scalar.muli arg7 c256_i32_58
  let v100 : BitVec 32 := v99
  let v101 : Index := Scalar.indexCast v100
  let c0_59 : Index := 0#32
  ![v101.toNat, 0]
@[reducible] def k0_t3_loop : Scf.Loop 32 :=
  let c0_i32_52 : BitVec 32 := 0#32
  let c4_i32 : BitVec 32 := 4#32
  let v92 : BitVec 32 := Scalar.addi c0_i32_52 c4_i32
  let c1_i32_53 : BitVec 32 := 1#32
  ⟨c0_i32_52, v92, c1_i32_53⟩
def k0_mult4 (k0_t3 : Fin k0_t3_loop.trips) : BitVec 32 :=
  let c0_i32_52 : BitVec 32 := 0#32
  let c1_i32_53 : BitVec 32 := 1#32
  let arg7 : BitVec 32 := Scf.iv c0_i32_52 c1_i32_53 k0_t3
  let c256_i32_58 : BitVec 32 := 256#32
  let v99 : BitVec 32 := Scalar.muli arg7 c256_i32_58
  v99
def k0_off4 (k0_t3 : Fin k0_t3_loop.trips) : Fin 2 → Nat :=
  let c0_i32_52 : BitVec 32 := 0#32
  let c1_i32_53 : BitVec 32 := 1#32
  let arg7 : BitVec 32 := Scf.iv c0_i32_52 c1_i32_53 k0_t3
  let c256_i32_58 : BitVec 32 := 256#32
  let v99 : BitVec 32 := Scalar.muli arg7 c256_i32_58
  let v100 : BitVec 32 := v99
  let v101 : Index := Scalar.indexCast v100
  let c0_59 : Index := 0#32
  ![v101.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S768x128_S768x128_S768x128_S768x384_d1 : Shape.Concatenates [S768x128, S768x128, S768x128] S768x384 1
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S768x384_S768x384_0_0 : ∀ a, (![0, 0] : Fin 2 → Nat) a + S768x384.size a ≤ S768x384.size a
  h_S768x384 : 0 < S768x384.numel
  shapeCasts_S768x384_S768x384 : S768x384.ShapeCasts S768x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  packedbf16_S1024x128_S1024x128_0_0 : (Rect.unit (s := S1024x128) ![0, 0] S1024x128.size inb_S1024x128_S1024x128_0_0).PackedRows (EltTy.packing .bf16)
  iota_S256x256_d0_w32 : S256x256.Iotas .tc 32 [0]
  iota_S256x256_d1_w32 : S256x256.Iotas .tc 32 [1]
  inb_S1024x128_S256x128_0_0 : ∀ a, (![0, 0] : Fin 2 → Nat) a + S256x128.size a ≤ S1024x128.size a
  h_S256x128 : 0 < S256x128.numel
  reduces_S256x256_S256 : S256x256.Reduces [1] S256
  shapeCasts_S256_S256x1 : S256.ShapeCasts S256x1
  broadcasts_S256x1_S256x256 : S256x1.Broadcasts S256x256
  broadcasts_S256x1_S256x128 : S256x1.Broadcasts S256x128
  inb_S1x1024x128_S1x256x128_0_0_0 : ∀ a, (![0, 0, 0] : Fin 3 → Nat) a + S1x256x128.size a ≤ S1x1024x128.size a
  h_S1x256x128 : 0 < S1x256x128.numel
  shapeCasts_S1x256x128_S256x128 : S1x256x128.ShapeCasts S256x128
  shapeCasts_S256x128_S1x256x128 : S256x128.ShapeCasts S1x256x128
  inb_S1024x128_S256x128_256_0 : ∀ a, (![256, 0] : Fin 2 → Nat) a + S256x128.size a ≤ S1024x128.size a
  inb_S1x1024x128_S1x256x128_0_256_0 : ∀ a, (![0, 256, 0] : Fin 3 → Nat) a + S1x256x128.size a ≤ S1x1024x128.size a
  inb_S1024x128_S256x128_512_0 : ∀ a, (![512, 0] : Fin 2 → Nat) a + S256x128.size a ≤ S1024x128.size a
  inb_S1x1024x128_S1x256x128_0_512_0 : ∀ a, (![0, 512, 0] : Fin 3 → Nat) a + S1x256x128.size a ≤ S1x1024x128.size a
  inb_S1024x128_S256x128_768_0 : ∀ a, (![768, 0] : Fin 2 → Nat) a + S256x128.size a ≤ S1024x128.size a
  inb_S1x1024x128_S1x256x128_0_768_0 : ∀ a, (![0, 768, 0] : Fin 3 → Nat) a + S1x256x128.size a ≤ S1x1024x128.size a
  dot_S1024x768_S768x384_S1024x384_1_0_0_1_n_n_wf : DotDims.WF S1024x768 S768x384 S1024x384 [1] [0] [0] [1] [] []
  dot_S256x128_S256x128_S256x256_1_1_0_0_n_n_wf : DotDims.WF S256x128 S256x128 S256x256 [1] [1] [0] [0] [] []
  dot_S256x256_S256x128_S256x128_1_0_0_1_n_n_wf : DotDims.WF S256x256 S256x128 S256x128 [1] [0] [0] [1] [] []
  hrank0 : 0 < grid0.rank
  k0_mult1_dvd : 256 ∣ k0_mult1.toNat
  k0_off1_inb : ∀ a, k0_off1 a + S256x128.size a ≤ S1024x128.size a
  k0_t1_ok : k0_t1_loop.OK
  k0_mult2_dvd : ∀ k0_t1 : Fin k0_t1_loop.trips, 256 ∣ (k0_mult2 k0_t1).toNat
  k0_off2_inb : ∀ k0_t1 : Fin k0_t1_loop.trips, ∀ a, (k0_off2 k0_t1) a + S256x128.size a ≤ S1024x128.size a
  k0_t2_ok : k0_t2_loop.OK
  k0_mult3_dvd : ∀ k0_t2 : Fin k0_t2_loop.trips, 256 ∣ (k0_mult3 k0_t2).toNat
  k0_off3_inb : ∀ k0_t2 : Fin k0_t2_loop.trips, ∀ a, (k0_off3 k0_t2) a + S256x128.size a ≤ S1024x128.size a
  k0_t3_ok : k0_t3_loop.OK
  k0_mult4_dvd : ∀ k0_t3 : Fin k0_t3_loop.trips, 256 ∣ (k0_mult4 k0_t3).toNat
  k0_off4_inb : ∀ k0_t3 : Fin k0_t3_loop.trips, ∀ a, (k0_off4 k0_t3) a + S256x128.size a ≤ S1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S16x1024x768.size a
  hwx0_0 : ∀ i : grid0.Coords, EltTy.bits .f32 = 32 ∨ (Rect.block (s := S16x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .f32 = 32 ∨ (Rect.block (s := S768x384) S768x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S16x1024x128.size a
  hwx0_2 : ∀ i : grid0.Coords, EltTy.bits .f32 = 32 ∨ (Rect.block (s := S16x1024x128) S1x1024x128.size (cc0_transform_2 i) (hinb0_2 i)).WholeWords (EltTy.packing .f32)

variable [Facts₀]

def dot_S1024x768_S768x384_S1024x384_1_0_0_1_n_n : DotDims S1024x768 S768x384 S1024x384 where
  lhsContracting := [1]
  rhsContracting := [0]
  lhsNonContracting := [0]
  rhsNonContracting := [1]
  lhsBatch := []
  rhsBatch := []
  wf := dot_S1024x768_S768x384_S1024x384_1_0_0_1_n_n_wf
def dot_S256x128_S256x128_S256x256_1_1_0_0_n_n : DotDims S256x128 S256x128 S256x256 where
  lhsContracting := [1]
  rhsContracting := [1]
  lhsNonContracting := [0]
  rhsNonContracting := [0]
  lhsBatch := []
  rhsBatch := []
  wf := dot_S256x128_S256x128_S256x256_1_1_0_0_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x768 : Shape := ⟨3, ![16, 1024, 768]⟩
abbrev S768x128 : Shape := ⟨2, ![768, 128]⟩
abbrev S16x1024x128 : Shape := ⟨3, ![16, 1024, 128]⟩
abbrev S16x1024x1024 : Shape := ⟨3, ![16, 1024, 1024]⟩
abbrev S_ : Shape := ⟨0, ![]⟩
abbrev S1024x1024 : Shape := ⟨2, ![1024, 1024]⟩
abbrev S16x1024 : Shape := ⟨2, ![16, 1024]⟩
abbrev S16x1024x1 : Shape := ⟨3, ![16, 1024, 1]⟩

abbrev nBuf : Space → Nat
  | .hbm => 42
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S768x128, .f32⟩
  | .hbm, ⟨2, _⟩ => ⟨S768x128, .f32⟩
  | .hbm, ⟨3, _⟩ => ⟨S768x128, .f32⟩
  | .hbm, ⟨4, _⟩ => ⟨S16x1024x128, .f32⟩
  | .hbm, ⟨5, _⟩ => ⟨S16x1024x128, .f32⟩
  | .hbm, ⟨6, _⟩ => ⟨S16x1024x128, .f32⟩
  | .hbm, ⟨7, _⟩ => ⟨S16x1024x1024, .f32⟩
  | .hbm, ⟨8, _⟩ => ⟨S_, .f32⟩
  | .hbm, ⟨9, _⟩ => ⟨S16x1024x1024, .f32⟩
  | .hbm, ⟨10, _⟩ => ⟨S16x1024x1024, .f32⟩
  | .hbm, ⟨11, _⟩ => ⟨S_, .i1⟩
  | .hbm, ⟨12, _⟩ => ⟨S1024x1024, .i1⟩
  | .hbm, ⟨13, _⟩ => ⟨S1024x1024, .i32⟩
  | .hbm, ⟨14, _⟩ => ⟨S_, .i32⟩
  | .hbm, ⟨15, _⟩ => ⟨S1024x1024, .i32⟩
  | .hbm, ⟨16, _⟩ => ⟨S1024x1024, .i32⟩
  | .hbm, ⟨17, _⟩ => ⟨S1024x1024, .i32⟩
  | .hbm, ⟨18, _⟩ => ⟨S1024x1024, .i1⟩
  | .hbm, ⟨19, _⟩ => ⟨S_, .i1⟩
  | .hbm, ⟨20, _⟩ => ⟨S1024x1024, .i1⟩
  | .hbm, ⟨21, _⟩ => ⟨S1024x1024, .i1⟩
  | .hbm, ⟨22, _⟩ => ⟨S_, .f32⟩
  | .hbm, ⟨23, _⟩ => ⟨S_, .f32⟩
  | .hbm, ⟨24, _⟩ => ⟨S16x1024x1024, .i1⟩
  | .hbm, ⟨25, _⟩ => ⟨S16x1024x1024, .f32⟩
  | .hbm, ⟨26, _⟩ => ⟨S16x1024x1024, .f32⟩
  | .hbm, ⟨27, _⟩ => ⟨S_, .f32⟩
  | .hbm, ⟨28, _⟩ => ⟨S16x1024, .f32⟩
  | .hbm, ⟨29, _⟩ => ⟨S_, .f32⟩
  | .hbm, ⟨30, _⟩ => ⟨S16x1024, .f32⟩
  | .hbm, ⟨31, _⟩ => ⟨S16x1024, .f32⟩
  | .hbm, ⟨32, _⟩ => ⟨S16x1024x1, .f32⟩
  | .hbm, ⟨33, _⟩ => ⟨S16x1024x1024, .f32⟩
  | .hbm, ⟨34, _⟩ => ⟨S16x1024x1024, .f32⟩
  | .hbm, ⟨35, _⟩ => ⟨S16x1024x1024, .f32⟩
  | .hbm, ⟨36, _⟩ => ⟨S_, .f32⟩
  | .hbm, ⟨37, _⟩ => ⟨S16x1024, .f32⟩
  | .hbm, ⟨38, _⟩ => ⟨S16x1024x1, .f32⟩
  | .hbm, ⟨39, _⟩ => ⟨S16x1024x1024, .f32⟩
  | .hbm, ⟨40, _⟩ => ⟨S16x1024x1024, .f32⟩
  | .hbm, ⟨41, _⟩ => ⟨S16x1024x128, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S16x1024x1024 : S_.BroadcastsInDim S16x1024x1024 (![] : Fin 0 → Fin S16x1024x1024.rank)
  bcast_S_S1024x1024 : S_.BroadcastsInDim S1024x1024 (![] : Fin 0 → Fin S1024x1024.rank)
  bcast_S1024x1024_S16x1024x1024_1_2 : S1024x1024.BroadcastsInDim S16x1024x1024 (![1, 2] : Fin 2 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  dot_S16x1024x768_S768x128_S16x1024x128_2_0_01_1_n_n_wf : DotDims.WF S16x1024x768 S768x128 S16x1024x128 [2] [0] [0, 1] [1] [] []
  dot_S16x1024x128_S16x1024x128_S16x1024x1024_2_2_1_1_0_0_wf : DotDims.WF S16x1024x128 S16x1024x128 S16x1024x1024 [2] [2] [1] [1] [0] [0]
  dot_S16x1024x1024_S16x1024x128_S16x1024x128_2_1_1_2_0_0_wf : DotDims.WF S16x1024x1024 S16x1024x128 S16x1024x128 [2] [1] [1] [2] [0] [0]

variable [Facts₀]

def dot_S16x1024x768_S768x128_S16x1024x128_2_0_01_1_n_n : DotDims S16x1024x768 S768x128 S16x1024x128 where
  lhsContracting := [2]
  rhsContracting := [0]
  lhsNonContracting := [0, 1]
  rhsNonContracting := [1]
  lhsBatch := []
  rhsBatch := []
  wf := dot_S16x1024x768_S768x128_S16x1024x128_2_0_01_1_n_n_wf
def dot_S16x1024x128_S16x1024x128_S16x1024x1024_2_2_1_1_0_0 : DotDims S16x1024x128 S16x1024x128 S16x1024x1024 where
  lhsContracting := [2]
  rhsContracting := [2]
  lhsNonContracting := [1]
  rhsNonContracting := [1]
  lhsBatch := [0]
  rhsBatch := [0]
  wf := dot_S16x1024x128_S16x1024x128_S16x1024x1024_2_2_1_1_0_0_wf
def dot_S16x1024x1024_S16x1024x128_S16x1024x128_2_1_1_2_0_0 : DotDims S16x1024x1024 S16x1024x128 S16x1024x128 where
  lhsContracting := [2]
  rhsContracting := [1]
  lhsNonContracting := [1]
  rhsNonContracting := [2]
  lhsBatch := [0]
  rhsBatch := [0]
  wf := dot_S16x1024x1024_S16x1024x128_S16x1024x128_2_1_1_2_0_0_wf

class Facts : Prop extends Facts₀ where

variable [Facts]
-- ==== Proof.KI.Kit.lean ====
/-
  What the kernel's frame proof stands on. @main is one host operation — the three projection weights laid side by side
  into one 768 x 384 matrix — followed by the pallas_call. Here: the buffers as the region finds them (the launch
  contents after that one operation, which writes only the fused-weight buffer), that the argument arrays are among
  the untouched ones, each window's block at a grid point as a value, and the frame claim read off a frame run.
-/
import proofs.«419070_j21440476741642_3_alg».proof.Proof.Gen.KernelIdeal.Launch
import proofs.«419070_j21440476741642_3_alg».proof.Proof.Gen.KernelIdeal.Skeleton
import proofs.«419070_j21440476741642_3_alg».proof.Proof.Gen.KernelIdeal.Loops
import proofs.«419070_j21440476741642_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes the fused-weight buffer only: an argument array is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)

/-- The fused-weight buffer as the region finds it: the query, key and value weights side by side. -/
theorem V_main_v0 (c : Dev nD) : (V m c main_v0 : S768x384.Idx → Elt F .f32) =
    concatenate S768x384 1 [⟨S768x128, m ((c : Thread nD τ).loc main_arg2)⟩, ⟨S768x128, m ((c : Thread nD τ).loc main_arg1)⟩, ⟨S768x128, m ((c : Thread nD τ).loc main_arg3)⟩] Facts₀.concatenates_S768x128_S768x128_S768x128_S768x384_d1 := by
  dsimp only [V, hostOps0]; after_results; rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The memrefs the body is called on -/

abbrev VO0_2 : View sig .tc .vmem S1x1024x128 .f32 := (Memref.whole cc0_stg2_0 : Memref sig .tc .vmem S1x1024x128 .f32).view
abbrev ms0_0 (t : Fin cfg0.N) : Memref sig .tc .vmem S1x1024x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
abbrev scM0_0 : Memref sig .tc .vmem S1024x128 .bf16 := Memref.whole cc0_scratch0
abbrev scM0_1 : Memref sig .tc .vmem S1024x128 .bf16 := Memref.whole cc0_scratch1
abbrev scM0_2 : Memref sig .tc .vmem S1024x128 .bf16 := Memref.whole cc0_scratch2

/-- The region invariant opened: the three scratch buffers at some contents, and the generator register. -/
theorem PhiA0_eq (c : Dev nD) :
    (Pipeline.ΦA (Val := Elt F) (U := UR sig nD τ) spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.H

end
-- ==== Proof.KI.Run.lean ====
/-
  The kernel body run once, on any whole staging and scratch memrefs: from the activation block and the fused weights
  at given contents (the output buffer and the three scratch buffers at anything) it runs to its end, gives the two
  inputs back as they were, the scratch buffers at some contents, and leaves in the output buffer the four row tiles it
  stored — as a list of pieces, which is the witness the symbolic run finds.
-/
import proofs.«419070_j21440476741642_3_alg».proof.Proof.KI.Kit

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg1 : Memref sig .tc .vmem S1x1024x768 .f32) (harg1 : arg1.IsWhole) (arg2 : Memref sig .tc .vmem S768x384 .f32) (harg2 : arg2.IsWhole) (arg3 : Memref sig .tc .vmem S1x1024x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole)
    (x0 : Vec F S1x1024x768 .f32) (x1 : Vec F S768x384 .f32) :
    { L2 : List (View.Piece (Elt F) S1x1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)
                ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0__fused_attn_kernel i arg1 harg1 arg2 harg2 arg3 harg3 arg4 harg4 arg5 harg5 arg6 harg6) K } := by
  refine ⟨?_, fun E K => ?run⟩
  case run =>
    simp only [cc0__fused_attn_kernel_eq_skeleton]; unfold cc0__fused_attn_kernel_skel
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.H

end
-- ==== Proof.KI.Frame.lean ====
/-
  The kernel's frame: the pieces the body's run leaves in the output buffer tile it (four row tiles of 256 rows), so the
  buffer after the body is one value of the point's input blocks; with that as the proof data the pipeline's launch
  theorem gives the run of @main — every argument array unchanged, the result array what the library computes from the
  per-point values.
-/
import proofs.«419070_j21440476741642_3_alg».proof.Proof.KI.Run

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The run's four pieces tile the output block, so they cover it. -/
theorem cover0_A_2 (c : Dev nD) (i : grid0.Coords) (arg1 : Memref sig .tc .vmem S1x1024x768 .f32) (harg1 : arg1.IsWhole) (arg2 : Memref sig .tc .vmem S768x384 .f32) (harg2 : arg2.IsWhole) (arg3 : Memref sig .tc .vmem S1x1024x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole)
    (x0 : Vec F S1x1024x768 .f32) (x1 : Vec F S768x384 .f32) (y : S1x1024x128.Idx) :
    ∃ pc ∈ (kernelRun0_A c i arg1 harg1 arg2 harg2 arg3 harg3 arg4 harg4 arg5 harg5 arg6 harg6 x0 x1).1, y ∈ pc.1.set :=
  View.cover_of_tiledL (kernelRun0_A c i arg1 harg1 arg2 harg2 arg3 harg3 arg4 harg4 arg5 harg5 arg6 harg6 x0 x1).1 S1x256x128.size (by sl_kernel_rfl) y

/-- What the run leaves in the output's staging buffer: its pieces read back. -/
def out0_A_2 (c : Dev nD) (i : grid0.Coords) (arg1 : Memref sig .tc .vmem S1x1024x768 .f32) (harg1 : arg1.IsWhole) (arg2 : Memref sig .tc .vmem S768x384 .f32) (harg2 : arg2.IsWhole) (arg3 : Memref sig .tc .vmem S1x1024x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole)
    (x0 : Vec F S1x1024x768 .f32) (x1 : Vec F S768x384 .f32) : Vec F S1x1024x128 .f32 :=
  VO0_2.read (Elt F) (VO0_2.writes (Elt F) VO0_2.junk (kernelRun0_A c i arg1 harg1 arg2 harg2 arg3 harg3 arg4 harg4 arg5 harg5 arg6 harg6 x0 x1).1)

/-- What the output's staging buffer holds after the body at point `t`. -/
def outsAt0 (c : Dev nD) (t : Fin cfg0.N) : Vec F S1x1024x128 .f32 :=
  out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t)

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  unfold outsAt0
  unfold out0_A_2
  iintro ⟨⟨⟨HS0, HS1, HS2⟩, Hg⟩, Ho, ⟨%d0, H0⟩, ⟨%d1, H1⟩, ⟨%d2, H2⟩⟩
  iapply ((kernelRun0_A c (grid0.coords t) _ _ _ _ _ _ _ _ _ _ _ _ (iblk m c 0 t) (iblk m c 1 t)).2 Set.univ _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, ⟨%e2, H2⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to its end and the four argument arrays are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The same run with the result array named: what the library computes from the per-point output values. -/
theorem run_blocks : θ_run defs (onTc (τ := τ) (main (F := F))) ⟨m, fun _ => 0, ρ⟩ fun r => ∀ c : Dev nD,
      r.2.mem ((c.tc : Thread nD τ).loc main_v1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1 2,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

/-- What point `t` writes back to the result array: the body's output value read through the window's block. -/
theorem flushed2 (c : Dev nD) (t : Fin cfg0.N) :
    (dats m 0 c).flushed 2 t = (cfg0.win 2).cut (grid0.coords t) (outsAt0 m c t) := by
  show (cfg0.win 2).cut (grid0.coords t) ((dats m 0 c).after 2 t) = _
  rw [after0_2]

end Cert.KernelIdeal.H

end
-- ==== Proof.Attn.Spec.lean ====
/-
  Causal single-head attention on one batch element, as two formulas over the extended reals.

  The reference's: the scaled logits q·kᵀ·σ, masked to -∞ above the diagonal, a softmax along each row — the row's
  maximum subtracted, exponentials divided by their sum — and the weighted sum of the value rows.

  The kernel's: the query rows are scaled first; the key/value rows are visited 256 at a time; a row carries a running
  maximum m, a running denominator l and a running numerator acc, rescaled by exp(m_old - m_new) whenever the maximum
  moves (the online softmax recurrence); the row's result is acc / l after the tile that holds the diagonal.
-/
import Idealize.ShloMosaic.PureOps.Ideal
import Idealize.ShloMosaic.Lib.ValueIdx

noncomputable section

open scoped BigOperators

namespace Cert.Attn

open Idealize.ShloMosaic

/-- A matrix of extended reals. -/
abbrev Mat (a b : Nat) : Type := Fin a → Fin b → EReal

/-- The softmax scale 768^(-1/2), as the one f32 word both programs carry. -/
def σ : EReal := Ideal.ofBits .f32 0x3D13CD3A#32

/-- A projection x·w: row t of the activations against column h of the weights. -/
def proj (x : Mat 1024 768) (w : Mat 768 128) : Mat 1024 128 := fun t h => ∑ c : Fin 768, x t c * w c h

/-! ## The reference's formula -/

/-- The scaled logit of query row t against key row s. -/
def logit (q k : Mat 1024 128) (t s : Fin 1024) : EReal := (∑ h : Fin 128, q t h * k s h) * σ

/-- … masked: -∞ where the key comes after the query. -/
def mlogit (q k : Mat 1024 128) (t s : Fin 1024) : EReal := if s.val ≤ t.val then logit q k t s else ⊥

/-- The row's maximum (from -∞). -/
def rowMax (q k : Mat 1024 128) (t : Fin 1024) : EReal :=
  max ⊥ ((Finset.univ : Finset (Fin 1024)).fold max ⊥ (mlogit q k t))

/-- The row's softmax denominator (from 0). -/
def rowDen (q k : Mat 1024 128) (t : Fin 1024) : EReal :=
  0 + ∑ s : Fin 1024, Ideal.exp (mlogit q k t s - rowMax q k t)

/-- The reference's result at row t, feature h. -/
def refOut (q k v : Mat 1024 128) (t : Fin 1024) (h : Fin 128) : EReal :=
  ∑ s : Fin 1024, Ideal.div (Ideal.exp (mlogit q k t s - rowMax q k t)) (rowDen q k t) * v s h

/-! ## The kernel's recurrence, one row at a time -/

/-- A row's carried state: numerator (one entry per feature), running maximum, running denominator. -/
abbrev RowSt (H : Nat) : Type := (Fin H → EReal) × EReal × EReal

/-- One step of the online softmax on a row: the tile's logits `s` and value rows `v` folded into the state. -/
def rstep {B H : Nat} (s : Fin B → EReal) (v : Fin B → Fin H → EReal) (st : RowSt H) : RowSt H :=
  let mn : EReal := max st.2.1 ((Finset.univ : Finset (Fin B)).fold max ⊥ s)
  (fun h => Ideal.exp (st.2.1 - mn) * st.1 h + ∑ c : Fin B, Ideal.exp (s c - mn) * v c h,
   mn,
   Ideal.exp (st.2.1 - mn) * st.2.2 + ∑ c : Fin B, Ideal.exp (s c - mn))

/-- The state after the first n tiles: from numerator 0, maximum -∞, denominator 0. -/
def rfold {B H : Nat} (s : ℕ → Fin B → EReal) (v : ℕ → Fin B → Fin H → EReal) : ℕ → RowSt H
  | 0 => (fun _ => 0, ⊥, 0)
  | n + 1 => rstep (s n) (v n) (rfold s v n)

/-- Row c of key/value tile j, as a row of the whole array (tiles past the array wrap around; they are masked). -/
def col (j : ℕ) (c : Fin 256) : Fin 1024 := ⟨(256 * j + c.val) % 1024, Nat.mod_lt _ (by norm_num)⟩

/-- Query row t against key tile j: the masked logits, the query rows already scaled. -/
def srow (qs k : Mat 1024 128) (t : Fin 1024) (j : ℕ) (c : Fin 256) : EReal :=
  if 256 * j + c.val ≤ t.val then ∑ h : Fin 128, qs t h * k (col j c) h else ⊥

/-- Value tile j. -/
def vrow (v : Mat 1024 128) (j : ℕ) (c : Fin 256) (h : Fin 128) : EReal := v (col j c) h

/-- The kernel's result at row t, feature h: numerator over denominator after the tiles up to the diagonal's. -/
def kerOut (qs k v : Mat 1024 128) (t : Fin 1024) (h : Fin 128) : EReal :=
  Ideal.div ((rfold (srow qs k t) (vrow v) (t.val / 256 + 1)).1 h) (rfold (srow qs k t) (vrow v) (t.val / 256 + 1)).2.2

/-- Every entry is a real number. -/
def Real2 {a b : Nat} (x : Mat a b) : Prop := ∀ i j, ∃ r : ℝ, x i j = (r : EReal)

/-! ## Arrays as matrices -/

open Idealize.ShloMosaic.ValueIdx

/-- Batch element b of the activations, as a matrix. -/
def xb (x : (⟨3, ![16, 1024, 768]⟩ : Shape).Idx → EReal) (b : Fin 16) : Mat 1024 768 := fun t c => x (ix3 b t c)

/-- One staged block of the activations (leading extent 1), as a matrix. -/
def xb1 (x : (⟨3, ![1, 1024, 768]⟩ : Shape).Idx → EReal) : Mat 1024 768 := fun t c => x (ix3 (0 : Fin 1) t c)

/-- A weight array, as a matrix. -/
def mat (w : (⟨2, ![768, 128]⟩ : Shape).Idx → EReal) : Mat 768 128 := fun c h => w (ix2 c h)

/-- Columns o … o+127 of the fused weights (o = 0, 128, 256), as a matrix. -/
def wcol (w : (⟨2, ![768, 384]⟩ : Shape).Idx → EReal) (o : ℕ) (ho : o + 128 ≤ 384) : Mat 768 128 :=
  fun c h => w (ix2 c (⟨o + h.val, by omega⟩ : Fin 384))

end Cert.Attn

end
-- ==== Proof.KI.Val.Defs.lean ====
/-
  Names for the kernel's three projections of one activation block against the fused weights: the scaled queries
  (columns 0–127 of the fused product, times the softmax scale), the keys (columns 128–255) and the values (256–383).
-/
import proofs.«419070_j21440476741642_3_alg».proof.Proof.KI.Run
import proofs.«419070_j21440476741642_3_alg».proof.Proof.Attn.Spec

set_option maxRecDepth 16384

noncomputable section

open scoped BigOperators

namespace Cert.KernelIdeal.HV

open Cert.KernelIdeal Cert.KernelIdeal.Gen Cert.KernelIdeal.H Cert.Attn
open Idealize.ShloMosaic Idealize.ShloMosaic.TcCoe Idealize.ShloMosaic.ValueIdx

/-- The scaled queries of a block. -/
def qsM (x0 : Vec Ideal S1x1024x768 .f32) (x1 : Vec Ideal S768x384 .f32) : Mat 1024 128 :=
  fun t h => proj (xb1 x0) (wcol x1 0 (by norm_num)) t h * σ
/-- The keys of a block. -/
def kM (x0 : Vec Ideal S1x1024x768 .f32) (x1 : Vec Ideal S768x384 .f32) : Mat 1024 128 :=
  proj (xb1 x0) (wcol x1 128 (by norm_num))
/-- The values of a block. -/
def vM (x0 : Vec Ideal S1x1024x768 .f32) (x1 : Vec Ideal S768x384 .f32) : Mat 1024 128 :=
  proj (xb1 x0) (wcol x1 256 (by norm_num))

/-- Row r of query tile qi, as a row of the block. -/
def rowOf (qi : ℕ) (hq : qi < 4) (r : Fin 256) : Fin 1024 := ⟨256 * qi + r.val, by omega⟩

end Cert.KernelIdeal.HV

end
-- ==== Proof.KI.Val.Loads.lean ====
/-
  What the body's loads read. The three scratch buffers are stored whole — scaled queries, keys, values of the block —
  before anything reads them, so a 256-row load at row offset o reads rows o … o+255 of the corresponding projection.
-/
import proofs.«419070_j21440476741642_3_alg».proof.Proof.KI.Val.Defs
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HV

open Cert.KernelIdeal Cert.KernelIdeal.Gen Cert.KernelIdeal.H Cert.Attn
open Idealize.ShloMosaic Idealize.ShloMosaic.TcCoe Idealize.ShloMosaic.ValueIdx

variable (c : Dev nD) (arg1 : Memref sig .tc .vmem S1x1024x768 .f32) (harg1 : arg1.IsWhole) (arg2 : Memref sig .tc .vmem S768x384 .f32) (harg2 : arg2.IsWhole) (arg3 : Memref sig .tc .vmem S1x1024x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole)
  (x0 : Vec Ideal S1x1024x768 .f32) (x1 : Vec Ideal S768x384 .f32)

/-! ## The loaded inputs and the fused product -/

/-- A load of a whole buffer at the contents X reads X. -/
theorem whole_load {S : Shape} {e : EltTy} (m : Memref sig .tc .vmem S e) (hm : m.IsWhole) (X : S.Idx → Elt Ideal e)
    (off : Fin S.rank → Nat) (hoff : off = fun _ => 0) (inb : ∀ a, off a + S.size a ≤ S.size a) :
    View.readAt (Elt Ideal) m.view (Rect.unit off S.size inb).toLoadRect (hm.unread X) = X := by
  rw [View.readAt_eq_ld, hm.read_unread, View.ld_unit_zero hoff]

/-- The loaded activation block, entry (t, cc). -/
theorem x_load (t : Fin 1024) (cc : Fin 768) :
    kernelRun0_A.sl.v2 (F := Ideal) c arg1 harg1 x0 (ix2 t cc) = xb1 x0 t cc := by
  unfold kernelRun0_A.sl.v2 kernelRun0_A.sl.v1
  refine (truncf_apply (φ := .f32) (ψ := .bf16) _ _ _).trans ?_
  refine (shapeCast_1ab_ab_apply _ _ t cc).trans ?_
  rw [whole_load arg1 harg1 x0 _ (by funext a; fin_cases a <;> rfl)]
  rfl

/-- The loaded fused weights, entry (cc, j). -/
theorem w_load (cc : Fin 768) (j : Fin 384) :
    kernelRun0_A.sl.v5 (F := Ideal) c arg2 harg2 x1 (ix2 cc j) = x1 (ix2 cc j) := by
  unfold kernelRun0_A.sl.v5 kernelRun0_A.sl.v4
  refine (truncf_apply (φ := .f32) (ψ := .bf16) _ _ _).trans ?_
  rw [shapeCast_self]
  rw [whole_load arg2 harg2 x1 _ (by funext a; fin_cases a <;> rfl)]

/-! The fused product's operand indices, axis by axis: the left operand's row is the output's row and its column the
    contraction position; the right operand's row is the contraction position and its column the output's column. -/
theorem lhs_qkv_0 (i : S1024x384.Idx) (q : dot_S1024x768_S768x384_S1024x384_1_0_0_1_n_n.contr.Idx) :
    (dot_S1024x768_S768x384_S1024x384_1_0_0_1_n_n.lhsIdx i q 0).val = (i 0).val := by
  unfold DotDims.lhsIdx
  rw [dif_neg (show ¬(0 : Fin S1024x768.rank) ∈ dot_S1024x768_S768x384_S1024x384_1_0_0_1_n_n.lhsBatch by decide), dif_pos (show (0 : Fin S1024x768.rank) ∈ dot_S1024x768_S768x384_S1024x384_1_0_0_1_n_n.lhsNonContracting by decide)]
  rfl
theorem lhs_qkv_1 (i : S1024x384.Idx) (q : dot_S1024x768_S768x384_S1024x384_1_0_0_1_n_n.contr.Idx) :
    (dot_S1024x768_S768x384_S1024x384_1_0_0_1_n_n.lhsIdx i q 1).val = (q ⟨0, by decide⟩).val :=
  dot_S1024x768_S768x384_S1024x384_1_0_0_1_n_n.lhsIdx_val_of_single rfl i q
theorem rhs_qkv_0 (i : S1024x384.Idx) (q : dot_S1024x768_S768x384_S1024x384_1_0_0_1_n_n.contr.Idx) :
    (dot_S1024x768_S768x384_S1024x384_1_0_0_1_n_n.rhsIdx i q 0).val = (q ⟨0, by decide⟩).val :=
  dot_S1024x768_S768x384_S1024x384_1_0_0_1_n_n.rhsIdx_val_of_single rfl i q
theorem rhs_qkv_1 (i : S1024x384.Idx) (q : dot_S1024x768_S768x384_S1024x384_1_0_0_1_n_n.contr.Idx) :
    (dot_S1024x768_S768x384_S1024x384_1_0_0_1_n_n.rhsIdx i q 1).val = (i 1).val := by
  unfold DotDims.rhsIdx
  rw [dif_neg (show ¬(1 : Fin S768x384.rank) ∈ dot_S1024x768_S768x384_S1024x384_1_0_0_1_n_n.rhsBatch by decide), dif_pos (show (1 : Fin S768x384.rank) ∈ dot_S1024x768_S768x384_S1024x384_1_0_0_1_n_n.rhsNonContracting by decide)]
  rfl

/-- The fused product at (t, j): row t of the activations against column j of the fused weights. -/
theorem qkv_apply (t : Fin 1024) (j : Fin 384) :
    kernelRun0_A.sl.v6 (F := Ideal) c arg1 harg1 arg2 harg2 x0 x1 (ix2 t j) = ∑ k : Fin 768, xb1 x0 t k * x1 (ix2 k j) := by
  unfold kernelRun0_A.sl.v6 kernelRun0_A.sl.cst
  refine (Ideal.matmul_constant_zero_apply (φ₁ := .bf16) (φ₂ := .bf16) dot_S1024x768_S768x384_S1024x384_1_0_0_1_n_n none (kernelRun0_A.sl.v2 (F := Ideal) c arg1 harg1 x0) (kernelRun0_A.sl.v5 (F := Ideal) c arg2 harg2 x1) (ix2 t j)).trans ?_
  rw [← Equiv.sum_comp (ValueIdx.contrEquiv1 dot_S1024x768_S768x384_S1024x384_1_0_0_1_n_n 768 rfl rfl).symm]
  refine Finset.sum_congr rfl fun k _ => ?_
  have hk := ValueIdx.contrEquiv1_symm_val dot_S1024x768_S768x384_S1024x384_1_0_0_1_n_n 768 rfl rfl k
  have el : dot_S1024x768_S768x384_S1024x384_1_0_0_1_n_n.lhsIdx (ix2 t j) ((ValueIdx.contrEquiv1 dot_S1024x768_S768x384_S1024x384_1_0_0_1_n_n 768 rfl rfl).symm k) = ix2 t k := funext fun a => Fin.ext (by
    match a with
    | ⟨0, _⟩ => exact lhs_qkv_0 _ _
    | ⟨1, _⟩ => exact (lhs_qkv_1 _ _).trans hk)
  have er : dot_S1024x768_S768x384_S1024x384_1_0_0_1_n_n.rhsIdx (ix2 t j) ((ValueIdx.contrEquiv1 dot_S1024x768_S768x384_S1024x384_1_0_0_1_n_n 768 rfl rfl).symm k) = ix2 k j := funext fun a => Fin.ext (by
    match a with
    | ⟨0, _⟩ => exact (rhs_qkv_0 _ _).trans hk
    | ⟨1, _⟩ => exact rhs_qkv_1 _ _)
  rw [el, er, x_load, w_load]

/-! ## The stored projections -/

theorem q_scratch (t : Fin 1024) (h : Fin 128) :
    kernelRun0_A.sl.v15 (F := Ideal) c arg1 harg1 arg2 harg2 x0 x1 (ix2 t h) = qsM x0 x1 t h := by
  unfold kernelRun0_A.sl.v15 kernelRun0_A.sl.v12 kernelRun0_A.sl.v9 kernelRun0_A.sl.v8 kernelRun0_A.sl.v7 kernelRun0_A.sl.cst_4
  rw [shapeCast_self]
  refine (truncf_apply (φ := .f32) (ψ := .bf16) _ _ _).trans ?_
  refine (mulf_apply _ _ _).trans ?_
  rw [slice2_axis1_eq 0 _ _ t h, qkv_apply]
  rfl
theorem k_scratch (t : Fin 1024) (h : Fin 128) :
    kernelRun0_A.sl.v19 (F := Ideal) c arg1 harg1 arg2 harg2 x0 x1 (ix2 t h) = kM x0 x1 t h := by
  unfold kernelRun0_A.sl.v19 kernelRun0_A.sl.v16 kernelRun0_A.sl.v10
  rw [shapeCast_self]
  refine (truncf_apply (φ := .f32) (ψ := .bf16) _ _ _).trans ?_
  rw [slice2_axis1_eq 128 _ _ t h, qkv_apply]
  rfl
theorem v_scratch (t : Fin 1024) (h : Fin 128) :
    kernelRun0_A.sl.v23 (F := Ideal) c arg1 harg1 arg2 harg2 x0 x1 (ix2 t h) = vM x0 x1 t h := by
  unfold kernelRun0_A.sl.v23 kernelRun0_A.sl.v20 kernelRun0_A.sl.v11
  rw [shapeCast_self]
  refine (truncf_apply (φ := .f32) (ψ := .bf16) _ _ _).trans ?_
  rw [slice2_axis1_eq 256 _ _ t h, qkv_apply]
  rfl

/-! ## A tile load after the whole-buffer store -/

/-- A 256-row load at row offset `off 0` after the one whole-buffer store of `w` reads those rows of `w`. -/
theorem tile_load {e : EltTy} (v : View sig .tc .vmem S1024x128 e) (w : S1024x128.Idx → Elt Ideal e)
    (inb0 : ∀ a, (![0, 0] : Fin 2 → ℕ) a + S1024x128.size a ≤ S1024x128.size a)
    (off : Fin 2 → ℕ) (inb : ∀ a, off a + S256x128.size a ≤ S1024x128.size a)
    (cc : Fin 256) (h : Fin 128) (row : Fin 1024) (hrow : row.val = off 0 + cc.val) (h1 : off 1 = 0) :
    View.readAt (Elt Ideal) v (Rect.unit (s := S1024x128) off S256x128.size inb).toLoadRect
      (v.writes (Elt Ideal) v.junk [⟨Rect.unit ![0, 0] S1024x128.size inb0, w⟩]) (ix2 cc h) = w (ix2 row h) := by
  rw [View.readAt_writes_junk_eq_canon, View.canon_unit_zero (by funext a; fin_cases a <;> rfl)]
  refine congrArg w (funext fun a => Fin.ext ?_)
  match a with
  | ⟨0, _⟩ => show off 0 + 1 * cc.val = row.val; omega
  | ⟨1, _⟩ => show off 1 + 1 * h.val = h.val; omega

/-! ## The query tiles (loads at literal row offsets 0, 256, 512, 768) -/

theorem q_tile0 (r : Fin 256) (h : Fin 128) :
    kernelRun0_A.sl.v27 (F := Ideal) c arg1 harg1 arg2 harg2 arg4 x0 x1 (ix2 r h) = qsM x0 x1 (rowOf 0 (by norm_num) r) h := by
  unfold kernelRun0_A.sl.v27 kernelRun0_A.sl.HS0_1 View.readCov
  refine (tile_load arg4.view _ _ _ _ r h (rowOf 0 (by norm_num) r) (by simp [rowOf]) rfl).trans ?_
  exact q_scratch c arg1 harg1 arg2 harg2 x0 x1 _ h
theorem q_tile1 (r : Fin 256) (h : Fin 128) :
    kernelRun0_A.sl.v66 (F := Ideal) c arg1 harg1 arg2 harg2 arg4 x0 x1 (ix2 r h) = qsM x0 x1 (rowOf 1 (by norm_num) r) h := by
  unfold kernelRun0_A.sl.v66 kernelRun0_A.sl.HS0_1 View.readCov
  refine (tile_load arg4.view _ _ _ _ r h (rowOf 1 (by norm_num) r) (by simp [rowOf]) rfl).trans ?_
  exact q_scratch c arg1 harg1 arg2 harg2 x0 x1 _ h
theorem q_tile2 (r : Fin 256) (h : Fin 128) :
    kernelRun0_A.sl.v77 (F := Ideal) c arg1 harg1 arg2 harg2 arg4 x0 x1 (ix2 r h) = qsM x0 x1 (rowOf 2 (by norm_num) r) h := by
  unfold kernelRun0_A.sl.v77 kernelRun0_A.sl.HS0_1 View.readCov
  refine (tile_load arg4.view _ _ _ _ r h (rowOf 2 (by norm_num) r) (by simp [rowOf]) rfl).trans ?_
  exact q_scratch c arg1 harg1 arg2 harg2 x0 x1 _ h
theorem q_tile3 (r : Fin 256) (h : Fin 128) :
    kernelRun0_A.sl.v88 (F := Ideal) c arg1 harg1 arg2 harg2 arg4 x0 x1 (ix2 r h) = qsM x0 x1 (rowOf 3 (by norm_num) r) h := by
  unfold kernelRun0_A.sl.v88 kernelRun0_A.sl.HS0_1 View.readCov
  refine (tile_load arg4.view _ _ _ _ r h (rowOf 3 (by norm_num) r) (by simp [rowOf]) rfl).trans ?_
  exact q_scratch c arg1 harg1 arg2 harg2 x0 x1 _ h

/-! ## The key and value tiles of the first query tile (loads at the computed offset 0·256) -/

theorem k_tile0 (cc : Fin 256) (h : Fin 128) :
    kernelRun0_A.sl.v34 (F := Ideal) c arg1 harg1 arg2 harg2 arg5 x0 x1 (ix2 cc h) = kM x0 x1 (col 0 cc) h := by
  unfold kernelRun0_A.sl.v34 kernelRun0_A.sl.HS1_1 View.readCov
  have hc := cc.isLt
  refine (tile_load arg5.view _ _ _ _ cc h (col 0 cc) ?_ ?_).trans ?_
  · rw [k0_off1_eq]; show (256 * 0 + cc.val) % 1024 = 0 + cc.val; omega
  · rw [k0_off1_eq]; rfl
  · exact k_scratch c arg1 harg1 arg2 harg2 x0 x1 _ h
theorem v_tile0 (cc : Fin 256) (h : Fin 128) :
    kernelRun0_A.sl.v36 (F := Ideal) c arg1 harg1 arg2 harg2 arg6 x0 x1 (ix2 cc h) = vM x0 x1 (col 0 cc) h := by
  unfold kernelRun0_A.sl.v36 kernelRun0_A.sl.HS2_1 View.readCov
  have hc := cc.isLt
  refine (tile_load arg6.view _ _ _ _ cc h (col 0 cc) ?_ ?_).trans ?_
  · rw [k0_off1_eq]; show (256 * 0 + cc.val) % 1024 = 0 + cc.val; omega
  · rw [k0_off1_eq]; rfl
  · exact v_scratch c arg1 harg1 arg2 harg2 x0 x1 _ h

/-! ## The key and value tiles inside the three loops (loads at the trip's offset k·256) -/

theorem k_load_t1 (k : Fin k0_t1_loop.trips) (cc : Fin 256) (h : Fin 128) :
    View.readAt (Elt Ideal) arg5.view (Rect.unit (s := S1024x128) (k0_off2 k) S256x128.size (k0_off2_inb k)).toLoadRect
        (arg5.view.writes (Elt Ideal) arg5.view.junk (kernelRun0_A.sl.HS1_1 (F := Ideal) c arg1 harg1 arg2 harg2 x0 x1)) (ix2 cc h)
      = kM x0 x1 (col k.val cc) h := by
  unfold kernelRun0_A.sl.HS1_1
  have hk : k.val < 2 := Nat.lt_of_lt_of_le k.isLt k0_t1_abs.2.1
  have hc := cc.isLt
  refine (tile_load arg5.view _ _ _ _ cc h (col k.val cc) ?_ ?_).trans ?_
  · rw [k0_off2_eq k]; show (256 * k.val + cc.val) % 1024 = 256 * k.val + cc.val; omega
  · rw [k0_off2_eq k]; rfl
  · exact k_scratch c arg1 harg1 arg2 harg2 x0 x1 _ h
theorem v_load_t1 (k : Fin k0_t1_loop.trips) (cc : Fin 256) (h : Fin 128) :
    View.readAt (Elt Ideal) arg6.view (Rect.unit (s := S1024x128) (k0_off2 k) S256x128.size (k0_off2_inb k)).toLoadRect
        (arg6.view.writes (Elt Ideal) arg6.view.junk (kernelRun0_A.sl.HS2_1 (F := Ideal) c arg1 harg1 arg2 harg2 x0 x1)) (ix2 cc h)
      = vM x0 x1 (col k.val cc) h := by
  unfold kernelRun0_A.sl.HS2_1
  have hk : k.val < 2 := Nat.lt_of_lt_of_le k.isLt k0_t1_abs.2.1
  have hc := cc.isLt
  refine (tile_load arg6.view _ _ _ _ cc h (col k.val cc) ?_ ?_).trans ?_
  · rw [k0_off2_eq k]; show (256 * k.val + cc.val) % 1024 = 256 * k.val + cc.val; omega
  · rw [k0_off2_eq k]; rfl
  · exact v_scratch c arg1 harg1 arg2 harg2 x0 x1 _ h
theorem k_load_t2 (k : Fin k0_t2_loop.trips) (cc : Fin 256) (h : Fin 128) :
    View.readAt (Elt Ideal) arg5.view (Rect.unit (s := S1024x128) (k0_off3 k) S256x128.size (k0_off3_inb k)).toLoadRect
        (arg5.view.writes (Elt Ideal) arg5.view.junk (kernelRun0_A.sl.HS1_1 (F := Ideal) c arg1 harg1 arg2 harg2 x0 x1)) (ix2 cc h)
      = kM x0 x1 (col k.val cc) h := by
  unfold kernelRun0_A.sl.HS1_1
  have hk : k.val < 3 := Nat.lt_of_lt_of_le k.isLt k0_t2_abs.2.1
  have hc := cc.isLt
  refine (tile_load arg5.view _ _ _ _ cc h (col k.val cc) ?_ ?_).trans ?_
  · rw [k0_off3_eq k]; show (256 * k.val + cc.val) % 1024 = 256 * k.val + cc.val; omega
  · rw [k0_off3_eq k]; rfl
  · exact k_scratch c arg1 harg1 arg2 harg2 x0 x1 _ h
theorem v_load_t2 (k : Fin k0_t2_loop.trips) (cc : Fin 256) (h : Fin 128) :
    View.readAt (Elt Ideal) arg6.view (Rect.unit (s := S1024x128) (k0_off3 k) S256x128.size (k0_off3_inb k)).toLoadRect
        (arg6.view.writes (Elt Ideal) arg6.view.junk (kernelRun0_A.sl.HS2_1 (F := Ideal) c arg1 harg1 arg2 harg2 x0 x1)) (ix2 cc h)
      = vM x0 x1 (col k.val cc) h := by
  unfold kernelRun0_A.sl.HS2_1
  have hk : k.val < 3 := Nat.lt_of_lt_of_le k.isLt k0_t2_abs.2.1
  have hc := cc.isLt
  refine (tile_load arg6.view _ _ _ _ cc h (col k.val cc) ?_ ?_).trans ?_
  · rw [k0_off3_eq k]; show (256 * k.val + cc.val) % 1024 = 256 * k.val + cc.val; omega
  · rw [k0_off3_eq k]; rfl
  · exact v_scratch c arg1 harg1 arg2 harg2 x0 x1 _ h
theorem k_load_t3 (k : Fin k0_t3_loop.trips) (cc : Fin 256) (h : Fin 128) :
    View.readAt (Elt Ideal) arg5.view (Rect.unit (s := S1024x128) (k0_off4 k) S256x128.size (k0_off4_inb k)).toLoadRect
        (arg5.view.writes (Elt Ideal) arg5.view.junk (kernelRun0_A.sl.HS1_1 (F := Ideal) c arg1 harg1 arg2 harg2 x0 x1)) (ix2 cc h)
      = kM x0 x1 (col k.val cc) h := by
  unfold kernelRun0_A.sl.HS1_1
  have hk : k.val < 4 := Nat.lt_of_lt_of_le k.isLt k0_t3_abs.2.1
  have hc := cc.isLt
  refine (tile_load arg5.view _ _ _ _ cc h (col k.val cc) ?_ ?_).trans ?_
  · rw [k0_off4_eq k]; show (256 * k.val + cc.val) % 1024 = 256 * k.val + cc.val; omega
  · rw [k0_off4_eq k]; rfl
  · exact k_scratch c arg1 harg1 arg2 harg2 x0 x1 _ h
theorem v_load_t3 (k : Fin k0_t3_loop.trips) (cc : Fin 256) (h : Fin 128) :
    View.readAt (Elt Ideal) arg6.view (Rect.unit (s := S1024x128) (k0_off4 k) S256x128.size (k0_off4_inb k)).toLoadRect
        (arg6.view.writes (Elt Ideal) arg6.view.junk (kernelRun0_A.sl.HS2_1 (F := Ideal) c arg1 harg1 arg2 harg2 x0 x1)) (ix2 cc h)
      = vM x0 x1 (col k.val cc) h := by
  unfold kernelRun0_A.sl.HS2_1
  have hk : k.val < 4 := Nat.lt_of_lt_of_le k.isLt k0_t3_abs.2.1
  have hc := cc.isLt
  refine (tile_load arg6.view _ _ _ _ cc h (col k.val cc) ?_ ?_).trans ?_
  · rw [k0_off4_eq k]; show (256 * k.val + cc.val) % 1024 = 256 * k.val + cc.val; omega
  · rw [k0_off4_eq k]; rfl
  · exact v_scratch c arg1 harg1 arg2 harg2 x0 x1 _ h

end Cert.KernelIdeal.HV

end
-- ==== Proof.KI.Val.Step.lean ====
/-
  The kernel's arithmetic, read on one row. Each trip of a query tile's loop — scores of the tile against a key tile,
  the causal mask, the new running maximum, the rescaling factor, the exponentials, the new denominator and numerator —
  is one step of the online softmax recurrence on every row; the first query tile does its single step inline and
  divides at once; the loops start from numerator 0, maximum -∞, denominator 0 and end with numerator / denominator.
-/
import proofs.«419070_j21440476741642_3_alg».proof.Proof.KI.Val.Defs
import Idealize.ShloMosaic.PureOps.Ideal.Laws
import Idealize.ShloMosaic.Lib.Pipeline.Value
import Idealize.ShloMosaic.Lib.ValueLayout

set_option maxRecDepth 16384

noncomputable section

open scoped BigOperators

namespace Cert.KernelIdeal.HV

open Cert.KernelIdeal Cert.KernelIdeal.Gen Cert.KernelIdeal.H Cert.Attn
open Idealize.ShloMosaic Idealize.ShloMosaic.TcCoe Idealize.ShloMosaic.ValueIdx

/-! ## The two constants that stand for -∞ -/

/-- The mask's fill value, a large negative number in the kernel's text, is -∞ on the extended reals. -/
private theorem neg_big_eq : Named.named (F := Ideal) κ "neg_big" (φ := .f32) 0xF149F2CA#32 = (⊥ : EReal) :=
  IdealRules.named_const.ideal_named_scalar _ _ _ _ rfl

/-- The row maximum starts from the pattern of -∞. -/
private theorem ninf_eq : Ideal.ofBits .f32 0xFF800000#32 = (⊥ : EReal) := by simp [Ideal.ofBits, Ideal.ieee]

/-! ## The two products read at an index -/

private theorem qk_lhs_0 (i : S256x256.Idx) (q : dot_S256x128_S256x128_S256x256_1_1_0_0_n_n.contr.Idx) :
    (dot_S256x128_S256x128_S256x256_1_1_0_0_n_n.lhsIdx i q 0).val = (i 0).val := by
  unfold DotDims.lhsIdx
  rw [dif_neg (show ¬(0 : Fin S256x128.rank) ∈ dot_S256x128_S256x128_S256x256_1_1_0_0_n_n.lhsBatch by decide), dif_pos (show (0 : Fin S256x128.rank) ∈ dot_S256x128_S256x128_S256x256_1_1_0_0_n_n.lhsNonContracting by decide)]
  rfl
private theorem qk_lhs_1 (i : S256x256.Idx) (q : dot_S256x128_S256x128_S256x256_1_1_0_0_n_n.contr.Idx) :
    (dot_S256x128_S256x128_S256x256_1_1_0_0_n_n.lhsIdx i q 1).val = (q ⟨0, by decide⟩).val :=
  dot_S256x128_S256x128_S256x256_1_1_0_0_n_n.lhsIdx_val_of_single rfl i q
private theorem qk_rhs_0 (i : S256x256.Idx) (q : dot_S256x128_S256x128_S256x256_1_1_0_0_n_n.contr.Idx) :
    (dot_S256x128_S256x128_S256x256_1_1_0_0_n_n.rhsIdx i q 0).val = (i 1).val := by
  unfold DotDims.rhsIdx
  rw [dif_neg (show ¬(0 : Fin S256x128.rank) ∈ dot_S256x128_S256x128_S256x256_1_1_0_0_n_n.rhsBatch by decide), dif_pos (show (0 : Fin S256x128.rank) ∈ dot_S256x128_S256x128_S256x256_1_1_0_0_n_n.rhsNonContracting by decide)]
  rfl
private theorem qk_rhs_1 (i : S256x256.Idx) (q : dot_S256x128_S256x128_S256x256_1_1_0_0_n_n.contr.Idx) :
    (dot_S256x128_S256x128_S256x256_1_1_0_0_n_n.rhsIdx i q 1).val = (q ⟨0, by decide⟩).val :=
  dot_S256x128_S256x128_S256x256_1_1_0_0_n_n.rhsIdx_val_of_single rfl i q

/-- The scores: query row r against key row c, the feature axis of both operands contracted. -/
private theorem qk_apply (vq kb : FVec Ideal S256x128 .bf16) (r c : Fin 256) :
    matmul dot_S256x128_S256x128_S256x256_1_1_0_0_n_n none vq kb (constant (F := Ideal) S256x256 .f32 0x00000000#32) (ix2 r c)
      = ∑ h : Fin 128, vq (ix2 r h) * kb (ix2 c h) := by
  refine (Ideal.matmul_constant_zero_apply dot_S256x128_S256x128_S256x256_1_1_0_0_n_n none vq kb (ix2 r c)).trans ?_
  rw [← Equiv.sum_comp (ValueIdx.contrEquiv1 dot_S256x128_S256x128_S256x256_1_1_0_0_n_n 128 rfl rfl).symm]
  refine Finset.sum_congr rfl fun k _ => ?_
  have hk := ValueIdx.contrEquiv1_symm_val dot_S256x128_S256x128_S256x256_1_1_0_0_n_n 128 rfl rfl k
  have el : dot_S256x128_S256x128_S256x256_1_1_0_0_n_n.lhsIdx (ix2 r c) ((ValueIdx.contrEquiv1 dot_S256x128_S256x128_S256x256_1_1_0_0_n_n 128 rfl rfl).symm k) = ix2 r k := funext fun a => Fin.ext (by
    match a with
    | ⟨0, _⟩ => exact qk_lhs_0 _ _
    | ⟨1, _⟩ => exact (qk_lhs_1 _ _).trans hk)
  have er : dot_S256x128_S256x128_S256x256_1_1_0_0_n_n.rhsIdx (ix2 r c) ((ValueIdx.contrEquiv1 dot_S256x128_S256x128_S256x256_1_1_0_0_n_n 128 rfl rfl).symm k) = ix2 c k := funext fun a => Fin.ext (by
    match a with
    | ⟨0, _⟩ => exact qk_rhs_0 _ _
    | ⟨1, _⟩ => exact (qk_rhs_1 _ _).trans hk)
  rw [el, er]

private theorem pv_lhs_0 (i : S256x128.Idx) (q : dot_S256x256_S256x128_S256x128_1_0_0_1_n_n.contr.Idx) :
    (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
private theorem pv_lhs_1 (i : S256x128.Idx) (q : dot_S256x256_S256x128_S256x128_1_0_0_1_n_n.contr.Idx) :
    (dot_S256x256_S256x128_S256x128_1_0_0_1_n_n.lhsIdx i q 1).val = (q ⟨0, by decide⟩).val :=
  dot_S256x256_S256x128_S256x128_1_0_0_1_n_n.lhsIdx_val_of_single rfl i q
private theorem pv_rhs_0 (i : S256x128.Idx) (q : dot_S256x256_S256x128_S256x128_1_0_0_1_n_n.contr.Idx) :
    (dot_S256x256_S256x128_S256x128_1_0_0_1_n_n.rhsIdx i q 0).val = (q ⟨0, by decide⟩).val :=
  dot_S256x256_S256x128_S256x128_1_0_0_1_n_n.rhsIdx_val_of_single rfl i q
private theorem pv_rhs_1 (i : S256x128.Idx) (q : dot_S256x256_S256x128_S256x128_1_0_0_1_n_n.contr.Idx) :
    (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl

/-- The weighted sum of value rows: weights row r against value column h, over the tile's 256 key rows. -/
private theorem pv_apply (p : FVec Ideal S256x256 .bf16) (vb : FVec Ideal S256x128 .bf16) (r : Fin 256) (h : Fin 128) :
    matmul dot_S256x256_S256x128_S256x128_1_0_0_1_n_n none p vb (constant (F := Ideal) S256x128 .f32 0x00000000#32) (ix2 r h)
      = ∑ c : Fin 256, p (ix2 r c) * vb (ix2 c h) := by
  refine (Ideal.matmul_constant_zero_apply dot_S256x256_S256x128_S256x128_1_0_0_1_n_n none p vb (ix2 r h)).trans ?_
  rw [← Equiv.sum_comp (ValueIdx.contrEquiv1 dot_S256x256_S256x128_S256x128_1_0_0_1_n_n 256 rfl rfl).symm]
  refine Finset.sum_congr rfl fun k _ => ?_
  have hk := ValueIdx.contrEquiv1_symm_val dot_S256x256_S256x128_S256x128_1_0_0_1_n_n 256 rfl rfl k
  have el : dot_S256x256_S256x128_S256x128_1_0_0_1_n_n.lhsIdx (ix2 r h) ((ValueIdx.contrEquiv1 dot_S256x256_S256x128_S256x128_1_0_0_1_n_n 256 rfl rfl).symm k) = ix2 r k := funext fun a => Fin.ext (by
    match a with
    | ⟨0, _⟩ => exact pv_lhs_0 _ _
    | ⟨1, _⟩ => exact (pv_lhs_1 _ _).trans hk)
  have er : dot_S256x256_S256x128_S256x128_1_0_0_1_n_n.rhsIdx (ix2 r h) ((ValueIdx.contrEquiv1 dot_S256x256_S256x128_S256x128_1_0_0_1_n_n 256 rfl rfl).symm k) = ix2 k h := funext fun a => Fin.ext (by
    match a with
    | ⟨0, _⟩ => exact (pv_rhs_0 _ _).trans hk
    | ⟨1, _⟩ => exact pv_rhs_1 _ _)
  rw [el, er]

/-! ## The causal mask -/

/-- The diagonal array holds, at (r, c), the 32-bit word of r - c. -/
private theorem diag_word (r c : Fin 256) : k0_pay26 (ix2 r c) = BitVec.ofNat 32 r.val - BitVec.ofNat 32 c.val := by
  unfold k0_pay26
  show IntOp.subi (iota .tc S256x256 32 [0] iota_S256x256_d0_w32 (ix2 r c)) (iota .tc S256x256 32 [1] iota_S256x256_d1_w32 (ix2 r c)) = _
  rw [iota_single_apply, iota_single_apply]; rfl

/-- … which, read signed, is the integer r - c: both are below 256, so nothing wraps. -/
private theorem diag_toInt (r c : Fin 256) : (BitVec.ofNat 32 r.val - BitVec.ofNat 32 c.val).toInt = (r.val : ℤ) - c.val := by
  have hr := r.isLt; have hc := c.isLt
  rw [BitVec.toInt_sub, BitVec.toInt_ofNat', BitVec.toInt_ofNat']
  simp only [Int.bmod_def]
  omega

/-- The threshold word (k - qi)·256, read signed, is that integer: k and qi are below 4. -/
private theorem thr_toInt (k qi : ℕ) (hk : k < 4) (hq : qi < 4) :
    (Scalar.muli (Scalar.subi (Scf.iv 0#32 1#32 k) (BitVec.ofNat 32 qi)) 256#32).toInt = ((k : ℤ) - qi) * 256 := by
  interval_cases k <;> interval_cases qi <;> rfl

/-- The causal mask of query tile qi against key tile k, at row r and column c: r - c ≥ (k - qi)·256, that is, key
    row 256·k + c is not after query row 256·qi + r. -/
private theorem mask_iff (k qi : ℕ) (hk : k < 4) (hq : qi < 4) (r c : Fin 256) :
    cmpi .sge k0_pay26 (broadcast S256x256 (Scalar.muli (Scalar.subi (Scf.iv 0#32 1#32 k) (BitVec.ofNat 32 qi)) 256#32)) (ix2 r c) = 1#1
      ↔ 256 * k + c.val ≤ 256 * qi + r.val := by
  show BitVec.ofBool ((Scalar.muli (Scalar.subi (Scf.iv 0#32 1#32 k) (BitVec.ofNat 32 qi)) 256#32).sle (k0_pay26 (ix2 r c))) = 1#1 ↔ _
  rw [diag_word]
  have h1 : ∀ b : Bool, BitVec.ofBool b = 1#1 ↔ b = true := by decide
  rw [h1, BitVec.sle_iff_toInt_le, thr_toInt k qi hk hq, diag_toInt]
  omega

/-- The masked scores of query tile qi against key tile k at (r, c): the score where the mask holds, -∞ elsewhere. -/
private theorem score_apply (k qi : ℕ) (hk : k < 4) (hq : qi < 4) (vq kb : FVec Ideal S256x128 .bf16) (r c : Fin 256) :
    select (cmpi .sge k0_pay26 (broadcast S256x256 (Scalar.muli (Scalar.subi (Scf.iv 0#32 1#32 k) (BitVec.ofNat 32 qi)) 256#32)))
        (matmul dot_S256x128_S256x128_S256x256_1_1_0_0_n_n none vq kb (constant (F := Ideal) S256x256 .f32 0x00000000#32))
        (broadcast S256x256 (Named.named (F := Ideal) κ "neg_big" (φ := .f32) 0xF149F2CA#32)) (ix2 r c)
      = if 256 * k + c.val ≤ 256 * qi + r.val then ∑ h : Fin 128, vq (ix2 r h) * kb (ix2 c h) else ⊥ := by
  refine (select_apply _ _ _ (ix2 r c)).trans ?_
  exact if_congr (mask_iff k qi hk hq r c) (qk_apply vq kb r c) neg_big_eq

/-! ## Row reductions and column broadcasts read at an index -/

/-- A row's maximum, kept as a column: at (r, 0) the fold of max from -∞ over the row's 256 entries. -/
private theorem rowmax_apply (src : FVec Ideal S256x256 .f32) (r : Fin 256) :
    shapeCast S256x1 (multiReduction (F := Ideal) .maximumf [1] S256 src 0xFF800000#32 reduces_S256x256_S256 (.inl rfl) rfl) shapeCasts_S256_S256x1 (ix2 r (0 : Fin 1))
      = (Finset.univ : Finset (Fin 256)).fold max ⊥ (fun c => src (ix2 r c)) := by
  refine (shapeCast_apply _ shapeCasts_S256_S256x1 (ix2 r (0 : Fin 1)) (ix1 r) ?_).trans ?_
  · rw [Shape.rowMajor_val_one, Shape.rowMajor_val_two]; show r.val = r.val * 1 + 0; omega
  refine (Ideal.multiReduction_maximumf_single src 0xFF800000#32 reduces_S256x256_S256 (.inl rfl) rfl (ix1 r)).trans ?_
  rw [Ideal.ofBits_def, ninf_eq]
  refine congrArg (Finset.fold max (⊥ : EReal) · (Finset.univ : Finset (Fin 256))) ?_
  funext c
  exact congrArg src (funext fun a => Fin.ext (by match a with | ⟨0, _⟩ => rfl | ⟨1, _⟩ => rfl))

/-- A row's sum, kept as a column: at (r, 0) the sum of the row's 256 entries. -/
private theorem rowsum_apply (src : FVec Ideal S256x256 .f32) (r : Fin 256) :
    shapeCast S256x1 (multiReduction (F := Ideal) .add [1] S256 src 0x00000000#32 reduces_S256x256_S256 (.inl rfl) rfl) shapeCasts_S256_S256x1 (ix2 r (0 : Fin 1))
      = ∑ c : Fin 256, src (ix2 r c) := by
  refine (shapeCast_apply _ shapeCasts_S256_S256x1 (ix2 r (0 : Fin 1)) (ix1 r) ?_).trans ?_
  · rw [Shape.rowMajor_val_one, Shape.rowMajor_val_two]; show r.val = r.val * 1 + 0; omega
  refine (Ideal.multiReduction_add_single src 0x00000000#32 reduces_S256x256_S256 (.inl rfl) rfl (ix1 r)).trans ?_
  refine Finset.sum_congr rfl fun c _ => ?_
  exact congrArg src (funext fun a => Fin.ext (by match a with | ⟨0, _⟩ => rfl | ⟨1, _⟩ => rfl))

/-- A column broadcast along the rows of a 256 × 256 tile reads its row's entry. -/
private theorem bcast256_apply (x : FVec Ideal S256x1 .f32) (r c : Fin 256) :
    broadcastTo S256x256 x broadcasts_S256x1_S256x256 (ix2 r c) = x (ix2 r (0 : Fin 1)) := by
  refine broadcastTo_apply x broadcasts_S256x1_S256x256 (ix2 r c) (ix2 r (0 : Fin 1)) fun a => ?_
  match a with
  | ⟨0, _⟩ => rfl
  | ⟨1, _⟩ => rfl

/-- … and along the rows of a 256 × 128 tile. -/
private theorem bcast128_apply (x : FVec Ideal S256x1 .f32) (r : Fin 256) (h : Fin 128) :
    broadcastTo S256x128 x broadcasts_S256x1_S256x128 (ix2 r h) = x (ix2 r (0 : Fin 1)) := by
  refine broadcastTo_apply x broadcasts_S256x1_S256x128 (ix2 r h) (ix2 r (0 : Fin 1)) fun a => ?_
  match a with
  | ⟨0, _⟩ => rfl
  | ⟨1, _⟩ => rfl

/-! ## One trip, for any query tile -/

/-- One trip's arithmetic on row r, for masked scores S whose row r is s: the new maximum M, the rescaling factor
    A = exp (m - M), the exponentials P = exp (S - M), the new denominator L = A·l + Σ P and the new numerator
    O = A·acc + P·v are, on that row, one step of the online softmax. -/
private theorem gstep (S : FVec Ideal S256x256 .f32) (s : Fin 256 → EReal) (vb : FVec Ideal S256x128 .bf16)
    (acc : FVec Ideal S256x128 .f32) (mm ll : FVec Ideal S256x1 .f32) (r : Fin 256)
    (hS : ∀ c : Fin 256, S (ix2 r c) = s c)
    (M A L : FVec Ideal S256x1 .f32) (P : FVec Ideal S256x256 .f32) (O : FVec Ideal S256x128 .f32)
    (hM : M = maximumf mm (shapeCast S256x1 (multiReduction (F := Ideal) .maximumf [1] S256 S 0xFF800000#32 reduces_S256x256_S256 (.inl rfl) rfl) shapeCasts_S256_S256x1))
    (hA : A = exp (subf mm M))
    (hP : P = exp (subf S (broadcastTo S256x256 M broadcasts_S256x1_S256x256)))
    (hL : L = addf (mulf A ll) (shapeCast S256x1 (multiReduction (F := Ideal) .add [1] S256 P 0x00000000#32 reduces_S256x256_S256 (.inl rfl) rfl) shapeCasts_S256_S256x1))
    (hO : O = addf (mulf (broadcastTo S256x128 A broadcasts_S256x1_S256x128) acc)
            (matmul dot_S256x256_S256x128_S256x128_1_0_0_1_n_n none (truncf .bf16 P bitsLt_bf16_f32) vb (constant (F := Ideal) S256x128 .f32 0x00000000#32))) :
    ((fun h : Fin 128 => O (ix2 r h), M (ix2 r (0 : Fin 1)), L (ix2 r (0 : Fin 1))) : RowSt 128)
      = rstep s (fun c h => vb (ix2 c h)) ((fun h => acc (ix2 r h)), mm (ix2 r (0 : Fin 1)), ll (ix2 r (0 : Fin 1))) := by
  have eM : M (ix2 r (0 : Fin 1)) = max (mm (ix2 r (0 : Fin 1))) ((Finset.univ : Finset (Fin 256)).fold max ⊥ s) := by
    rw [hM]
    refine (maximumf_apply _ _ _).trans ?_
    rw [rowmax_apply]
    exact congrArg (fun f => max (mm (ix2 r (0 : Fin 1))) ((Finset.univ : Finset (Fin 256)).fold max ⊥ f)) (funext hS)
  have eA : A (ix2 r (0 : Fin 1)) = Ideal.exp (mm (ix2 r (0 : Fin 1)) - M (ix2 r (0 : Fin 1))) := by rw [hA]; rfl
  have eP : ∀ c : Fin 256, P (ix2 r c) = Ideal.exp (s c - M (ix2 r (0 : Fin 1))) := fun c => by
    rw [hP]
    show Ideal.exp (S (ix2 r c) - broadcastTo S256x256 M broadcasts_S256x1_S256x256 (ix2 r c)) = _
    rw [bcast256_apply, hS]
  have eL : L (ix2 r (0 : Fin 1)) = A (ix2 r (0 : Fin 1)) * ll (ix2 r (0 : Fin 1)) + ∑ c : Fin 256, P (ix2 r c) := by
    rw [hL]
    refine (addf_apply _ _ _).trans ?_
    rw [rowsum_apply]; rfl
  have eO : ∀ h : Fin 128, O (ix2 r h) = A (ix2 r (0 : Fin 1)) * acc (ix2 r h) + ∑ c : Fin 256, P (ix2 r c) * vb (ix2 c h) := fun h => by
    rw [hO]
    refine (addf_apply _ _ _).trans ?_
    rw [pv_apply]
    show broadcastTo S256x128 A broadcasts_S256x1_S256x128 (ix2 r h) * acc (ix2 r h) + _ = _
    rw [bcast128_apply]; rfl
  refine Prod.ext (funext fun h => ?_) (Prod.ext ?_ ?_)
  · show O (ix2 r h)
      = Ideal.exp (mm (ix2 r (0 : Fin 1)) - max (mm (ix2 r (0 : Fin 1))) ((Finset.univ : Finset (Fin 256)).fold max ⊥ s)) * acc (ix2 r h)
        + ∑ c : Fin 256, Ideal.exp (s c - max (mm (ix2 r (0 : Fin 1))) ((Finset.univ : Finset (Fin 256)).fold max ⊥ s)) * vb (ix2 c h)
    rw [eO, eA]
    simp only [eP, eM]
  · exact eM
  · show L (ix2 r (0 : Fin 1))
      = Ideal.exp (mm (ix2 r (0 : Fin 1)) - max (mm (ix2 r (0 : Fin 1))) ((Finset.univ : Finset (Fin 256)).fold max ⊥ s)) * ll (ix2 r (0 : Fin 1))
        + ∑ c : Fin 256, Ideal.exp (s c - max (mm (ix2 r (0 : Fin 1))) ((Finset.univ : Finset (Fin 256)).fold max ⊥ s))
    rw [eL, eA]
    simp only [eP, eM]

/-! ## The three loops -/

/-- One trip of query tile 1's loop, read on row r: the three yielded values are one step of the online softmax on
    that row, against the trip's key tile `kb` and value tile `vb` (the tile's mask: key row 256·k + c at most query
    row 256·1 + r). -/
theorem step_t1 (vq kb vb : Vec Ideal S256x128 .bf16) (k : Fin k0_t1_loop.trips)
    (acc : FVec Ideal S256x128 .f32) (mm ll : FVec Ideal S256x1 .f32) (r : Fin 256) :
    ((fun h : Fin 128 => k0_pay39 (F := Ideal) k0_pay26 vq k acc mm kb vb (ix2 r h),
      k0_pay35 (F := Ideal) k0_pay26 vq k mm kb (ix2 r (0 : Fin 1)),
      k0_pay38 (F := Ideal) k0_pay26 vq k mm ll kb (ix2 r (0 : Fin 1))) : RowSt 128)
    = rstep (fun c : Fin 256 => if 256 * k.val + c.val ≤ 256 * 1 + r.val then ∑ h : Fin 128, vq (ix2 r h) * kb (ix2 c h) else ⊥)
        (fun c h => vb (ix2 c h))
        ((fun h => acc (ix2 r h)), mm (ix2 r (0 : Fin 1)), ll (ix2 r (0 : Fin 1))) := by
  have hk : k.val < 4 := Nat.lt_of_lt_of_le (Nat.lt_of_lt_of_le k.isLt k0_t1_abs.2.1) (by norm_num)
  exact gstep (k0_pay34 (F := Ideal) k0_pay26 vq k kb) _ vb acc mm ll r
    (fun c => score_apply k.val 1 hk (by norm_num) vq kb r c)
    (k0_pay35 (F := Ideal) k0_pay26 vq k mm kb) (k0_pay36 (F := Ideal) k0_pay26 vq k mm kb) (k0_pay38 (F := Ideal) k0_pay26 vq k mm ll kb)
    (k0_pay37 (F := Ideal) k0_pay26 vq k mm kb) (k0_pay39 (F := Ideal) k0_pay26 vq k acc mm kb vb) rfl rfl rfl rfl rfl

/-- One trip of query tile 2's loop, read on row r: the three yielded values are one step of the online softmax on
    that row, against the trip's key tile `kb` and value tile `vb` (the tile's mask: key row 256·k + c at most query
    row 256·2 + r). -/
theorem step_t2 (vq kb vb : Vec Ideal S256x128 .bf16) (k : Fin k0_t2_loop.trips)
    (acc : FVec Ideal S256x128 .f32) (mm ll : FVec Ideal S256x1 .f32) (r : Fin 256) :
    ((fun h : Fin 128 => k0_pay10 (F := Ideal) k0_pay26 vq k acc mm kb vb (ix2 r h),
      k0_pay6 (F := Ideal) k0_pay26 vq k mm kb (ix2 r (0 : Fin 1)),
      k0_pay9 (F := Ideal) k0_pay26 vq k mm ll kb (ix2 r (0 : Fin 1))) : RowSt 128)
    = rstep (fun c : Fin 256 => if 256 * k.val + c.val ≤ 256 * 2 + r.val then ∑ h : Fin 128, vq (ix2 r h) * kb (ix2 c h) else ⊥)
        (fun c h => vb (ix2 c h))
        ((fun h => acc (ix2 r h)), mm (ix2 r (0 : Fin 1)), ll (ix2 r (0 : Fin 1))) := by
  have hk : k.val < 4 := Nat.lt_of_lt_of_le (Nat.lt_of_lt_of_le k.isLt k0_t2_abs.2.1) (by norm_num)
  exact gstep (k0_pay5 (F := Ideal) k0_pay26 vq k kb) _ vb acc mm ll r
    (fun c => score_apply k.val 2 hk (by norm_num) vq kb r c)
    (k0_pay6 (F := Ideal) k0_pay26 vq k mm kb) (k0_pay7 (F := Ideal) k0_pay26 vq k mm kb) (k0_pay9 (F := Ideal) k0_pay26 vq k mm ll kb)
    (k0_pay8 (F := Ideal) k0_pay26 vq k mm kb) (k0_pay10 (F := Ideal) k0_pay26 vq k acc mm kb vb) rfl rfl rfl rfl rfl

/-- One trip of query tile 3's loop, read on row r: the three yielded values are one step of the online softmax on
    that row, against the trip's key tile `kb` and value tile `vb` (the tile's mask: key row 256·k + c at most query
    row 256·3 + r). -/
theorem step_t3 (vq kb vb : Vec Ideal S256x128 .bf16) (k : Fin k0_t3_loop.trips)
    (acc : FVec Ideal S256x128 .f32) (mm ll : FVec Ideal S256x1 .f32) (r : Fin 256) :
    ((fun h : Fin 128 => k0_pay20 (F := Ideal) k0_pay26 vq k acc mm kb vb (ix2 r h),
      k0_pay16 (F := Ideal) k0_pay26 vq k mm kb (ix2 r (0 : Fin 1)),
      k0_pay19 (F := Ideal) k0_pay26 vq k mm ll kb (ix2 r (0 : Fin 1))) : RowSt 128)
    = rstep (fun c : Fin 256 => if 256 * k.val + c.val ≤ 256 * 3 + r.val then ∑ h : Fin 128, vq (ix2 r h) * kb (ix2 c h) else ⊥)
        (fun c h => vb (ix2 c h))
        ((fun h => acc (ix2 r h)), mm (ix2 r (0 : Fin 1)), ll (ix2 r (0 : Fin 1))) := by
  have hk : k.val < 4 := Nat.lt_of_lt_of_le (Nat.lt_of_lt_of_le k.isLt k0_t3_abs.2.1) (by norm_num)
  exact gstep (k0_pay15 (F := Ideal) k0_pay26 vq k kb) _ vb acc mm ll r
    (fun c => score_apply k.val 3 hk (by norm_num) vq kb r c)
    (k0_pay16 (F := Ideal) k0_pay26 vq k mm kb) (k0_pay17 (F := Ideal) k0_pay26 vq k mm kb) (k0_pay19 (F := Ideal) k0_pay26 vq k mm ll kb)
    (k0_pay18 (F := Ideal) k0_pay26 vq k mm kb) (k0_pay20 (F := Ideal) k0_pay26 vq k acc mm kb vb) rfl rfl rfl rfl rfl

end Cert.KernelIdeal.HV

end
-- ==== Proof.KI.Val.Ends.lean ====
/-
  The ends of the kernel's recurrence, read on one row: the loops start from numerator 0, maximum -∞, denominator 0;
  what is stored is numerator over denominator; and the first query tile does its single step inline and divides at once.
-/
import proofs.«419070_j21440476741642_3_alg».proof.Proof.KI.Val.Defs
import Idealize.ShloMosaic.PureOps.Ideal.Laws
import Idealize.ShloMosaic.Lib.Pipeline.Value
import Idealize.ShloMosaic.Lib.ValueLayout

set_option maxRecDepth 16384

noncomputable section

open scoped BigOperators

namespace Cert.KernelIdeal.HV

open Cert.KernelIdeal Cert.KernelIdeal.Gen Cert.KernelIdeal.H Cert.Attn
open Idealize.ShloMosaic Idealize.ShloMosaic.TcCoe Idealize.ShloMosaic.ValueIdx

/-! ## Readings of the single operations at an index, and one step of the recurrence on whole tiles -/

namespace Ends

/-- The f32 word of -∞ is the bottom of the extended reals. -/
theorem ofBits_ninf : Ideal.ofBits .f32 0xFF800000#32 = ⊥ := by simp [Ideal.ofBits, Ideal.ieee]

/-- A column [a,1] broadcast to [a,b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The causal mask: the word of r - c compared signed with zero -/

/-- Signed comparison of zero with the word of r - c, for r, c below 256: true exactly when c ≤ r. -/
theorem sle_sub (r c : Fin 256) : (0#32 : BitVec 32).sle (BitVec.ofNat 32 r.val - BitVec.ofNat 32 c.val) = decide (c.val ≤ r.val) := by
  have hr := r.isLt; have hc := c.isLt
  rw [BitVec.sle_eq_decide, BitVec.toInt_zero, BitVec.toInt_sub, BitVec.toInt_ofNat', BitVec.toInt_ofNat']
  refine decide_eq_decide.mpr ?_
  simp only [Int.bmod_def]
  omega

/-- The diagonal tile's column offset, (0 - 0)·256, is the zero word. -/
theorem mask_word : Scalar.muli (Scalar.subi (0#32) 0#32) 256#32 = 0#32 := by decide

/-- The mask's operand at (r, c) is the word of r - c. -/
theorem pay26_apply (r c : Fin 256) : k0_pay26 (ix2 r c) = BitVec.ofNat 32 r.val - BitVec.ofNat 32 c.val := by
  unfold k0_pay26
  show IntOp.subi (iota .tc S256x256 32 [0] iota_S256x256_d0_w32 (ix2 r c)) (iota .tc S256x256 32 [1] iota_S256x256_d1_w32 (ix2 r c)) = _
  rw [iota_single_apply, iota_single_apply]
  rfl

/-! ### Columns and row reductions -/

/-- A vector [a] cast to a column [a,1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index r with the coordinate c put back on axis 1 is (r, c). -/
theorem lift_ix (r c : Fin 256) : reduces_S256x256_S256.lift (ix1 r) c = ix2 r c :=
  funext fun a => match a with
    | ⟨0, _⟩ => Fin.ext rfl
    | ⟨1, _⟩ => Fin.ext rfl

/-- A row's maximum: the reduction over axis 1 from the word of -∞, read at row r. -/
theorem rowmax_apply (M : FVec Ideal S256x256 .f32) (r : Fin 256) :
    multiReduction (F := Ideal) .maximumf [1] S256 M 0xFF800000#32 reduces_S256x256_S256 (.inl rfl) rfl (ix1 r)
      = (Finset.univ : Finset (Fin 256)).fold max ⊥ (fun c => M (ix2 r c)) := by
  refine (Ideal.multiReduction_maximumf_single M 0xFF800000#32 reduces_S256x256_S256 (.inl rfl) rfl (ix1 r)).trans ?_
  have e : (M ∘ reduces_S256x256_S256.lift (ix1 r)) = fun c : Fin 256 => M (ix2 r c) :=
    funext fun c => congrArg M (lift_ix r c)
  have b : (FloatOps.ofBits (F := Ideal) .f32 0xFF800000#32 : EReal) = ⊥ := ofBits_ninf
  rw [b]
  exact congrArg (fun f : Fin 256 → EReal => Finset.fold max ⊥ f (Finset.univ : Finset (Fin 256))) e

/-- A row's sum: the reduction over axis 1 from the zero word, read at row r. -/
theorem rowsum_apply (P : FVec Ideal S256x256 .f32) (r : Fin 256) :
    multiReduction (F := Ideal) .add [1] S256 P 0x00000000#32 reduces_S256x256_S256 (.inl rfl) rfl (ix1 r)
      = ∑ c : Fin 256, P (ix2 r c) := by
  refine (Ideal.multiReduction_add_single P 0x00000000#32 reduces_S256x256_S256 (.inl rfl) rfl (ix1 r)).trans ?_
  exact Finset.sum_congr rfl fun c _ => congrArg P (lift_ix r c)

/-! ### The scores' product: both operands contracted along their feature axis -/

theorem lhs_qk_0 (i : S256x256.Idx) (q : dot_S256x128_S256x128_S256x256_1_1_0_0_n_n.contr.Idx) :
    (dot_S256x128_S256x128_S256x256_1_1_0_0_n_n.lhsIdx i q 0).val = (i 0).val := by
  unfold DotDims.lhsIdx
  rw [dif_neg (show ¬(0 : Fin S256x128.rank) ∈ dot_S256x128_S256x128_S256x256_1_1_0_0_n_n.lhsBatch by decide), dif_pos (show (0 : Fin S256x128.rank) ∈ dot_S256x128_S256x128_S256x256_1_1_0_0_n_n.lhsNonContracting by decide)]
  rfl
theorem lhs_qk_1 (i : S256x256.Idx) (q : dot_S256x128_S256x128_S256x256_1_1_0_0_n_n.contr.Idx) :
    (dot_S256x128_S256x128_S256x256_1_1_0_0_n_n.lhsIdx i q 1).val = (q ⟨0, by decide⟩).val :=
  dot_S256x128_S256x128_S256x256_1_1_0_0_n_n.lhsIdx_val_of_single rfl i q
theorem rhs_qk_0 (i : S256x256.Idx) (q : dot_S256x128_S256x128_S256x256_1_1_0_0_n_n.contr.Idx) :
    (dot_S256x128_S256x128_S256x256_1_1_0_0_n_n.rhsIdx i q 0).val = (i 1).val := by
  unfold DotDims.rhsIdx
  rw [dif_neg (show ¬(0 : Fin S256x128.rank) ∈ dot_S256x128_S256x128_S256x256_1_1_0_0_n_n.rhsBatch by decide), dif_pos (show (0 : Fin S256x128.rank) ∈ dot_S256x128_S256x128_S256x256_1_1_0_0_n_n.rhsNonContracting by decide)]
  rfl
theorem rhs_qk_1 (i : S256x256.Idx) (q : dot_S256x128_S256x128_S256x256_1_1_0_0_n_n.contr.Idx) :
    (dot_S256x128_S256x128_S256x256_1_1_0_0_n_n.rhsIdx i q 1).val = (q ⟨0, by decide⟩).val :=
  dot_S256x128_S256x128_S256x256_1_1_0_0_n_n.rhsIdx_val_of_single rfl i q

/-- The scores at (r, c): the query row r against the key row c, summed over the 128 features. -/
theorem qk_apply (vq kb : FVec Ideal S256x128 .bf16) (r c : Fin 256) :
    matmul (F := Ideal) dot_S256x128_S256x128_S256x256_1_1_0_0_n_n none vq kb (constant S256x256 .f32 0x00000000#32) (ix2 r c)
      = ∑ k : Fin 128, vq (ix2 r k) * kb (ix2 c k) := by
  simp only [matmul]
  rw [Ideal.matmul_constant_zero_apply, ← Equiv.sum_comp (contrEquiv1 dot_S256x128_S256x128_S256x256_1_1_0_0_n_n 128 rfl rfl).symm]
  refine Finset.sum_congr rfl fun k _ => ?_
  have hk := contrEquiv1_symm_val dot_S256x128_S256x128_S256x256_1_1_0_0_n_n 128 rfl rfl k
  have el : dot_S256x128_S256x128_S256x256_1_1_0_0_n_n.lhsIdx (ix2 r c) ((contrEquiv1 dot_S256x128_S256x128_S256x256_1_1_0_0_n_n 128 rfl rfl).symm k) = ix2 r k := funext fun a => Fin.ext (by
    match a with
    | ⟨0, _⟩ => exact lhs_qk_0 _ _
    | ⟨1, _⟩ => exact (lhs_qk_1 _ _).trans hk)
  have er : dot_S256x128_S256x128_S256x256_1_1_0_0_n_n.rhsIdx (ix2 r c) ((contrEquiv1 dot_S256x128_S256x128_S256x256_1_1_0_0_n_n 128 rfl rfl).symm k) = ix2 c k := funext fun a => Fin.ext (by
    match a with
    | ⟨0, _⟩ => exact rhs_qk_0 _ _
    | ⟨1, _⟩ => exact (rhs_qk_1 _ _).trans hk)
  rw [el, er]

/-! ### The weighted sum of the value rows: a plain product -/

theorem lhs_pv_0 (i : S256x128.Idx) (q : dot_S256x256_S256x128_S256x128_1_0_0_1_n_n.contr.Idx) :
    (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
theorem lhs_pv_1 (i : S256x128.Idx) (q : dot_S256x256_S256x128_S256x128_1_0_0_1_n_n.contr.Idx) :
    (dot_S256x256_S256x128_S256x128_1_0_0_1_n_n.lhsIdx i q 1).val = (q ⟨0, by decide⟩).val :=
  dot_S256x256_S256x128_S256x128_1_0_0_1_n_n.lhsIdx_val_of_single rfl i q
theorem rhs_pv_0 (i : S256x128.Idx) (q : dot_S256x256_S256x128_S256x128_1_0_0_1_n_n.contr.Idx) :
    (dot_S256x256_S256x128_S256x128_1_0_0_1_n_n.rhsIdx i q 0).val = (q ⟨0, by decide⟩).val :=
  dot_S256x256_S256x128_S256x128_1_0_0_1_n_n.rhsIdx_val_of_single rfl i q
theorem rhs_pv_1 (i : S256x128.Idx) (q : dot_S256x256_S256x128_S256x128_1_0_0_1_n_n.contr.Idx) :
    (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl

/-- The weights' product with the value rows at (r, h): summed over the tile's 256 key rows. -/
theorem pv_apply (P : FVec Ideal S256x256 .bf16) (vb : FVec Ideal S256x128 .bf16) (r : Fin 256) (h : Fin 128) :
    matmul (F := Ideal) dot_S256x256_S256x128_S256x128_1_0_0_1_n_n none P vb (constant S256x128 .f32 0x00000000#32) (ix2 r h)
      = ∑ c : Fin 256, P (ix2 r c) * vb (ix2 c h) := by
  simp only [matmul]
  rw [Ideal.matmul_constant_zero_apply, ← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx (ix2 r h) ((contrEquiv1 dot_S256x256_S256x128_S256x128_1_0_0_1_n_n 256 rfl rfl).symm k) = ix2 r k := funext fun a => Fin.ext (by
    match a with
    | ⟨0, _⟩ => exact lhs_pv_0 _ _
    | ⟨1, _⟩ => exact (lhs_pv_1 _ _).trans hk)
  have er : dot_S256x256_S256x128_S256x128_1_0_0_1_n_n.rhsIdx (ix2 r h) ((contrEquiv1 dot_S256x256_S256x128_S256x128_1_0_0_1_n_n 256 rfl rfl).symm k) = ix2 k h := funext fun a => Fin.ext (by
    match a with
    | ⟨0, _⟩ => exact (rhs_pv_0 _ _).trans hk
    | ⟨1, _⟩ => exact rhs_pv_1 _ _)
  rw [el, er]

/-! ### The first tile's masked scores -/

/-- The first tile's masked scores, as the kernel computes them. -/
def t0M (vq kb : FVec Ideal S256x128 .bf16) : FVec Ideal S256x256 .f32 :=
  select (cmpi .sge k0_pay26 (broadcast S256x256 (Scalar.muli (Scalar.subi (0#32) 0#32) 256#32)))
    (matmul (F := Ideal) dot_S256x128_S256x128_S256x256_1_1_0_0_n_n none vq kb (constant S256x256 .f32 0x00000000#32))
    (broadcast S256x256 (Named.named (F := Ideal) κ "neg_big" (φ := .f32) 0xF149F2CA#32))

theorem t0M_apply (vq kb : FVec Ideal S256x128 .bf16) (r c : Fin 256) :
    t0M vq kb (ix2 r c) = if c.val ≤ r.val then ∑ k : Fin 128, vq (ix2 r k) * kb (ix2 c k) else ⊥ := by
  unfold t0M
  refine (select_apply _ _ _ _).trans ?_
  have hbit : cmpi .sge k0_pay26 (broadcast S256x256 (Scalar.muli (Scalar.subi (0#32) 0#32) 256#32)) (ix2 r c)
      = BitVec.ofBool (decide (c.val ≤ r.val)) := by
    show IntOp.cmpi .sge (k0_pay26 (ix2 r c)) (Scalar.muli (Scalar.subi (0#32) 0#32) 256#32) = _
    rw [pay26_apply, mask_word]
    show BitVec.ofBool ((0#32 : BitVec 32).sle _) = _
    rw [sle_sub]
  have hn : (broadcast S256x256 (Named.named (F := Ideal) κ "neg_big" (φ := .f32) 0xF149F2CA#32) (ix2 r c) : EReal) = ⊥ :=
    IdealRules.named_const.ideal_named_scalar _ _ _ _ rfl
  rw [hbit, qk_apply, hn]
  by_cases hcr : c.val ≤ r.val
  · rw [if_pos hcr, decide_eq_true hcr]; rfl
  · rw [if_neg hcr, decide_eq_false hcr]; rfl

/-! ### One step of the recurrence on whole tiles, and its reading on one row -/

/-- The new running maximum. -/
def rowMx (M : FVec Ideal S256x256 .f32) (m0 : FVec Ideal S256x1 .f32) : FVec Ideal S256x1 .f32 :=
  maximumf m0 (shapeCast S256x1 (multiReduction (F := Ideal) .maximumf [1] S256 M 0xFF800000#32 reduces_S256x256_S256 (.inl rfl) rfl) shapeCasts_S256_S256x1)
/-- The factor that rescales the carried sums when the maximum moves. -/
def resc (M : FVec Ideal S256x256 .f32) (m0 : FVec Ideal S256x1 .f32) : FVec Ideal S256x1 .f32 :=
  exp (subf m0 (rowMx M m0))
/-- The tile's unnormalised weights. -/
def wts (M : FVec Ideal S256x256 .f32) (m0 : FVec Ideal S256x1 .f32) : FVec Ideal S256x256 .f32 :=
  exp (subf M (broadcastTo S256x256 (rowMx M m0) broadcasts_S256x1_S256x256))
/-- The new running denominator. -/
def den (M : FVec Ideal S256x256 .f32) (m0 l0 : FVec Ideal S256x1 .f32) : FVec Ideal S256x1 .f32 :=
  addf (mulf (resc M m0) l0)
    (shapeCast S256x1 (multiReduction (F := Ideal) .add [1] S256 (wts M m0) 0x00000000#32 reduces_S256x256_S256 (.inl rfl) rfl) shapeCasts_S256_S256x1)
/-- The new running numerator. -/
def num (M : FVec Ideal S256x256 .f32) (m0 : FVec Ideal S256x1 .f32) (acc0 : FVec Ideal S256x128 .f32) (vb : FVec Ideal S256x128 .bf16) :
    FVec Ideal S256x128 .f32 :=
  addf (mulf (broadcastTo S256x128 (resc M m0) broadcasts_S256x1_S256x128) acc0)
    (matmul (F := Ideal) dot_S256x256_S256x128_S256x128_1_0_0_1_n_n none (truncf .bf16 (wts M m0) bitsLt_bf16_f32) vb (constant S256x128 .f32 0x00000000#32))
/-- Numerator over denominator, with the leading unit axis of the output block. -/
def outV (M : FVec Ideal S256x256 .f32) (acc0 : FVec Ideal S256x128 .f32) (m0 l0 : FVec Ideal S256x1 .f32) (vb : FVec Ideal S256x128 .bf16) :
    FVec Ideal S1x256x128 .f32 :=
  shapeCast S1x256x128 (divf (num M m0 acc0 vb) (broadcastTo S256x128 (den M m0 l0) broadcasts_S256x1_S256x128)) shapeCasts_S256x128_S1x256x128

theorem rowMx_apply (M : FVec Ideal S256x256 .f32) (m0 : FVec Ideal S256x1 .f32) (r : Fin 256) :
    rowMx M m0 (ix2 r (0 : Fin 1)) = max (m0 (ix2 r (0 : Fin 1))) ((Finset.univ : Finset (Fin 256)).fold max ⊥ (fun c => M (ix2 r c))) := by
  unfold rowMx
  refine (maximumf_apply _ _ _).trans ?_
  exact congrArg (max (m0 (ix2 r (0 : Fin 1)))) ((shapeCast_a_a1_apply _ _ r (0 : Fin 1)).trans (rowmax_apply M r))

theorem resc_apply (M : FVec Ideal S256x256 .f32) (m0 : FVec Ideal S256x1 .f32) (r : Fin 256) :
    resc M m0 (ix2 r (0 : Fin 1)) = Ideal.exp (m0 (ix2 r (0 : Fin 1)) - rowMx M m0 (ix2 r (0 : Fin 1))) := rfl

theorem wts_apply (M : FVec Ideal S256x256 .f32) (m0 : FVec Ideal S256x1 .f32) (r c : Fin 256) :
    wts M m0 (ix2 r c) = Ideal.exp (M (ix2 r c) - rowMx M m0 (ix2 r (0 : Fin 1))) := by
  unfold wts
  show Ideal.exp (M (ix2 r c) - broadcastTo S256x256 (rowMx M m0) broadcasts_S256x1_S256x256 (ix2 r c)) = _
  exact congrArg (fun x => Ideal.exp (M (ix2 r c) - x)) (broadcastTo_a1_ab_apply _ _ r c)

theorem den_apply (M : FVec Ideal S256x256 .f32) (m0 l0 : FVec Ideal S256x1 .f32) (r : Fin 256) :
    den M m0 l0 (ix2 r (0 : Fin 1)) = resc M m0 (ix2 r (0 : Fin 1)) * l0 (ix2 r (0 : Fin 1)) + ∑ c : Fin 256, wts M m0 (ix2 r c) := by
  unfold den
  refine (addf_apply _ _ _).trans ?_
  exact congrArg (resc M m0 (ix2 r (0 : Fin 1)) * l0 (ix2 r (0 : Fin 1)) + ·) ((shapeCast_a_a1_apply _ _ r (0 : Fin 1)).trans (rowsum_apply _ r))

theorem num_apply (M : FVec Ideal S256x256 .f32) (m0 : FVec Ideal S256x1 .f32) (acc0 : FVec Ideal S256x128 .f32) (vb : FVec Ideal S256x128 .bf16)
    (r : Fin 256) (h : Fin 128) :
    num M m0 acc0 vb (ix2 r h) = resc M m0 (ix2 r (0 : Fin 1)) * acc0 (ix2 r h) + ∑ c : Fin 256, wts M m0 (ix2 r c) * vb (ix2 c h) := by
  unfold num
  refine (addf_apply _ _ _).trans ?_
  have e1 : mulf (broadcastTo S256x128 (resc M m0) broadcasts_S256x1_S256x128) acc0 (ix2 r h) = resc M m0 (ix2 r (0 : Fin 1)) * acc0 (ix2 r h) :=
    congrArg (· * acc0 (ix2 r h)) (broadcastTo_a1_ab_apply _ _ r h)
  have e2 := pv_apply (truncf .bf16 (wts M m0) bitsLt_bf16_f32) vb r h
  rw [e1, e2]
  rfl

theorem outV_apply (M : FVec Ideal S256x256 .f32) (acc0 : FVec Ideal S256x128 .f32) (m0 l0 : FVec Ideal S256x1 .f32) (vb : FVec Ideal S256x128 .bf16)
    (r : Fin 256) (h : Fin 128) :
    outV M acc0 m0 l0 vb (ix3 (0 : Fin 1) r h)
      = Ideal.div
          ((rstep (fun c : Fin 256 => M (ix2 r c)) (fun c h => vb (ix2 c h))
              ((fun h => acc0 (ix2 r h), m0 (ix2 r (0 : Fin 1)), l0 (ix2 r (0 : Fin 1))) : RowSt 128)).1 h)
          (rstep (fun c : Fin 256 => M (ix2 r c)) (fun c h => vb (ix2 c h))
              ((fun h => acc0 (ix2 r h), m0 (ix2 r (0 : Fin 1)), l0 (ix2 r (0 : Fin 1))) : RowSt 128)).2.2 := by
  unfold outV
  refine (shapeCast_ab_1ab_apply _ _ (0 : Fin 1) r h).trans ?_
  refine (divf_apply _ _ _).trans ?_
  have e : broadcastTo S256x128 (den M m0 l0) broadcasts_S256x1_S256x128 (ix2 r h) = den M m0 l0 (ix2 r (0 : Fin 1)) :=
    broadcastTo_a1_ab_apply _ _ r h
  rw [e, num_apply, den_apply]
  simp only [wts_apply, resc_apply, rowMx_apply]
  rfl

theorem pay30_eq (vq kb vb : FVec Ideal S256x128 .bf16) :
    k0_pay30 (F := Ideal) k0_pay26 vq k0_pay27 k0_pay28 k0_pay29 (0#32) kb vb = outV (t0M vq kb) k0_pay27 k0_pay28 k0_pay29 vb := rfl

end Ends

/-! ## What the loops start from -/

theorem init_t1 (r : Fin 256) :
    ((fun h : Fin 128 => k0_pay31 (F := Ideal) (ix2 r h), k0_pay32 (F := Ideal) (ix2 r (0 : Fin 1)), k0_pay33 (F := Ideal) (ix2 r (0 : Fin 1))) : RowSt 128)
      = (fun _ => 0, ⊥, 0) := by
  refine Prod.ext (funext fun h => ?_) (Prod.ext ?_ ?_)
  · exact Ideal.ofBits_zero_f32
  · exact Ends.ofBits_ninf
  · exact Ideal.ofBits_zero_f32
theorem init_t2 (r : Fin 256) :
    ((fun h : Fin 128 => k0_pay2 (F := Ideal) (ix2 r h), k0_pay3 (F := Ideal) (ix2 r (0 : Fin 1)), k0_pay4 (F := Ideal) (ix2 r (0 : Fin 1))) : RowSt 128)
      = (fun _ => 0, ⊥, 0) := by
  refine Prod.ext (funext fun h => ?_) (Prod.ext ?_ ?_)
  · exact Ideal.ofBits_zero_f32
  · exact Ends.ofBits_ninf
  · exact Ideal.ofBits_zero_f32
theorem init_t3 (r : Fin 256) :
    ((fun h : Fin 128 => k0_pay12 (F := Ideal) (ix2 r h), k0_pay13 (F := Ideal) (ix2 r (0 : Fin 1)), k0_pay14 (F := Ideal) (ix2 r (0 : Fin 1))) : RowSt 128)
      = (fun _ => 0, ⊥, 0) := by
  refine Prod.ext (funext fun h => ?_) (Prod.ext ?_ ?_)
  · exact Ideal.ofBits_zero_f32
  · exact Ends.ofBits_ninf
  · exact Ideal.ofBits_zero_f32

/-! ## What is stored: numerator over denominator -/

theorem fin_t1 (a : FVec Ideal S256x128 .f32) (l : FVec Ideal S256x1 .f32) (r : Fin 256) (h : Fin 128) :
    k0_pay1 (F := Ideal) a (k0_pay40 l) (ix3 (0 : Fin 1) r h) = Ideal.div (a (ix2 r h)) (l (ix2 r (0 : Fin 1))) := by
  unfold k0_pay1 k0_pay40
  refine (shapeCast_ab_1ab_apply _ _ (0 : Fin 1) r h).trans ?_
  refine (divf_apply _ _ _).trans ?_
  exact congrArg (Ideal.div (a (ix2 r h))) (Ends.broadcastTo_a1_ab_apply l _ r h)
theorem fin_t2 (a : FVec Ideal S256x128 .f32) (l : FVec Ideal S256x1 .f32) (r : Fin 256) (h : Fin 128) :
    k0_pay11 (F := Ideal) a l (ix3 (0 : Fin 1) r h) = Ideal.div (a (ix2 r h)) (l (ix2 r (0 : Fin 1))) := by
  unfold k0_pay11
  refine (shapeCast_ab_1ab_apply _ _ (0 : Fin 1) r h).trans ?_
  refine (divf_apply _ _ _).trans ?_
  exact congrArg (Ideal.div (a (ix2 r h))) (Ends.broadcastTo_a1_ab_apply l _ r h)
theorem fin_t3 (a : FVec Ideal S256x128 .f32) (l : FVec Ideal S256x1 .f32) (r : Fin 256) (h : Fin 128) :
    k0_pay21 (F := Ideal) a l (ix3 (0 : Fin 1) r h) = Ideal.div (a (ix2 r h)) (l (ix2 r (0 : Fin 1))) := by
  unfold k0_pay21
  refine (shapeCast_ab_1ab_apply _ _ (0 : Fin 1) r h).trans ?_
  refine (divf_apply _ _ _).trans ?_
  exact congrArg (Ideal.div (a (ix2 r h))) (Ends.broadcastTo_a1_ab_apply l _ r h)

/-! ## The first query tile: one step inline, then the division -/

/-- The first tile's stored value on row r, feature h: one online-softmax step from the empty state against key tile 0
    (mask: key row c at most query row r), numerator over denominator. -/
theorem tile0_out (vq kb vb : Vec Ideal S256x128 .bf16) (r : Fin 256) (h : Fin 128) :
    k0_pay30 (F := Ideal) k0_pay26 vq k0_pay27 k0_pay28 k0_pay29 (0#32) kb vb (ix3 (0 : Fin 1) r h)
      = Ideal.div
          ((rstep (fun c : Fin 256 => if c.val ≤ r.val then ∑ h : Fin 128, vq (ix2 r h) * kb (ix2 c h) else ⊥)
              (fun c h => vb (ix2 c h)) ((fun _ => 0, ⊥, 0) : RowSt 128)).1 h)
          (rstep (fun c : Fin 256 => if c.val ≤ r.val then ∑ h : Fin 128, vq (ix2 r h) * kb (ix2 c h) else ⊥)
              (fun c h => vb (ix2 c h)) ((fun _ => 0, ⊥, 0) : RowSt 128)).2.2 := by
  have e := Ends.outV_apply (Ends.t0M vq kb) k0_pay27 k0_pay28 k0_pay29 vb r h
  have hs : (fun c : Fin 256 => Ends.t0M vq kb (ix2 r c))
      = fun c : Fin 256 => if c.val ≤ r.val then ∑ h : Fin 128, vq (ix2 r h) * kb (ix2 c h) else ⊥ :=
    funext fun c => Ends.t0M_apply vq kb r c
  have hst : ((fun h : Fin 128 => k0_pay27 (F := Ideal) (ix2 r h), k0_pay28 (F := Ideal) (ix2 r (0 : Fin 1)),
      k0_pay29 (F := Ideal) (ix2 r (0 : Fin 1))) : RowSt 128) = (fun _ => 0, ⊥, 0) := by
    refine Prod.ext (funext fun h => ?_) (Prod.ext ?_ ?_)
    · exact Ideal.ofBits_zero_f32
    · exact Ends.ofBits_ninf
    · exact Ideal.ofBits_zero_f32
  rw [hs, hst] at e
  exact (congrFun (Ends.pay30_eq vq kb vb) _).trans e

end Cert.KernelIdeal.HV

end
-- ==== Proof.KI.Val.Tiles.lean ====
/-
  What the body leaves in the output buffer, read at row t and feature h, is the kernel's formula: the four stored
  pieces are the four query tiles; a tile's piece is numerator over denominator of the row's online recurrence after
  the tile's loop, whose trips are the recurrence's steps against the key and value tiles read back from scratch.
-/
import proofs.«419070_j21440476741642_3_alg».proof.Proof.KI.Frame
import proofs.«419070_j21440476741642_3_alg».proof.Proof.KI.Val.Loads
import proofs.«419070_j21440476741642_3_alg».proof.Proof.KI.Val.Step
import proofs.«419070_j21440476741642_3_alg».proof.Proof.KI.Val.Ends

set_option maxRecDepth 16384

noncomputable section

open scoped BigOperators

namespace Cert.KernelIdeal.HV

open Cert.KernelIdeal Cert.KernelIdeal.Gen Cert.KernelIdeal.H Cert.Attn
open Idealize.ShloMosaic Idealize.ShloMosaic.TcCoe Idealize.ShloMosaic.ValueIdx

variable (c : Dev nD) (i : grid0.Coords) (arg1 : Memref sig .tc .vmem S1x1024x768 .f32) (harg1 : arg1.IsWhole) (arg2 : Memref sig .tc .vmem S768x384 .f32) (harg2 : arg2.IsWhole) (arg3 : Memref sig .tc .vmem S1x1024x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole)
  (x0 : Vec Ideal S1x1024x768 .f32) (x1 : Vec Ideal S768x384 .f32)

namespace Tiles

/-! ## The recurrence's step and result, up to pointwise equal tiles -/

theorem rstep_congr {B H : ℕ} {s s' : Fin B → EReal} {v v' : Fin B → Fin H → EReal} (st : RowSt H)
    (hs : ∀ cc, s cc = s' cc) (hv : ∀ cc hh, v cc hh = v' cc hh) : rstep s v st = rstep s' v' st := by
  obtain rfl : s = s' := funext hs
  obtain rfl : v = v' := funext fun cc => funext (hv cc)
  rfl

/-- Numerator over denominator of a state that is the recurrence's after the tiles up to the diagonal's. -/
theorem kerOut_of_state (qs k v : Mat 1024 128) (t : Fin 1024) (h : Fin 128) (n : ℕ) (hn : t.val / 256 + 1 = n)
    {X : RowSt 128} (hX : X = rfold (srow qs k t) (vrow v) n) : Ideal.div (X.1 h) X.2.2 = kerOut qs k v t h := by
  subst hn hX; rfl

/-! ## One trip of each loop -/

/-- One trip of query tile 1's loop: the three yields are the trip's payloads of the carried value and of the key and
    value tiles read at the trip's row offset. -/
theorem trip_t1_eq (v26 : IVec S256x256 32) (w27 : Vec Ideal S256x128 .bf16) (w28 : FVec Ideal S256x128 .f32) (w29 w30 : FVec Ideal S256x1 .f32) (b0 b1 : BitVec 32) (w34 : Vec Ideal S256x128 .bf16) (vq : Vec Ideal S256x128 .bf16)
    (X5 : BufTy.Contents (Elt Ideal) arg5.view.ty) (X6 : BufTy.Contents (Elt Ideal) arg6.view.ty)
    (k : Fin k0_t1_loop.trips) (acc : FVec Ideal S256x128 .f32 × FVec Ideal S256x1 .f32 × FVec Ideal S256x1 .f32) :
    tripR_k0_t1 (F := Ideal) Variants.none c none i arg1 harg1 arg2 harg2 arg3 harg3 arg4 harg4 arg5 harg5 arg6 harg6 v26 w27 w28 w29 w30 b0 b1 w34 vq X5 X6 k acc
      = (k0_pay39 v26 vq k acc.1 acc.2.1 (View.readAt (Elt Ideal) arg5.view (Rect.unit (s := S1024x128) (k0_off2 k) S256x128.size (k0_off2_inb k)).toLoadRect X5) (View.readAt (Elt Ideal) arg6.view (Rect.unit (s := S1024x128) (k0_off2 k) S256x128.size (k0_off2_inb k)).toLoadRect X6),
         k0_pay35 v26 vq k acc.2.1 (View.readAt (Elt Ideal) arg5.view (Rect.unit (s := S1024x128) (k0_off2 k) S256x128.size (k0_off2_inb k)).toLoadRect X5),
         k0_pay38 v26 vq k acc.2.1 acc.2.2 (View.readAt (Elt Ideal) arg5.view (Rect.unit (s := S1024x128) (k0_off2 k) S256x128.size (k0_off2_inb k)).toLoadRect X5)) := by
  unfold tripR_k0_t1 trip_k0_t1
  rfl

/-- One trip of query tile 2's loop: the three yields are the trip's payloads of the carried value and of the key and
    value tiles read at the trip's row offset. -/
theorem trip_t2_eq (v26 : IVec S256x256 32)  (vq : Vec Ideal S256x128 .bf16)
    (X5 : BufTy.Contents (Elt Ideal) arg5.view.ty) (X6 : BufTy.Contents (Elt Ideal) arg6.view.ty)
    (k : Fin k0_t2_loop.trips) (acc : FVec Ideal S256x128 .f32 × FVec Ideal S256x1 .f32 × FVec Ideal S256x1 .f32) :
    tripR_k0_t2 (F := Ideal) Variants.none c none i arg1 harg1 arg2 harg2 arg3 harg3 arg4 harg4 arg5 harg5 arg6 harg6 v26  vq X5 X6 k acc
      = (k0_pay10 v26 vq k acc.1 acc.2.1 (View.readAt (Elt Ideal) arg5.view (Rect.unit (s := S1024x128) (k0_off3 k) S256x128.size (k0_off3_inb k)).toLoadRect X5) (View.readAt (Elt Ideal) arg6.view (Rect.unit (s := S1024x128) (k0_off3 k) S256x128.size (k0_off3_inb k)).toLoadRect X6),
         k0_pay6 v26 vq k acc.2.1 (View.readAt (Elt Ideal) arg5.view (Rect.unit (s := S1024x128) (k0_off3 k) S256x128.size (k0_off3_inb k)).toLoadRect X5),
         k0_pay9 v26 vq k acc.2.1 acc.2.2 (View.readAt (Elt Ideal) arg5.view (Rect.unit (s := S1024x128) (k0_off3 k) S256x128.size (k0_off3_inb k)).toLoadRect X5)) := by
  unfold tripR_k0_t2 trip_k0_t2
  rfl

/-- One trip of query tile 3's loop: the three yields are the trip's payloads of the carried value and of the key and
    value tiles read at the trip's row offset. -/
theorem trip_t3_eq (v26 : IVec S256x256 32)  (vq : Vec Ideal S256x128 .bf16)
    (X5 : BufTy.Contents (Elt Ideal) arg5.view.ty) (X6 : BufTy.Contents (Elt Ideal) arg6.view.ty)
    (k : Fin k0_t3_loop.trips) (acc : FVec Ideal S256x128 .f32 × FVec Ideal S256x1 .f32 × FVec Ideal S256x1 .f32) :
    tripR_k0_t3 (F := Ideal) Variants.none c none i arg1 harg1 arg2 harg2 arg3 harg3 arg4 harg4 arg5 harg5 arg6 harg6 v26  vq X5 X6 k acc
      = (k0_pay20 v26 vq k acc.1 acc.2.1 (View.readAt (Elt Ideal) arg5.view (Rect.unit (s := S1024x128) (k0_off4 k) S256x128.size (k0_off4_inb k)).toLoadRect X5) (View.readAt (Elt Ideal) arg6.view (Rect.unit (s := S1024x128) (k0_off4 k) S256x128.size (k0_off4_inb k)).toLoadRect X6),
         k0_pay16 v26 vq k acc.2.1 (View.readAt (Elt Ideal) arg5.view (Rect.unit (s := S1024x128) (k0_off4 k) S256x128.size (k0_off4_inb k)).toLoadRect X5),
         k0_pay19 v26 vq k acc.2.1 acc.2.2 (View.readAt (Elt Ideal) arg5.view (Rect.unit (s := S1024x128) (k0_off4 k) S256x128.size (k0_off4_inb k)).toLoadRect X5)) := by
  unfold tripR_k0_t3 trip_k0_t3
  rfl

/-! ## The loops' carried values, row by row -/

/-- The carried value of query tile 1's loop before trip n, at the run's arguments. -/
def S1 (w27 : Vec Ideal S256x128 .bf16) (w28 : FVec Ideal S256x128 .f32) (w29 w30 : FVec Ideal S256x1 .f32) (b0 b1 : BitVec 32) (w34 : Vec Ideal S256x128 .bf16) (n : ℕ) : FVec Ideal S256x128 .f32 × FVec Ideal S256x1 .f32 × FVec Ideal S256x1 .f32 :=
  st_k0_t1 (F := Ideal) Variants.none c none i arg1 harg1 arg2 harg2 arg3 harg3 arg4 harg4 arg5 harg5 arg6 harg6 k0_pay26 w27 w28 w29 w30 b0 b1 w34
    (kernelRun0_A.sl.v66 (F := Ideal) c arg1 harg1 arg2 harg2 arg4 x0 x1)
    (arg5.view.writes (Elt Ideal) arg5.view.junk (kernelRun0_A.sl.HS1_1 (F := Ideal) c arg1 harg1 arg2 harg2 x0 x1))
    (arg6.view.writes (Elt Ideal) arg6.view.junk (kernelRun0_A.sl.HS2_1 (F := Ideal) c arg1 harg1 arg2 harg2 x0 x1))
    (k0_pay31, k0_pay32, k0_pay33) n

/-- The carried value of query tile 2's loop before trip n, at the run's arguments. -/
def S2  (n : ℕ) : FVec Ideal S256x128 .f32 × FVec Ideal S256x1 .f32 × FVec Ideal S256x1 .f32 :=
  st_k0_t2 (F := Ideal) Variants.none c none i arg1 harg1 arg2 harg2 arg3 harg3 arg4 harg4 arg5 harg5 arg6 harg6 k0_pay26
    (kernelRun0_A.sl.v77 (F := Ideal) c arg1 harg1 arg2 harg2 arg4 x0 x1)
    (arg5.view.writes (Elt Ideal) arg5.view.junk (kernelRun0_A.sl.HS1_1 (F := Ideal) c arg1 harg1 arg2 harg2 x0 x1))
    (arg6.view.writes (Elt Ideal) arg6.view.junk (kernelRun0_A.sl.HS2_1 (F := Ideal) c arg1 harg1 arg2 harg2 x0 x1))
    (k0_pay2, k0_pay3, k0_pay4) n

/-- The carried value of query tile 3's loop before trip n, at the run's arguments. -/
def S3  (n : ℕ) : FVec Ideal S256x128 .f32 × FVec Ideal S256x1 .f32 × FVec Ideal S256x1 .f32 :=
  st_k0_t3 (F := Ideal) Variants.none c none i arg1 harg1 arg2 harg2 arg3 harg3 arg4 harg4 arg5 harg5 arg6 harg6 k0_pay26
    (kernelRun0_A.sl.v88 (F := Ideal) c arg1 harg1 arg2 harg2 arg4 x0 x1)
    (arg5.view.writes (Elt Ideal) arg5.view.junk (kernelRun0_A.sl.HS1_1 (F := Ideal) c arg1 harg1 arg2 harg2 x0 x1))
    (arg6.view.writes (Elt Ideal) arg6.view.junk (kernelRun0_A.sl.HS2_1 (F := Ideal) c arg1 harg1 arg2 harg2 x0 x1))
    (k0_pay12, k0_pay13, k0_pay14) n

/-- The loop's invariant on one row: before trip n the carried numerator, maximum and denominator of row r are the
    online recurrence's state after the first n key/value tiles. -/
theorem inv_t1 (w27 : Vec Ideal S256x128 .bf16) (w28 : FVec Ideal S256x128 .f32) (w29 w30 : FVec Ideal S256x1 .f32) (b0 b1 : BitVec 32) (w34 : Vec Ideal S256x128 .bf16) (r : Fin 256) : ∀ n : ℕ, n ≤ 2 →
    (((fun h : Fin 128 => (S1 c i arg1 harg1 arg2 harg2 arg3 harg3 arg4 harg4 arg5 harg5 arg6 harg6 x0 x1 w27 w28 w29 w30 b0 b1 w34 n).1 (ix2 r h)), (S1 c i arg1 harg1 arg2 harg2 arg3 harg3 arg4 harg4 arg5 harg5 arg6 harg6 x0 x1 w27 w28 w29 w30 b0 b1 w34 n).2.1 (ix2 r (0 : Fin 1)), (S1 c i arg1 harg1 arg2 harg2 arg3 harg3 arg4 harg4 arg5 harg5 arg6 harg6 x0 x1 w27 w28 w29 w30 b0 b1 w34 n).2.2 (ix2 r (0 : Fin 1))) : RowSt 128)
      = rfold (srow (qsM x0 x1) (kM x0 x1) (rowOf 1 (by norm_num) r)) (vrow (vM x0 x1)) n
  | 0, _ => init_t1 r
  | n + 1, hn => by
    have htr : k0_t1_loop.trips = 2 := by decide
    have hlt : n < k0_t1_loop.trips := by omega
    have ih := inv_t1 w27 w28 w29 w30 b0 b1 w34 r n (by omega)
    have e := st_k0_t1_succ (F := Ideal) Variants.none c none i arg1 harg1 arg2 harg2 arg3 harg3 arg4 harg4 arg5 harg5 arg6 harg6 k0_pay26 w27 w28 w29 w30 b0 b1 w34
      (kernelRun0_A.sl.v66 (F := Ideal) c arg1 harg1 arg2 harg2 arg4 x0 x1)
      (arg5.view.writes (Elt Ideal) arg5.view.junk (kernelRun0_A.sl.HS1_1 (F := Ideal) c arg1 harg1 arg2 harg2 x0 x1))
      (arg6.view.writes (Elt Ideal) arg6.view.junk (kernelRun0_A.sl.HS2_1 (F := Ideal) c arg1 harg1 arg2 harg2 x0 x1))
      (k0_pay31, k0_pay32, k0_pay33) ⟨n, hlt⟩
    unfold S1
    unfold S1 at ih
    rw [e, trip_t1_eq]
    refine (step_t1 _ _ _ ⟨n, hlt⟩ _ _ _ r).trans ?_
    rw [ih]
    show rstep _ _ _ = rstep _ _ _
    refine rstep_congr _ (fun cc => ?_) (fun cc hh => ?_)
    · unfold srow
      refine if_congr Iff.rfl (Finset.sum_congr rfl fun hh _ => ?_) rfl
      rw [q_tile1, k_load_t1]
    · unfold vrow
      rw [v_load_t1]

/-- The loop's invariant on one row: before trip n the carried numerator, maximum and denominator of row r are the
    online recurrence's state after the first n key/value tiles. -/
theorem inv_t2  (r : Fin 256) : ∀ n : ℕ, n ≤ 3 →
    (((fun h : Fin 128 => (S2 c i arg1 harg1 arg2 harg2 arg3 harg3 arg4 harg4 arg5 harg5 arg6 harg6 x0 x1  n).1 (ix2 r h)), (S2 c i arg1 harg1 arg2 harg2 arg3 harg3 arg4 harg4 arg5 harg5 arg6 harg6 x0 x1  n).2.1 (ix2 r (0 : Fin 1)), (S2 c i arg1 harg1 arg2 harg2 arg3 harg3 arg4 harg4 arg5 harg5 arg6 harg6 x0 x1  n).2.2 (ix2 r (0 : Fin 1))) : RowSt 128)
      = rfold (srow (qsM x0 x1) (kM x0 x1) (rowOf 2 (by norm_num) r)) (vrow (vM x0 x1)) n
  | 0, _ => init_t2 r
  | n + 1, hn => by
    have htr : k0_t2_loop.trips = 3 := by decide
    have hlt : n < k0_t2_loop.trips := by omega
    have ih := inv_t2  r n (by omega)
    have e := st_k0_t2_succ (F := Ideal) Variants.none c none i arg1 harg1 arg2 harg2 arg3 harg3 arg4 harg4 arg5 harg5 arg6 harg6 k0_pay26
      (kernelRun0_A.sl.v77 (F := Ideal) c arg1 harg1 arg2 harg2 arg4 x0 x1)
      (arg5.view.writes (Elt Ideal) arg5.view.junk (kernelRun0_A.sl.HS1_1 (F := Ideal) c arg1 harg1 arg2 harg2 x0 x1))
      (arg6.view.writes (Elt Ideal) arg6.view.junk (kernelRun0_A.sl.HS2_1 (F := Ideal) c arg1 harg1 arg2 harg2 x0 x1))
      (k0_pay2, k0_pay3, k0_pay4) ⟨n, hlt⟩
    unfold S2
    unfold S2 at ih
    rw [e, trip_t2_eq]
    refine (step_t2 _ _ _ ⟨n, hlt⟩ _ _ _ r).trans ?_
    rw [ih]
    show rstep _ _ _ = rstep _ _ _
    refine rstep_congr _ (fun cc => ?_) (fun cc hh => ?_)
    · unfold srow
      refine if_congr Iff.rfl (Finset.sum_congr rfl fun hh _ => ?_) rfl
      rw [q_tile2, k_load_t2]
    · unfold vrow
      rw [v_load_t2]

/-- The loop's invariant on one row: before trip n the carried numerator, maximum and denominator of row r are the
    online recurrence's state after the first n key/value tiles. -/
theorem inv_t3  (r : Fin 256) : ∀ n : ℕ, n ≤ 4 →
    (((fun h : Fin 128 => (S3 c i arg1 harg1 arg2 harg2 arg3 harg3 arg4 harg4 arg5 harg5 arg6 harg6 x0 x1  n).1 (ix2 r h)), (S3 c i arg1 harg1 arg2 harg2 arg3 harg3 arg4 harg4 arg5 harg5 arg6 harg6 x0 x1  n).2.1 (ix2 r (0 : Fin 1)), (S3 c i arg1 harg1 arg2 harg2 arg3 harg3 arg4 harg4 arg5 harg5 arg6 harg6 x0 x1  n).2.2 (ix2 r (0 : Fin 1))) : RowSt 128)
      = rfold (srow (qsM x0 x1) (kM x0 x1) (rowOf 3 (by norm_num) r)) (vrow (vM x0 x1)) n
  | 0, _ => init_t3 r
  | n + 1, hn => by
    have htr : k0_t3_loop.trips = 4 := by decide
    have hlt : n < k0_t3_loop.trips := by omega
    have ih := inv_t3  r n (by omega)
    have e := st_k0_t3_succ (F := Ideal) Variants.none c none i arg1 harg1 arg2 harg2 arg3 harg3 arg4 harg4 arg5 harg5 arg6 harg6 k0_pay26
      (kernelRun0_A.sl.v88 (F := Ideal) c arg1 harg1 arg2 harg2 arg4 x0 x1)
      (arg5.view.writes (Elt Ideal) arg5.view.junk (kernelRun0_A.sl.HS1_1 (F := Ideal) c arg1 harg1 arg2 harg2 x0 x1))
      (arg6.view.writes (Elt Ideal) arg6.view.junk (kernelRun0_A.sl.HS2_1 (F := Ideal) c arg1 harg1 arg2 harg2 x0 x1))
      (k0_pay12, k0_pay13, k0_pay14) ⟨n, hlt⟩
    unfold S3
    unfold S3 at ih
    rw [e, trip_t3_eq]
    refine (step_t3 _ _ _ ⟨n, hlt⟩ _ _ _ r).trans ?_
    rw [ih]
    show rstep _ _ _ = rstep _ _ _
    refine rstep_congr _ (fun cc => ?_) (fun cc hh => ?_)
    · unfold srow
      refine if_congr Iff.rfl (Finset.sum_congr rfl fun hh _ => ?_) rfl
      rw [q_tile3, k_load_t3]
    · unfold vrow
      rw [v_load_t3]

/-! ## The four stored tiles -/

/-- Query tile 1's stored value on row r, feature h: the kernel's formula at row 256·1 + r. -/
theorem piece1 (w27 : Vec Ideal S256x128 .bf16) (w28 : FVec Ideal S256x128 .f32) (w29 w30 : FVec Ideal S256x1 .f32) (b0 b1 : BitVec 32) (w34 : Vec Ideal S256x128 .bf16) (n : ℕ) (hn : n = 2) (r : Fin 256) (h : Fin 128) :
    k0_pay1 (F := Ideal) (S1 c i arg1 harg1 arg2 harg2 arg3 harg3 arg4 harg4 arg5 harg5 arg6 harg6 x0 x1 w27 w28 w29 w30 b0 b1 w34 n).1 (k0_pay40 (S1 c i arg1 harg1 arg2 harg2 arg3 harg3 arg4 harg4 arg5 harg5 arg6 harg6 x0 x1 w27 w28 w29 w30 b0 b1 w34 n).2.2) (ix3 (0 : Fin 1) r h)
      = kerOut (qsM x0 x1) (kM x0 x1) (vM x0 x1) (rowOf 1 (by norm_num) r) h := by
  subst hn
  rw [fin_t1]
  exact kerOut_of_state _ _ _ _ h 2 (by show (256 * 1 + r.val) / 256 + 1 = 2; omega)
    (inv_t1 c i arg1 harg1 arg2 harg2 arg3 harg3 arg4 harg4 arg5 harg5 arg6 harg6 x0 x1 w27 w28 w29 w30 b0 b1 w34 r 2 le_rfl)

/-- Query tile 2's stored value on row r, feature h: the kernel's formula at row 256·2 + r. -/
theorem piece2  (n : ℕ) (hn : n = 3) (r : Fin 256) (h : Fin 128) :
    k0_pay11 (F := Ideal) (S2 c i arg1 harg1 arg2 harg2 arg3 harg3 arg4 harg4 arg5 harg5 arg6 harg6 x0 x1  n).1 (S2 c i arg1 harg1 arg2 harg2 arg3 harg3 arg4 harg4 arg5 harg5 arg6 harg6 x0 x1  n).2.2 (ix3 (0 : Fin 1) r h)
      = kerOut (qsM x0 x1) (kM x0 x1) (vM x0 x1) (rowOf 2 (by norm_num) r) h := by
  subst hn
  rw [fin_t2]
  exact kerOut_of_state _ _ _ _ h 3 (by show (256 * 2 + r.val) / 256 + 1 = 3; omega)
    (inv_t2 c i arg1 harg1 arg2 harg2 arg3 harg3 arg4 harg4 arg5 harg5 arg6 harg6 x0 x1  r 3 le_rfl)

/-- Query tile 3's stored value on row r, feature h: the kernel's formula at row 256·3 + r. -/
theorem piece3  (n : ℕ) (hn : n = 4) (r : Fin 256) (h : Fin 128) :
    k0_pay21 (F := Ideal) (S3 c i arg1 harg1 arg2 harg2 arg3 harg3 arg4 harg4 arg5 harg5 arg6 harg6 x0 x1  n).1 (S3 c i arg1 harg1 arg2 harg2 arg3 harg3 arg4 harg4 arg5 harg5 arg6 harg6 x0 x1  n).2.2 (ix3 (0 : Fin 1) r h)
      = kerOut (qsM x0 x1) (kM x0 x1) (vM x0 x1) (rowOf 3 (by norm_num) r) h := by
  subst hn
  rw [fin_t3]
  exact kerOut_of_state _ _ _ _ h 4 (by show (256 * 3 + r.val) / 256 + 1 = 4; omega)
    (inv_t3 c i arg1 harg1 arg2 harg2 arg3 harg3 arg4 harg4 arg5 harg5 arg6 harg6 x0 x1  r 4 le_rfl)

/-- Query tile 0's stored value on row r, feature h: the kernel's formula at row r. -/
theorem piece0 (r : Fin 256) (h : Fin 128) :
    k0_pay30 (F := Ideal) k0_pay26 (kernelRun0_A.sl.v27 (F := Ideal) c arg1 harg1 arg2 harg2 arg4 x0 x1) k0_pay27 k0_pay28 k0_pay29 (0#32)
        (kernelRun0_A.sl.v34 (F := Ideal) c arg1 harg1 arg2 harg2 arg5 x0 x1)
        (kernelRun0_A.sl.v36 (F := Ideal) c arg1 harg1 arg2 harg2 arg6 x0 x1) (ix3 (0 : Fin 1) r h)
      = kerOut (qsM x0 x1) (kM x0 x1) (vM x0 x1) (rowOf 0 (by norm_num) r) h := by
  rw [tile0_out]
  refine kerOut_of_state _ _ _ _ h 1 (by show (256 * 0 + r.val) / 256 + 1 = 1; omega) ?_
  show rstep _ _ _ = rstep _ _ _
  refine rstep_congr _ (fun cc => ?_) (fun cc hh => ?_)
  · unfold srow
    refine if_congr ?_ (Finset.sum_congr rfl fun hh _ => ?_) rfl
    · show cc.val ≤ r.val ↔ 256 * 0 + cc.val ≤ 256 * 0 + r.val
      omega
    · rw [q_tile0, k_tile0]
  · unfold vrow
    rw [v_tile0]

/-! ## The buffer -/

/-- The kernel's formula as one function of the output block's index. -/
def G : Vec Ideal S1x1024x128 .f32 := fun y => kerOut (qsM x0 x1) (kM x0 x1) (vM x0 x1) (y 1) (y 2)

/-- A 256-row tile's index, placed in the block at row offset o = 256·qi, is row 256·qi + r. -/
theorem G_emb (qi : ℕ) (hq : qi < 4) (o : ℕ) (ho : o = 256 * qi)
    (inb : ∀ a, (![0, o, 0] : Fin 3 → ℕ) a + (![1, 256, 128] : Fin 3 → ℕ) a ≤ S1x1024x128.size a) (r : Fin 256) (h : Fin 128) :
    G x0 x1 ((Rect.unit (s := S1x1024x128) ![0, o, 0] ![1, 256, 128] inb).emb (ix3 (0 : Fin 1) r h))
      = kerOut (qsM x0 x1) (kM x0 x1) (vM x0 x1) (rowOf qi hq r) h := by
  subst ho
  unfold G
  refine congrArg₂ (kerOut (qsM x0 x1) (kM x0 x1) (vM x0 x1)) ?_ ?_
  · apply Fin.ext
    rw [Rect.emb_apply]
    show 256 * qi + 1 * r.val = 256 * qi + r.val
    omega
  · apply Fin.ext
    rw [Rect.emb_apply]
    show 0 + 1 * h.val = h.val
    omega

/-- Each of the run's four pieces is the block of the one function `G` its rectangle names. -/
theorem pieces : ∀ p ∈ (kernelRun0_A (F := Ideal) c i arg1 harg1 arg2 harg2 arg3 harg3 arg4 harg4 arg5 harg5 arg6 harg6 x0 x1).1,
    ∀ x : p.1.shape.Idx, p.2 x = G x0 x1 (p.1.emb x) := by
  unfold kernelRun0_A
  dsimp only
  refine List.forall_mem_cons.2 ⟨?_, List.forall_mem_cons.2 ⟨?_, List.forall_mem_cons.2 ⟨?_, List.forall_mem_cons.2 ⟨?_,
    fun _ hm => absurd hm List.not_mem_nil⟩⟩⟩⟩
  · intro x
    obtain ⟨z, r, h, rfl⟩ : ∃ (z : Fin 1) (r : Fin 256) (h : Fin 128), x = ix3 z r h := ⟨x 0, x 1, x 2, eq_ix3 x⟩
    obtain rfl : z = 0 := Subsingleton.elim _ _
    exact (piece3 c i arg1 harg1 arg2 harg2 arg3 harg3 arg4 harg4 arg5 harg5 arg6 harg6 x0 x1 _ (by decide) r h).trans (G_emb x0 x1 3 (by norm_num) 768 (by norm_num) inb_S1x1024x128_S1x256x128_0_768_0 r h).symm
  · intro x
    obtain ⟨z, r, h, rfl⟩ : ∃ (z : Fin 1) (r : Fin 256) (h : Fin 128), x = ix3 z r h := ⟨x 0, x 1, x 2, eq_ix3 x⟩
    obtain rfl : z = 0 := Subsingleton.elim _ _
    exact (piece2 c i arg1 harg1 arg2 harg2 arg3 harg3 arg4 harg4 arg5 harg5 arg6 harg6 x0 x1 _ (by decide) r h).trans (G_emb x0 x1 2 (by norm_num) 512 (by norm_num) inb_S1x1024x128_S1x256x128_0_512_0 r h).symm
  · intro x
    obtain ⟨z, r, h, rfl⟩ : ∃ (z : Fin 1) (r : Fin 256) (h : Fin 128), x = ix3 z r h := ⟨x 0, x 1, x 2, eq_ix3 x⟩
    obtain rfl : z = 0 := Subsingleton.elim _ _
    exact (piece1 c i arg1 harg1 arg2 harg2 arg3 harg3 arg4 harg4 arg5 harg5 arg6 harg6 x0 x1 _ _ _ _ _ _ _ _ (by decide) r h).trans (G_emb x0 x1 1 (by norm_num) 256 (by norm_num) inb_S1x1024x128_S1x256x128_0_256_0 r h).symm
  · intro x
    obtain ⟨z, r, h, rfl⟩ : ∃ (z : Fin 1) (r : Fin 256) (h : Fin 128), x = ix3 z r h := ⟨x 0, x 1, x 2, eq_ix3 x⟩
    obtain rfl : z = 0 := Subsingleton.elim _ _
    exact (piece0 c arg1 harg1 arg2 harg2 arg4 arg5 arg6 x0 x1 r h).trans (G_emb x0 x1 0 (by norm_num) 0 (by norm_num) inb_S1x1024x128_S1x256x128_0_0_0 r h).symm

end Tiles

open Tiles

/-- The output buffer after the body, at (0, t, h), is the kernel's formula of the block's three projections. -/
theorem out_value (t : Fin 1024) (h : Fin 128) :
    out0_A_2 (F := Ideal) c i arg1 harg1 arg2 harg2 arg3 harg3 arg4 harg4 arg5 harg5 arg6 harg6 x0 x1 (ix3 (0 : Fin 1) t h)
      = kerOut (qsM x0 x1) (kM x0 x1) (vM x0 x1) t h := by
  unfold out0_A_2
  rw [View.read_writes_junk_apply_eq_canon]
  exact View.canon_apply_of_pieces (G x0 x1) _ (pieces c i arg1 harg1 arg2 harg2 arg3 harg3 arg4 harg4 arg5 harg5 arg6 harg6 x0 x1) (ix3 (0 : Fin 1) t h) (cover0_A_2 c i arg1 harg1 arg2 harg2 arg3 harg3 arg4 harg4 arg5 harg5 arg6 harg6 x0 x1 _)

end Cert.KernelIdeal.HV

end
-- ==== Proof.KI.Array.lean ====
/-
  From blocks to the array. Grid point b stages batch element b of the activations and the whole fused weight matrix,
  and writes back block b of the result; so after the run the result array, at (b, t, h), is the kernel's formula of
  batch element b's three projections. The fused weights are the query, key and value weights side by side.
-/
import proofs.«419070_j21440476741642_3_alg».proof.Proof.KI.Val.Tiles
import Idealize.ShloMosaic.Lib.Pipeline.Value

set_option maxRecDepth 16384

noncomputable section

open scoped BigOperators

namespace Cert.KernelIdeal.HV

open Cert.KernelIdeal Cert.KernelIdeal.Gen Cert.KernelIdeal.H Cert.Attn
open Idealize.ShloMosaic Idealize.ShloMosaic.TcCoe Idealize.ShloMosaic.ValueIdx

open Idealize.SL.Sem
open Idealize.ShloMosaic.Pipeline (Dat)

variable (m : (ℓ : Loc nD τ sig) → Buf (Elt Ideal) ℓ) (ρ : Dev nD → PrngReg)

/-- Batch element b of the activations, as a staged block. -/
def blockOf (X : Vec Ideal S16x1024x768 .f32) (b : Fin 16) : Vec Ideal S1x1024x768 .f32 := fun y => X (ix3 b (y 1) (y 2))

/-- The result array as one function of the activations and the fused weights. -/
def GA (X : Vec Ideal S16x1024x768 .f32) (W : Vec Ideal S768x384 .f32) : Vec Ideal S16x1024x128 .f32 :=
  fun j => kerOut (qsM (blockOf X (j 0)) W) (kM (blockOf X (j 0)) W) (vM (blockOf X (j 0)) W) (j 1) (j 2)

/-- The index maps, decided over the grid: the activation and result windows are at block (t, 0, 0), the weights at (0, 0). -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem tlt (t : Fin cfg0.N) : t.val < 16 := lt_of_lt_of_eq t.isLt N_0

/-- The activation block at point t is batch element t. -/
theorem iblk0_eq (c : Dev nD) (t : Fin cfg0.N) :
    (iblk m c 0 t : Vec Ideal S1x1024x768 .f32) = blockOf (V m c main_arg0) ⟨t.val, tlt t⟩ := by
  obtain ⟨e0, e1, e2, -⟩ := idx_facts t
  funext y
  show V m c main_arg0 (((cfg0.win 0).blk t).view.emb y) = V m c main_arg0 (ix3 (⟨t.val, tlt t⟩ : Fin 16) (y 1) (y 2))
  congr 1
  funext a; apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 1024 + 1 * (y 1).val = (y 1).val; omega
  | ⟨2, _⟩ => show win0_0.index t (2 : Fin 3) * 768 + 1 * (y 2).val = (y 2).val; omega

/-- The weight block at any point is the whole fused matrix. -/
theorem iblk1_eq (c : Dev nD) (t : Fin cfg0.N) :
    (iblk m c 1 t : Vec Ideal S768x384 .f32) = V m c main_v0 := by
  obtain ⟨-, -, -, e3, e4, -⟩ := idx_facts t
  funext y
  show V m c main_v0 (((cfg0.win 1).blk t).view.emb y) = V m c main_v0 y
  congr 1
  funext a; apply Fin.ext
  match a with
  | ⟨0, _⟩ => show win0_1.index t (0 : Fin 2) * 768 + 1 * (y 0).val = (y 0).val; omega
  | ⟨1, _⟩ => show win0_1.index t (1 : Fin 2) * 384 + 1 * (y 1).val = (y 1).val; omega

/-- What point t writes back is block t of `GA` of the arrays as the region finds them. -/
theorem flushed_eq (c : Dev nD) (t : Fin cfg0.N) :
    (dats m 0 c).flushed 2 t = ((cfg0.win 2).blk t).view.read (Elt Ideal) (GA (V m c main_arg0) (V m c main_v0)) := by
  rw [flushed2]
  obtain ⟨-, -, -, -, -, e5, e6, e7⟩ := idx_facts t
  funext y
  obtain ⟨z, r, h, rfl⟩ : ∃ (z : Fin 1) (r : Fin 1024) (h : Fin 128), y = ix3 z r h := ⟨y 0, y 1, y 2, eq_ix3 y⟩
  obtain rfl : z = 0 := Subsingleton.elim _ _
  show outsAt0 m c t (ix3 (0 : Fin 1) r h) = GA (V m c main_arg0) (V m c main_v0) (((cfg0.win 2).blk t).view.emb (ix3 (0 : Fin 1) r h))
  have hemb : ((cfg0.win 2).blk t).view.emb (ix3 (0 : Fin 1) r h) = ix3 (⟨t.val, tlt t⟩ : Fin 16) r h := by
    funext a; apply Fin.ext
    match a with
    | ⟨0, _⟩ => show win0_2.index t (0 : Fin 3) * 1 + 1 * 0 = t.val; omega
    | ⟨1, _⟩ => show win0_2.index t (1 : Fin 3) * 1024 + 1 * r.val = r.val; omega
    | ⟨2, _⟩ => show win0_2.index t (2 : Fin 3) * 128 + 1 * h.val = h.val; omega
  rw [hemb]
  unfold outsAt0
  rw [out_value, iblk0_eq, iblk1_eq]
  rfl

theorem mem_blk (t : Fin cfg0.N) (i : S16x1024x128.Idx) :
    i ∈ ((cfg0.win 2).blk t).view.set ↔ ∀ a : Fin 3, win0_2.index t a * S1x1024x128.size a ≤ (i a).val ∧ (i a).val < win0_2.index t a * S1x1024x128.size a + S1x1024x128.size a := by
  show i ∈ ((View.whole main_v1).slice (win0_2.rect t)).set ↔ _
  rw [View.set_slice_whole, Rect.mem_set_unit]
  exact Iff.rfl

/-- The result array after the run: `GA` of the arrays as the region finds them. -/
theorem final (c : Dev nD) : (dats m 0 c).arrAt 2 cfg0.N = GA (V m c main_arg0) (V m c main_v0) :=
  (dats m 0 c).arrAt_eq_of_cover 2 (GA (V m c main_arg0) (V m c main_v0)) (fun t _ => flushed_eq m c t) fun i => by
    have hi0 : (i 0).val < 16 := (i 0).isLt
    have hi1 : (i 1).val < 1024 := (i 1).isLt
    have hi2 : (i 2).val < 128 := (i 2).isLt
    refine ⟨⟨(i 0).val, by rw [show cfg0.N = 16 from N_0]; exact hi0⟩, flush0_2 _, ?_⟩
    rw [mem_blk]
    obtain ⟨-, -, -, -, -, e5, e6, e7⟩ := idx_facts ⟨(i 0).val, by rw [show cfg0.N = 16 from N_0]; exact hi0⟩
    intro a
    match a with
    | ⟨0, _⟩ => show win0_2.index _ (0 : Fin 3) * 1 ≤ (i 0).val ∧ (i 0).val < win0_2.index _ (0 : Fin 3) * 1 + 1; rw [e5]; show (i 0).val * 1 ≤ (i 0).val ∧ (i 0).val < (i 0).val * 1 + 1; omega
    | ⟨1, _⟩ => show win0_2.index _ (1 : Fin 3) * 1024 ≤ (i 1).val ∧ (i 1).val < win0_2.index _ (1 : Fin 3) * 1024 + 1024; rw [e6]; omega
    | ⟨2, _⟩ => show win0_2.index _ (2 : Fin 3) * 128 ≤ (i 2).val ∧ (i 2).val < win0_2.index _ (2 : Fin 3) * 128 + 128; rw [e7]; omega

end Cert.KernelIdeal.HV

end
-- ==== Proof.Attn.Row.lean ====
/-
  The online softmax recurrence on one row computes the softmax-weighted sum.
-/
import proofs.«419070_j21440476741642_3_alg».proof.Proof.Attn.Spec

noncomputable section

open scoped BigOperators

namespace Cert.Attn

open Idealize.ShloMosaic

/-! ## Auxiliary facts

  The running maximum after n tiles, M n, is the maximum of all logits seen so far (-∞ before any real logit). The
  weight of a logit x against a maximum M is the real number w M x = exp (x - M), and 0 for x = -∞. The recurrence
  keeps: denominator = ∑ w (M n) x over the logits seen, numerator = ∑ w (M n) x · v, because moving the maximum from
  M to M' multiplies every weight by exp (M - M'): w M' M · w M x = w M' x.
-/

/-- The running maximum after the first n tiles. -/
private def rmax {B : ℕ} (s : ℕ → Fin B → EReal) : ℕ → EReal
  | 0 => ⊥
  | n + 1 => max (rmax s n) ((Finset.univ : Finset (Fin B)).fold max ⊥ (s n))

/-- The weight exp (x - M) of a logit x against a maximum M, as a real number: 0 for x = -∞. -/
private def wt (M x : EReal) : ℝ := if x = ⊥ then 0 else Real.exp (x.toReal - M.toReal)

private theorem wt_bot (M : EReal) : wt M ⊥ = 0 := if_pos rfl

private theorem wt_nonneg (M x : EReal) : 0 ≤ wt M x := by
  unfold wt; split_ifs
  · exact le_rfl
  · exact (Real.exp_pos _).le

private theorem wt_pos (M : EReal) (r : ℝ) : 0 < wt M (r : EReal) := by
  unfold wt; rw [if_neg (EReal.coe_ne_bot r)]; exact Real.exp_pos _

/-- A cast of a finite sum of reals is the sum of the casts. -/
private theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The carried maximum is the running maximum. -/
private theorem rfold_max {B H : ℕ} (s : ℕ → Fin B → EReal) (v : ℕ → Fin B → Fin H → EReal) (n : ℕ) :
    (rfold s v n).2.1 = rmax s n := by
  induction n with
  | zero => rfl
  | succ n ih =>
    show max (rfold s v n).2.1 _ = max (rmax s n) _
    rw [ih]

/-- The running maximum is the least upper bound of the logits seen. -/
private theorem rmax_le_iff {B : ℕ} (s : ℕ → Fin B → EReal) (n : ℕ) (a : EReal) :
    rmax s n ≤ a ↔ ∀ j, j < n → ∀ c, s j c ≤ a := by
  induction n with
  | zero => simp [rmax]
  | succ n ih =>
    rw [rmax, max_le_iff, ih, Finset.fold_max_le]
    constructor
    · rintro ⟨h1, -, h2⟩ j hj c
      rcases Nat.lt_succ_iff_lt_or_eq.1 hj with hj | rfl
      · exact h1 j hj c
      · exact h2 c (Finset.mem_univ c)
    · intro h
      exact ⟨fun j hj c => h j (Nat.lt_succ_of_lt hj) c, bot_le, fun c _ => h n (Nat.lt_succ_self n) c⟩

private theorem le_rmax {B : ℕ} (s : ℕ → Fin B → EReal) (n : ℕ) (j : ℕ) (hj : j < n) (c : Fin B) :
    s j c ≤ rmax s n := (rmax_le_iff s n _).1 le_rfl j hj c

/-- The running maximum of logits that are real or -∞ is not +∞. -/
private theorem rmax_lt_top {B : ℕ} (s : ℕ → Fin B → EReal)
    (hs : ∀ j c, s j c = ⊥ ∨ ∃ r : ℝ, s j c = (r : EReal)) (n : ℕ) : rmax s n < ⊤ := by
  induction n with
  | zero => exact bot_lt_top
  | succ n ih =>
    rw [rmax, max_lt_iff, Finset.fold_max_lt]
    refine ⟨ih, bot_lt_top, fun c _ => ?_⟩
    rcases hs n c with h | ⟨r, h⟩
    · rw [h]; exact bot_lt_top
    · rw [h]; exact EReal.coe_lt_top r

private theorem rmax_cases {B : ℕ} (s : ℕ → Fin B → EReal)
    (hs : ∀ j c, s j c = ⊥ ∨ ∃ r : ℝ, s j c = (r : EReal)) (n : ℕ) :
    rmax s n = ⊥ ∨ ∃ r : ℝ, rmax s n = (r : EReal) := by
  have h := rmax_lt_top s hs n
  revert h
  generalize rmax s n = M
  intro h
  induction M using EReal.rec with
  | bot => exact Or.inl rfl
  | coe r => exact Or.inr ⟨r, rfl⟩
  | top => exact absurd h (lt_irrefl _)

/-- exp (x - M) is the weight of x against M, for x real or -∞ below a maximum M < +∞. -/
private theorem exp_sub_eq (x M : EReal) (hx : x = ⊥ ∨ ∃ r : ℝ, x = (r : EReal)) (hM : M ≠ ⊤) (hxM : x ≤ M) :
    Ideal.exp (x - M) = ((wt M x : ℝ) : EReal) := by
  rcases hx with rfl | ⟨r, rfl⟩
  · rw [EReal.bot_sub, Ideal.exp_bot, wt_bot, EReal.coe_zero]
  · induction M using EReal.rec with
    | bot => exact absurd hxM (not_le.2 (EReal.bot_lt_coe r))
    | coe m =>
      rw [← EReal.coe_sub, Ideal.exp_coe]
      unfold wt
      rw [if_neg (EReal.coe_ne_bot r), EReal.toReal_coe, EReal.toReal_coe]
    | top => exact absurd rfl hM

/-- Moving the maximum from M to M' ≥ M rescales the weight of every x ≤ M by the weight of M against M'. -/
private theorem wt_mul (x M M' : EReal) (hxM : x ≤ M) : wt M' M * wt M x = wt M' x := by
  by_cases hx : x = ⊥
  · subst hx; rw [wt_bot, wt_bot, mul_zero]
  · have hM : M ≠ ⊥ := fun h => hx (le_bot_iff.1 (h ▸ hxM))
    unfold wt
    rw [if_neg hM, if_neg hx, if_neg hx, ← Real.exp_add]
    congr 1; ring

/-- A sum over N tiles of which only the first n contribute is the sum over those n tiles. -/
private theorem sum_prod_tail {B : ℕ} (N n : ℕ) (hnN : n ≤ N) (f : ℕ → Fin B → ℝ)
    (hf : ∀ j, n ≤ j → ∀ c, f j c = 0) :
    ∑ p : Fin N × Fin B, f p.1.val p.2 = ∑ j ∈ Finset.range n, ∑ c, f j c := by
  rw [Fintype.sum_prod_type, Fin.sum_univ_eq_sum_range (fun j => ∑ c, f j c) N]
  symm
  apply Finset.sum_subset (Finset.range_subset_range.2 hnN)
  intro j _ hj
  have : n ≤ j := by simpa using hj
  exact Finset.sum_eq_zero fun c _ => hf j this c

/-- The recurrence's invariant: after n tiles the denominator is the sum of the weights of the logits seen against the
    running maximum, and the numerator is the sum of the weights times the value rows. -/
private theorem rfold_inv {B H : ℕ} (s : ℕ → Fin B → EReal) (v : ℕ → Fin B → Fin H → EReal)
    (hs : ∀ j c, s j c = ⊥ ∨ ∃ r : ℝ, s j c = (r : EReal))
    (hv : ∀ j c h, v j c h = (((v j c h).toReal : ℝ) : EReal)) (h : Fin H) (n : ℕ) :
    (rfold s v n).2.2 = ((∑ j ∈ Finset.range n, ∑ c, wt (rmax s n) (s j c) : ℝ) : EReal) ∧
    (rfold s v n).1 h = ((∑ j ∈ Finset.range n, ∑ c, wt (rmax s n) (s j c) * (v j c h).toReal : ℝ) : EReal) := by
  induction n with
  | zero => exact ⟨by simp [rfold], by simp [rfold]⟩
  | succ n ih =>
    obtain ⟨ihl, iha⟩ := ih
    have hM' : rmax s (n + 1) ≠ ⊤ := (rmax_lt_top s hs (n + 1)).ne
    have hMM' : rmax s n ≤ rmax s (n + 1) := le_max_left _ _
    have e1 : Ideal.exp (rmax s n - rmax s (n + 1)) = ((wt (rmax s (n + 1)) (rmax s n) : ℝ) : EReal) :=
      exp_sub_eq _ _ (rmax_cases s hs n) hM' hMM'
    have e2 : ∀ c, Ideal.exp (s n c - rmax s (n + 1)) = ((wt (rmax s (n + 1)) (s n c) : ℝ) : EReal) :=
      fun c => exp_sub_eq _ _ (hs n c) hM' (le_rmax s (n + 1) n (Nat.lt_succ_self n) c)
    have hmn : max (rfold s v n).2.1 ((Finset.univ : Finset (Fin B)).fold max ⊥ (s n)) = rmax s (n + 1) := by
      rw [rfold_max]; rfl
    constructor
    · show Ideal.exp ((rfold s v n).2.1 - max (rfold s v n).2.1 ((Finset.univ : Finset (Fin B)).fold max ⊥ (s n)))
          * (rfold s v n).2.2
          + ∑ c : Fin B, Ideal.exp (s n c - max (rfold s v n).2.1 ((Finset.univ : Finset (Fin B)).fold max ⊥ (s n))) = _
      rw [hmn, rfold_max, ihl, e1]
      simp only [e2]
      rw [← coe_sum, ← EReal.coe_mul, ← EReal.coe_add]
      congr 1
      rw [Finset.sum_range_succ, Finset.mul_sum]
      congr 1
      refine Finset.sum_congr rfl fun j hj => ?_
      rw [Finset.mul_sum]
      refine Finset.sum_congr rfl fun c _ => ?_
      exact wt_mul _ _ _ (le_rmax s n j (Finset.mem_range.1 hj) c)
    · show Ideal.exp ((rfold s v n).2.1 - max (rfold s v n).2.1 ((Finset.univ : Finset (Fin B)).fold max ⊥ (s n)))
          * (rfold s v n).1 h
          + ∑ c : Fin B, Ideal.exp (s n c - max (rfold s v n).2.1 ((Finset.univ : Finset (Fin B)).fold max ⊥ (s n)))
              * v n c h = _
      rw [hmn, rfold_max, iha, e1]
      have e3 : ∀ c, Ideal.exp (s n c - rmax s (n + 1)) * v n c h
          = ((wt (rmax s (n + 1)) (s n c) * (v n c h).toReal : ℝ) : EReal) := by
        intro c; rw [e2, EReal.coe_mul, ← hv]
      simp only [e3]
      rw [← coe_sum, ← EReal.coe_mul, ← EReal.coe_add]
      congr 1
      rw [Finset.sum_range_succ, Finset.mul_sum]
      congr 1
      refine Finset.sum_congr rfl fun j hj => ?_
      rw [Finset.mul_sum]
      refine Finset.sum_congr rfl fun c _ => ?_
      rw [← mul_assoc, wt_mul _ _ _ (le_rmax s n j (Finset.mem_range.1 hj) c)]

/-- After the first n ≥ 1 tiles of a row whose logits are reals or -∞ (a real one in tile 0, nothing but -∞ from tile n
    on) against real value rows, the carried numerator over the carried denominator is the softmax-weighted sum of the
    value rows over ALL N ≥ n tiles, written as the reference writes a softmax: each exponential of (logit - row maximum)
    divided by the sum of them all. -/
theorem online_row {B H : ℕ} (N n : ℕ) (hn : 1 ≤ n) (hnN : n ≤ N)
    (s : ℕ → Fin B → EReal) (v : ℕ → Fin B → Fin H → EReal)
    (hs : ∀ j c, s j c = ⊥ ∨ ∃ r : ℝ, s j c = (r : EReal))
    (htail : ∀ j, n ≤ j → ∀ c, s j c = ⊥)
    (h0 : ∃ c, ∃ r : ℝ, s 0 c = (r : EReal))
    (hv : ∀ j c h, ∃ r : ℝ, v j c h = (r : EReal)) (h : Fin H) :
    Ideal.div ((rfold s v n).1 h) (rfold s v n).2.2
      = ∑ p : Fin N × Fin B,
          Ideal.div (Ideal.exp (s p.1.val p.2 - max ⊥ ((Finset.univ : Finset (Fin N × Fin B)).fold max ⊥ fun p' => s p'.1.val p'.2)))
              (0 + ∑ p' : Fin N × Fin B, Ideal.exp (s p'.1.val p'.2 - max ⊥ ((Finset.univ : Finset (Fin N × Fin B)).fold max ⊥ fun p'' => s p''.1.val p''.2)))
            * v p.1.val p.2 h := by
  classical
  have hvr : ∀ j c h, v j c h = (((v j c h).toReal : ℝ) : EReal) := by
    intro j c h
    obtain ⟨r, hr⟩ := hv j c h
    rw [hr, EReal.toReal_coe]
  -- the maximum over all N tiles is the running maximum after n tiles
  have hfold : (Finset.univ : Finset (Fin N × Fin B)).fold max ⊥ (fun p' => s p'.1.val p'.2) = rmax s n := by
    apply le_antisymm
    · rw [Finset.fold_max_le]
      refine ⟨bot_le, fun p _ => ?_⟩
      by_cases hp : p.1.val < n
      · exact le_rmax s n _ hp _
      · rw [htail _ (not_lt.1 hp)]; exact bot_le
    · rw [rmax_le_iff]
      intro j hj c
      rw [Finset.le_fold_max]
      exact Or.inr ⟨(⟨j, lt_of_lt_of_le hj hnN⟩, c), Finset.mem_univ _, le_rfl⟩
  rw [hfold, max_eq_right bot_le, zero_add]
  obtain ⟨c0, r0, hc0⟩ := h0
  have hMtop : rmax s n ≠ ⊤ := (rmax_lt_top s hs n).ne
  have hall : ∀ j c, s j c ≤ rmax s n := by
    intro j c
    by_cases hj : j < n
    · exact le_rmax s n j hj c
    · rw [htail j (not_lt.1 hj)]; exact bot_le
  -- every exponential is a real weight; the weights of the tiles from n on vanish
  have hexp : ∀ j c, Ideal.exp (s j c - rmax s n) = ((wt (rmax s n) (s j c) : ℝ) : EReal) :=
    fun j c => exp_sub_eq _ _ (hs j c) hMtop (hall j c)
  have hwtail : ∀ j, n ≤ j → ∀ c, wt (rmax s n) (s j c) = 0 := by
    intro j hj c; rw [htail j hj c, wt_bot]
  obtain ⟨hl, ha⟩ := rfold_inv s v hs hvr h n
  rw [hl, ha]
  simp only [hexp]
  rw [← coe_sum]
  have hL : ∑ p : Fin N × Fin B, wt (rmax s n) (s p.1.val p.2)
      = ∑ j ∈ Finset.range n, ∑ c, wt (rmax s n) (s j c) :=
    sum_prod_tail N n hnN (fun j c => wt (rmax s n) (s j c)) hwtail
  have hA : ∑ p : Fin N × Fin B, wt (rmax s n) (s p.1.val p.2) * (v p.1.val p.2 h).toReal
      = ∑ j ∈ Finset.range n, ∑ c, wt (rmax s n) (s j c) * (v j c h).toReal :=
    sum_prod_tail N n hnN (fun j c => wt (rmax s n) (s j c) * (v j c h).toReal)
      (fun j hj c => by rw [hwtail j hj c, zero_mul])
  rw [← hL, ← hA]
  -- the denominator is positive: tile 0 holds a real logit
  have hLpos : 0 < ∑ p : Fin N × Fin B, wt (rmax s n) (s p.1.val p.2) := by
    apply Finset.sum_pos' (fun p _ => wt_nonneg _ _)
    refine ⟨(⟨0, lt_of_lt_of_le hn hnN⟩, c0), Finset.mem_univ _, ?_⟩
    show 0 < wt (rmax s n) (s 0 c0)
    rw [hc0]; exact wt_pos _ _
  generalize ∑ p : Fin N × Fin B, wt (rmax s n) (s p.1.val p.2) = L at hLpos ⊢
  simp only [Ideal.div_coe hLpos.ne']
  have e : ∀ p : Fin N × Fin B,
      ((wt (rmax s n) (s p.1.val p.2) : ℝ) : EReal) * ((1 / L : ℝ) : EReal) * v p.1.val p.2 h
        = ((wt (rmax s n) (s p.1.val p.2) * (1 / L) * (v p.1.val p.2 h).toReal : ℝ) : EReal) := by
    intro p; rw [EReal.coe_mul, EReal.coe_mul, ← hvr]
  simp only [e]
  rw [← coe_sum, ← EReal.coe_mul]
  congr 1
  rw [Finset.sum_mul]
  refine Finset.sum_congr rfl fun p _ => ?_
  ring

end Cert.Attn

end
-- ==== Proof.Attn.Bridge.lean ====
/-
  The kernel's formula is the reference's: scaling the queries first and visiting the keys tile by tile with the online
  recurrence gives, at every row and feature, the masked softmax's weighted sum.
-/
import proofs.«419070_j21440476741642_3_alg».proof.Proof.Attn.Row
import Mathlib.Data.Finset.Fold
import Mathlib.Data.Finset.BooleanAlgebra
import Mathlib.Algebra.BigOperators.Group.Finset.Defs
import Mathlib.Algebra.BigOperators.Ring.Finset
import Mathlib.Data.EReal.Basic

noncomputable section

open scoped BigOperators

namespace Cert.Attn

open Idealize.ShloMosaic

/-! ## Finite sums of reals inside the extended reals -/

/-- The cast of a finite real sum is the sum of the casts. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A projection of real matrices is real. -/
theorem real_proj {x : Mat 1024 768} {w : Mat 768 128} (hx : Real2 x) (hw : Real2 w) : Real2 (proj x w) := by
  intro t h
  choose xr hxr using hx
  choose wr hwr using hw
  refine ⟨∑ c : Fin 768, xr t c * wr c h, ?_⟩
  unfold proj
  rw [coe_sum]
  refine Finset.sum_congr rfl fun c _ => ?_
  rw [hxr, hwr, EReal.coe_mul]

/-! ## The scale is a real number -/

/-- The scale's word is a finite pattern, so it denotes a real number. -/
private theorem σ_real : ∃ r : ℝ, σ = (r : EReal) := by
  simp [σ, Ideal.ofBits, Ideal.ieee, -EReal.coe_mul]

/-! ## Scaling the queries first, or the logit last -/

/-- With real queries, keys and scale, the scale moves out of the contraction over the features. -/
private theorem sum_scale (q k : Mat 1024 128) (hq : Real2 q) (hk : Real2 k) (t s : Fin 1024) :
    ∑ h : Fin 128, (q t h * σ) * k s h = (∑ h : Fin 128, q t h * k s h) * σ := by
  obtain ⟨σr, hσ⟩ := σ_real
  choose qr hqr using hq
  choose kr hkr using hk
  have hl : ∑ h : Fin 128, (q t h * σ) * k s h = ((∑ h : Fin 128, qr t h * σr * kr s h : ℝ) : EReal) := by
    rw [coe_sum]
    refine Finset.sum_congr rfl fun h _ => ?_
    rw [hqr, hkr, hσ, EReal.coe_mul, EReal.coe_mul]
  have hr : ∑ h : Fin 128, q t h * k s h = ((∑ h : Fin 128, qr t h * kr s h : ℝ) : EReal) := by
    rw [coe_sum]
    refine Finset.sum_congr rfl fun h _ => ?_
    rw [hqr, hkr, EReal.coe_mul]
  rw [hl, hr, hσ, ← EReal.coe_mul, Finset.sum_mul]
  congr 1
  refine Finset.sum_congr rfl fun h _ => ?_
  ring

/-- The kernel's logit of a real query row against a real key row is a real number. -/
private theorem real_slogit (q k : Mat 1024 128) (hq : Real2 q) (hk : Real2 k) (t s : Fin 1024) :
    ∃ r : ℝ, ∑ h : Fin 128, (q t h * σ) * k s h = (r : EReal) := by
  obtain ⟨σr, hσ⟩ := σ_real
  choose qr hqr using hq
  choose kr hkr using hk
  refine ⟨∑ h : Fin 128, qr t h * σr * kr s h, ?_⟩
  rw [coe_sum]
  refine Finset.sum_congr rfl fun h _ => ?_
  rw [hqr, hkr, hσ, EReal.coe_mul, EReal.coe_mul]

/-! ## Four tiles of 256 key rows are the 1024 key rows -/

/-- Tile j < 4, row c < 256 of it, is key row 256 j + c: a bijection. -/
private def tileEquiv : Fin 4 × Fin 256 ≃ Fin 1024 where
  toFun p := ⟨256 * p.1.val + p.2.val, by omega⟩
  invFun s := (⟨s.val / 256, by omega⟩, ⟨s.val % 256, by omega⟩)
  left_inv p := by
    apply Prod.ext <;> apply Fin.ext <;> simp only [] <;> omega
  right_inv s := by
    apply Fin.ext; simp only []; omega

/-- Within the array a tile's row is the bijection's value: nothing wraps around. -/
private theorem col_eq (p : Fin 4 × Fin 256) : col p.1.val p.2 = tileEquiv p := by
  apply Fin.ext
  show (256 * p.1.val + p.2.val) % 1024 = 256 * p.1.val + p.2.val
  omega

/-- A running maximum over all of a finite type does not see a relabelling of it. -/
private theorem fold_max_equiv {α β : Type*} [Fintype α] [Fintype β] [DecidableEq β] (e : α ≃ β) (f : β → EReal) :
    (Finset.univ : Finset α).fold max ⊥ (fun a => f (e a)) = (Finset.univ : Finset β).fold max ⊥ f := by
  rw [← Finset.image_univ_equiv e, Finset.fold_image (fun x _ y _ hxy => e.injective hxy)]
  rfl

/-- The softmax-weighted sum does not see a relabelling of its index. -/
private theorem softmax_equiv {α β : Type*} [Fintype α] [Fintype β] [DecidableEq β] (e : α ≃ β) (f g : β → EReal) :
    ∑ p : α, Ideal.div (Ideal.exp (f (e p) - max ⊥ ((Finset.univ : Finset α).fold max ⊥ fun p' => f (e p'))))
          (0 + ∑ p' : α, Ideal.exp (f (e p') - max ⊥ ((Finset.univ : Finset α).fold max ⊥ fun p'' => f (e p''))))
        * g (e p)
      = ∑ s : β, Ideal.div (Ideal.exp (f s - max ⊥ ((Finset.univ : Finset β).fold max ⊥ f)))
          (0 + ∑ s' : β, Ideal.exp (f s' - max ⊥ ((Finset.univ : Finset β).fold max ⊥ f)))
        * g s := by
  rw [fold_max_equiv e f,
    Equiv.sum_comp e (fun s' => Ideal.exp (f s' - max ⊥ ((Finset.univ : Finset β).fold max ⊥ f)))]
  exact Equiv.sum_comp e (fun s => Ideal.div (Ideal.exp (f s - max ⊥ ((Finset.univ : Finset β).fold max ⊥ f)))
          (0 + ∑ s' : β, Ideal.exp (f s' - max ⊥ ((Finset.univ : Finset β).fold max ⊥ f))) * g s)

/-- The kernel's masked logit in tile j < 4 is the reference's masked logit at the tile's row. -/
private theorem srow_eq (q k : Mat 1024 128) (hq : Real2 q) (hk : Real2 k) (t : Fin 1024) (p : Fin 4 × Fin 256) :
    srow (fun t h => q t h * σ) k t p.1.val p.2 = mlogit q k t (tileEquiv p) := by
  have hval : (tileEquiv p).val = 256 * p.1.val + p.2.val := rfl
  simp only [srow, mlogit, logit, col_eq, hval]
  split_ifs
  · exact sum_scale q k hq hk t (tileEquiv p)
  · rfl

/-- On real queries, keys and values the kernel's result is the reference's, row by row and feature by feature. -/
theorem kerOut_eq_refOut (q k v : Mat 1024 128) (hq : Real2 q) (hk : Real2 k) (hv : Real2 v) (t : Fin 1024) (h : Fin 128) :
    kerOut (fun t h => q t h * σ) k v t h = refOut q k v t h := by
  have ht : t.val < 1024 := t.isLt
  have hs : ∀ j c, srow (fun t h => q t h * σ) k t j c = ⊥
      ∨ ∃ r : ℝ, srow (fun t h => q t h * σ) k t j c = (r : EReal) := by
    intro j c
    simp only [srow]
    split_ifs
    · exact Or.inr (real_slogit q k hq hk t (col j c))
    · exact Or.inl rfl
  have htail : ∀ j, t.val / 256 + 1 ≤ j → ∀ c, srow (fun t h => q t h * σ) k t j c = ⊥ := by
    intro j hj c
    simp only [srow]
    rw [if_neg]
    have := c.isLt
    omega
  have h0 : ∃ c, ∃ r : ℝ, srow (fun t h => q t h * σ) k t 0 c = (r : EReal) := by
    refine ⟨⟨0, by norm_num⟩, ?_⟩
    simp only [srow]
    rw [if_pos (by simp)]
    exact real_slogit q k hq hk t _
  have hv' : ∀ j c h, ∃ r : ℝ, vrow v j c h = (r : EReal) := fun j c h => hv (col j c) h
  unfold kerOut
  rw [online_row 4 (t.val / 256 + 1) (by omega) (by omega) _ _ hs htail h0 hv' h]
  have hV : ∀ p : Fin 4 × Fin 256, vrow v p.1.val p.2 h = v (tileEquiv p) h := fun p => by
    simp only [vrow, col_eq]
  simp only [srow_eq q k hq hk t, hV]
  unfold refOut rowDen rowMax
  exact softmax_equiv tileEquiv (mlogit q k t) (fun s => v s h)

end Cert.Attn

end
-- ==== Proof.Ref.Value.lean ====
/-
  The reference's result array, read at one index, is the reference's formula: for batch element b, row t, feature h,
  the masked softmax of the scaled logits of the three projections, weighted over the value rows.
-/
import proofs.«419070_j21440476741642_3_alg».proof.Proof.Gen.ReferenceIdeal.Read
import proofs.«419070_j21440476741642_3_alg».proof.Proof.Attn.Spec
import Idealize.ShloMosaic.Lib.ValueIdx
import Idealize.ShloMosaic.Lib.StableHlo.Predicate
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Cert.Attn
open Idealize.ShloMosaic Idealize.ShloMosaic.TcCoe Idealize.ShloMosaic.ValueIdx

/-! ## Words -/

/-- The word 0xFF800000 is -∞. -/
private theorem negInf_word : Ideal.ofBits .f32 0xFF800000#32 = (⊥ : EReal) := by
  simp [Ideal.ofBits, Ideal.ieee]

/-- The lower-triangle test on row and column numbers below 1024, as 32-bit signed words: row + 0 ≥ column. -/
private theorem tril_word (t s : Fin 1024) :
    IntOp.cmpi .sge (IntOp.addi (BitVec.ofNat 32 t.val) 0#32) (BitVec.ofNat 32 s.val)
      = if s.val ≤ t.val then 1#1 else 0#1 := by
  have ht : (BitVec.ofNat 32 t.val).toNat = t.val := by
    rw [BitVec.toNat_ofNat]; have := t.isLt; omega
  have hs : (BitVec.ofNat 32 s.val).toNat = s.val := by
    rw [BitVec.toNat_ofNat]; have := s.isLt; omega
  have h0 : IntOp.addi (BitVec.ofNat 32 t.val) 0#32 = BitVec.ofNat 32 t.val := by
    unfold IntOp.addi; exact BitVec.add_zero _
  rw [h0]
  have hiff := StableHlo.Predicate.sge_iff_toNat (a := BitVec.ofNat 32 t.val) (b := BitVec.ofNat 32 s.val)
    (by rw [ht]; have := t.isLt; omega) (by rw [hs]; have := s.isLt; omega)
  rw [ht, hs] at hiff
  by_cases hst : s.val ≤ t.val
  · rw [if_pos hst]; exact hiff.mpr hst
  · rw [if_neg hst]; exact eq_zero_of_ne_one (fun hc => hst (hiff.mp hc))

/-! ## The three projections -/

section

variable (x0 : (⟨S16x1024x768, .f32⟩ : BufTy).Contents (Elt Ideal)) (x1 x2 x3 : (⟨S768x128, .f32⟩ : BufTy).Contents (Elt Ideal))

/-- The first projection (the keys) at (b, s, h). -/
private theorem key_eq (b : Fin 16) (s : Fin 1024) (h : Fin 128) :
    val_main_v0 (F := Ideal) x0 x1 (ix3 b s h) = proj (xb x0 b) (mat x1) s h := by
  rw [val_main_v0_apply]
  unfold proj xb mat
  refine Finset.sum_congr rfl fun c _ => ?_
  have e1 : lidx_main_v0 (ix3 b s h) c = ix3 b s c :=
    funext fun a => Fin.ext (by match a with | ⟨0, _⟩ => rfl | ⟨1, _⟩ => rfl | ⟨2, _⟩ => rfl)
  have e2 : ridx_main_v0 (ix3 b s h) c = ix2 c h :=
    funext fun a => Fin.ext (by match a with | ⟨0, _⟩ => rfl | ⟨1, _⟩ => rfl)
  rw [e1, e2]

/-- The second projection (the queries) at (b, t, h). -/
private theorem query_eq (b : Fin 16) (t : Fin 1024) (h : Fin 128) :
    val_main_v1 (F := Ideal) x0 x2 (ix3 b t h) = proj (xb x0 b) (mat x2) t h := by
  rw [val_main_v1_apply]
  unfold proj xb mat
  refine Finset.sum_congr rfl fun c _ => ?_
  have e1 : lidx_main_v1 (ix3 b t h) c = ix3 b t c :=
    funext fun a => Fin.ext (by match a with | ⟨0, _⟩ => rfl | ⟨1, _⟩ => rfl | ⟨2, _⟩ => rfl)
  have e2 : ridx_main_v1 (ix3 b t h) c = ix2 c h :=
    funext fun a => Fin.ext (by match a with | ⟨0, _⟩ => rfl | ⟨1, _⟩ => rfl)
  rw [e1, e2]

/-- The third projection (the values) at (b, s, h). -/
private theorem value_eq (b : Fin 16) (s : Fin 1024) (h : Fin 128) :
    val_main_v2 (F := Ideal) x0 x3 (ix3 b s h) = proj (xb x0 b) (mat x3) s h := by
  rw [val_main_v2_apply]
  unfold proj xb mat
  refine Finset.sum_congr rfl fun c _ => ?_
  have e1 : lidx_main_v2 (ix3 b s h) c = ix3 b s c :=
    funext fun a => Fin.ext (by match a with | ⟨0, _⟩ => rfl | ⟨1, _⟩ => rfl | ⟨2, _⟩ => rfl)
  have e2 : ridx_main_v2 (ix3 b s h) c = ix2 c h :=
    funext fun a => Fin.ext (by match a with | ⟨0, _⟩ => rfl | ⟨1, _⟩ => rfl)
  rw [e1, e2]

/-! ## The scaled, masked logits -/

/-- The scaled logit of query row t against key row s. -/
private theorem logit_eq (b : Fin 16) (t s : Fin 1024) :
    val_main_v5 (F := Ideal) x0 x1 x2 (ix3 b t s)
      = logit (proj (xb x0 b) (mat x2)) (proj (xb x0 b) (mat x1)) t s := by
  rw [val_main_v5_apply, val_main_v3_apply, val_main_v4_apply, val_main_cst_apply, Ideal.mulf_def, Ideal.ofBits_def]
  unfold logit σ
  refine congrArg (· * Ideal.ofBits .f32 0x3D13CD3A#32) (Finset.sum_congr rfl fun k _ => ?_)
  have e1 : lidx_main_v3 (ix3 b t s) k = ix3 b t k :=
    funext fun a => Fin.ext (by match a with | ⟨0, _⟩ => rfl | ⟨1, _⟩ => rfl | ⟨2, _⟩ => rfl)
  have e2 : ridx_main_v3 (ix3 b t s) k = ix3 b s k :=
    funext fun a => Fin.ext (by match a with | ⟨0, _⟩ => rfl | ⟨1, _⟩ => rfl | ⟨2, _⟩ => rfl)
  rw [e1, e2, query_eq, key_eq]

/-- The mask at (b, t, s): the key row is not after the query row. -/
private theorem mask_eq (b : Fin 16) (t s : Fin 1024) :
    val_main_call1_v1 (F := Ideal) (ix3 b t s) = if s.val ≤ t.val then 1#1 else 0#1 := by
  rw [val_main_call1_v1_apply, val_main_v7_apply, val_main_call0_v4_apply, val_main_call0_v2_apply,
    val_main_call0_v0_apply, val_main_call0_v1_apply, val_main_call0_c_apply, val_main_call0_v3_apply,
    val_main_v6_apply, val_main_c_apply, val_main_call0_v5_apply, val_main_call0_c_0_apply]
  show Scalar.select (IntOp.cmpi .sge (IntOp.addi (BitVec.ofNat 32 t.val) 0#32) (BitVec.ofNat 32 s.val)) 1#1 0#1 = _
  rw [tril_word]
  by_cases hst : s.val ≤ t.val
  · rw [if_pos hst]; exact select_one _ _
  · rw [if_neg hst]; exact select_zero _ _

/-- The masked logit: -∞ where the key row comes after the query row. -/
private theorem mlogit_eq (b : Fin 16) (t s : Fin 1024) :
    val_main_v8 (F := Ideal) x0 x1 x2 (ix3 b t s)
      = mlogit (proj (xb x0 b) (mat x2)) (proj (xb x0 b) (mat x1)) t s := by
  rw [val_main_v8_apply, mask_eq, logit_eq, val_main_call1_v2_apply, val_main_call1_v0_apply, val_main_cst_0_apply,
    Ideal.ofBits_def, negInf_word]
  unfold mlogit
  by_cases hst : s.val ≤ t.val
  · rw [if_pos hst, if_pos hst]; exact select_one _ _
  · rw [if_neg hst, if_neg hst]; exact select_zero _ _

/-! ## The row's maximum -/

/-- The row index (b, t) with key row k put back on the reduced axis is (b, t, k). -/
private theorem lift_row (hred : S16x1024x1024.Reduces [2] S16x1024) (b : Fin 16) (t : Fin 1024) (k : Fin 1024) :
    hred.lift (ix2 b t) k = ix3 b t k :=
  funext fun a => Fin.ext (by match a with | ⟨0, _⟩ => rfl | ⟨1, _⟩ => rfl | ⟨2, _⟩ => rfl)

/-- The row's maximum, from -∞, then once more against -∞. -/
private theorem rowMax_eq (b : Fin 16) (t : Fin 1024) :
    val_main_v11 (F := Ideal) x0 x1 x2 (ix2 b t)
      = rowMax (proj (xb x0 b) (mat x2)) (proj (xb x0 b) (mat x1)) t := by
  have hred : S16x1024x1024.Reduces [2] S16x1024 := by decide
  rw [val_main_v11_apply, val_main_v10_apply, val_main_cst_2_apply, Ideal.ofBits_def, negInf_word, Ideal.maximumf_def]
  unfold val_main_v9 rowMax
  rw [Host.reduce_eq_fold_single FloatOps.maximumf _ _ reducesTo_S16x1024x1024_S16x1024_d2 hred h_S_,
    val_main_cst_1_apply, Ideal.ofBits_def, negInf_word]
  have hf : (val_main_v8 (F := Ideal) x0 x1 x2 ∘ hred.lift (ix2 b t))
      = mlogit (proj (xb x0 b) (mat x2)) (proj (xb x0 b) (mat x1)) t :=
    funext fun (k : Fin 1024) => by
      show val_main_v8 (F := Ideal) x0 x1 x2 (hred.lift (ix2 b t) k) = _
      rw [lift_row hred b t k, mlogit_eq]
  rw [hf]
  rfl

/-! ## The exponentials and their sum -/

/-- The exponential of the masked logit less the row's maximum. -/
private theorem exp_eq (b : Fin 16) (t s : Fin 1024) :
    val_main_v15 (F := Ideal) x0 x1 x2 (ix3 b t s)
      = Ideal.exp (mlogit (proj (xb x0 b) (mat x2)) (proj (xb x0 b) (mat x1)) t s
          - rowMax (proj (xb x0 b) (mat x2)) (proj (xb x0 b) (mat x1)) t) := by
  have e : idx_main_v12 (idx_main_v13 (ix3 b t s)) = ix2 b t :=
    funext fun a => Fin.ext (by match a with | ⟨0, _⟩ => rfl | ⟨1, _⟩ => rfl)
  rw [val_main_v15_apply, val_main_v14_apply, val_main_v13_apply, val_main_v12_apply, e, mlogit_eq, rowMax_eq,
    Ideal.hostUnary_exp_def, Ideal.subf_def]

/-- The row's denominator: the exponentials summed from 0. -/
private theorem rowDen_eq (b : Fin 16) (t : Fin 1024) :
    val_main_v16 (F := Ideal) x0 x1 x2 (ix2 b t)
      = rowDen (proj (xb x0 b) (mat x2)) (proj (xb x0 b) (mat x1)) t := by
  rw [val_main_v16_apply, val_main_cst_3_apply, Ideal.ofBits_def, Ideal.ofBits_zero_f32]
  unfold rowDen
  refine congrArg (0 + ·) (Finset.sum_congr rfl fun k _ => ?_)
  have e : idx_main_v16 (ix2 b t) k = ix3 b t k :=
    funext fun a => Fin.ext (by match a with | ⟨0, _⟩ => rfl | ⟨1, _⟩ => rfl | ⟨2, _⟩ => rfl)
  rw [e, exp_eq]

end

/-- The reference's last stage at (b, t, h) is the reference formula of the three projections of batch element b:
    keys from the first weight argument, queries from the second, values from the third. -/
theorem ref_value (x0 : (⟨S16x1024x768, .f32⟩ : BufTy).Contents (Elt Ideal)) (x1 x2 x3 : (⟨S768x128, .f32⟩ : BufTy).Contents (Elt Ideal))
    (b : Fin 16) (t : Fin 1024) (h : Fin 128) :
    val_main_v20 (F := Ideal) x0 x1 x2 x3 (ix3 b t h)
      = refOut (proj (xb x0 b) (mat x2)) (proj (xb x0 b) (mat x1)) (proj (xb x0 b) (mat x3)) t h := by
  rw [val_main_v20_apply]
  unfold refOut
  refine Finset.sum_congr rfl fun k _ => ?_
  have e1 : lidx_main_v20 (ix3 b t h) k = ix3 b t k :=
    funext fun a => Fin.ext (by match a with | ⟨0, _⟩ => rfl | ⟨1, _⟩ => rfl | ⟨2, _⟩ => rfl)
  have e2 : ridx_main_v20 (ix3 b t h) k = ix3 b k h :=
    funext fun a => Fin.ext (by match a with | ⟨0, _⟩ => rfl | ⟨1, _⟩ => rfl | ⟨2, _⟩ => rfl)
  have e3 : idx_main_v17 (idx_main_v18 (ix3 b t k)) = ix2 b t :=
    funext fun a => Fin.ext (by match a with | ⟨0, _⟩ => rfl | ⟨1, _⟩ => rfl)
  rw [e1, e2, val_main_v19_apply, val_main_v18_apply, val_main_v17_apply, e3, exp_eq, rowDen_eq, value_eq,
    Ideal.hostDivf_def]

end Cert.ReferenceIdeal.RefValue

end
-- ==== Proof.Pre.lean ====
/-
  What the precondition says: every entry of the four input arrays is a real number (neither infinity).
-/
import proofs.«419070_j21440476741642_3_alg».proof.Pre_finite_inputs
import proofs.«419070_j21440476741642_3_alg».proof.Proof.Gen.Pre_finite_inputs
import Idealize.ShloMosaic.PureOps.Ideal
import Idealize.ShloMosaic.Lib.ValueIdx
import Idealize.ShloMosaic.Lib.ReduceAll

noncomputable section

namespace Cert.PreFacts

open Idealize.ShloMosaic Cert.Pre_finite_inputs

/-- The scalar shape has exactly one index. -/
private instance subsingleton_scalar_idx : Subsingleton S_.Idx := ⟨fun a b => funext fun d => d.elim0⟩

/-- One entry: if the comparison `|x| < +∞` holds in the extended reals, `x` is a real number.
    The word `0x7F800000` denotes `⊤`; `|x|` is `max x (-x)`, which is `⊤` at both infinities. -/
private theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One array: if the conjunction over all entries of `|entry| < +∞` is true, every entry is a real number. -/
private theorem all_real {s : Shape} {axes : List (Fin s.rank)}
    (hb : S_.BroadcastsInDim s (![] : Fin 0 → Fin s.rank)) (hr : s.ReducesTo axes S_) (hu : 0 < S_.numel)
    (a : FVec Ideal s .f32) (init : IVec S_ 1)
    (e : Host.reduce IntOp.andi
        (cmpf .olt (Host.absf a) (broadcastInDim s ![] hb (constant S_ .f32 0x7F800000#32))) init hr hu
        ValueIdx.ix0 = 1#1)
    (i : s.Idx) : ∃ r : ℝ, a i = (r : EReal) :=
  real_of_abs_lt_top (a i) (Host.reduce_andi_all _ _ hr hu _ e i)

/-- If the printed predicate "every |entry| is below +∞, for all four arrays" evaluates to true at the ideal instance,
    every entry of every array is a real number. -/
theorem finite_of_pre [Cert.Pre_finite_inputs.Facts]
    (a0 : FVec Ideal S16x1024x768 .f32) (a1 a2 a3 : FVec Ideal S768x128 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  -- the result is a conjunction of four "all entries" bits
  obtain ⟨h012, e3⟩ := IntOp.andi_eq_one.1 h0
  obtain ⟨h01, e2⟩ := IntOp.andi_eq_one.1 h012
  obtain ⟨e0, e1⟩ := IntOp.andi_eq_one.1 h01
  exact ⟨all_real _ _ _ a0 _ e0, all_real _ _ _ a1 _ e1, all_real _ _ _ a2 _ e2, all_real _ _ _ a3 _ e3⟩

end Cert.PreFacts

end
-- ==== Proof.Equal.lean ====
/-
  The two results are one array. The kernel's result at (b, t, h) is its formula of batch element b's projections
  against the three column groups of the fused weights, which are the query, key and value weights; the reference's is
  its formula of the same projections; on finite inputs the projections are real and the two formulas agree.
-/
import proofs.«419070_j21440476741642_3_alg».proof.Proof.KI.Array
import proofs.«419070_j21440476741642_3_alg».proof.Proof.Attn.Bridge
import proofs.«419070_j21440476741642_3_alg».proof.Proof.Ref.Value
import proofs.«419070_j21440476741642_3_alg».proof.Proof.Pre

set_option maxRecDepth 16384

noncomputable section

open scoped BigOperators

namespace Cert.KernelIdeal.HV

open Cert.KernelIdeal Cert.KernelIdeal.Gen Cert.KernelIdeal.H Cert.Attn
open Idealize.ShloMosaic Idealize.ShloMosaic.TcCoe Idealize.ShloMosaic.ValueIdx

open Idealize.SL.Sem

/-- A staged block of batch element b is batch element b. -/
theorem xb1_blockOf (X : Vec Ideal S16x1024x768 .f32) (b : Fin 16) : xb1 (blockOf X b) = xb X b := rfl

section Fused
variable (Wq Wk Wv : Vec Ideal S768x128 .f32)

/-- The three weight matrices in the order they are laid side by side. -/
abbrev parts : List ((s : Shape) × (s.Idx → Elt Ideal .f32)) := [⟨S768x128, Wq⟩, ⟨S768x128, Wk⟩, ⟨S768x128, Wv⟩]

/-- The fused weights: queries, keys, values side by side along the columns. -/
abbrev fused : Vec Ideal S768x384 .f32 :=
  concatenate S768x384 1 (parts Wq Wk Wv) Facts₀.concatenates_S768x128_S768x128_S768x128_S768x384_d1

theorem wcol_q : wcol (fused Wq Wk Wv) 0 (by norm_num) = mat Wq := by
  funext c h
  show fused Wq Wk Wv (ix2 c (⟨0 + h.val, by omega⟩ : Fin 384)) = Wq (ix2 c h)
  refine concatenate_apply_piece (t := S768x384) (1 : Fin 2) (parts Wq Wk Wv) Facts₀.concatenates_S768x128_S768x128_S768x128_S768x384_d1 (ix2 c (⟨0 + h.val, by omega⟩ : Fin 384)) 0 (by simp [parts]) S768x128 Wq rfl rfl 0 rfl (ix2 c h) ?_ ?_
  · intro b hb
    match b with
    | ⟨0, _⟩ => rfl
    | ⟨1, _⟩ => exact absurd rfl hb
  · show 0 + h.val = 0 + h.val; rfl

theorem wcol_k : wcol (fused Wq Wk Wv) 128 (by norm_num) = mat Wk := by
  funext c h
  show fused Wq Wk Wv (ix2 c (⟨128 + h.val, by omega⟩ : Fin 384)) = Wk (ix2 c h)
  refine concatenate_apply_piece (t := S768x384) (1 : Fin 2) (parts Wq Wk Wv) Facts₀.concatenates_S768x128_S768x128_S768x128_S768x384_d1 (ix2 c (⟨128 + h.val, by omega⟩ : Fin 384)) 1 (by simp [parts]) S768x128 Wk rfl rfl 128 rfl (ix2 c h) ?_ ?_
  · intro b hb
    match b with
    | ⟨0, _⟩ => rfl
    | ⟨1, _⟩ => exact absurd rfl hb
  · show 128 + h.val = 128 + h.val; rfl

theorem wcol_v : wcol (fused Wq Wk Wv) 256 (by norm_num) = mat Wv := by
  funext c h
  show fused Wq Wk Wv (ix2 c (⟨256 + h.val, by omega⟩ : Fin 384)) = Wv (ix2 c h)
  refine concatenate_apply_piece (t := S768x384) (1 : Fin 2) (parts Wq Wk Wv) Facts₀.concatenates_S768x128_S768x128_S768x128_S768x384_d1 (ix2 c (⟨256 + h.val, by omega⟩ : Fin 384)) 2 (by simp [parts]) S768x128 Wv rfl rfl 256 rfl (ix2 c h) ?_ ?_
  · intro b hb
    match b with
    | ⟨0, _⟩ => rfl
    | ⟨1, _⟩ => exact absurd rfl hb
  · show 256 + h.val = 256 + h.val; rfl

end Fused

/-- On real inputs the kernel's result array is, index by index, the reference's formula. -/
theorem GA_eq_ref (X : Vec Ideal S16x1024x768 .f32) (Wk Wq Wv : Vec Ideal S768x128 .f32)
    (hX : ∀ i, ∃ r : ℝ, X i = (r : EReal)) (hk : ∀ i, ∃ r : ℝ, Wk i = (r : EReal))
    (hq : ∀ i, ∃ r : ℝ, Wq i = (r : EReal)) (hv : ∀ i, ∃ r : ℝ, Wv i = (r : EReal))
    (b : Fin 16) (t : Fin 1024) (h : Fin 128) :
    GA X (fused Wq Wk Wv) (ix3 b t h)
      = refOut (proj (xb X b) (mat Wq)) (proj (xb X b) (mat Wk)) (proj (xb X b) (mat Wv)) t h := by
  show kerOut (qsM (blockOf X b) (fused Wq Wk Wv)) (kM (blockOf X b) (fused Wq Wk Wv)) (vM (blockOf X b) (fused Wq Wk Wv)) t h = _
  unfold qsM kM vM
  rw [xb1_blockOf, wcol_q, wcol_k, wcol_v]
  have hxb : Real2 (xb X b) := fun t c => hX _
  exact kerOut_eq_refOut _ _ _ (real_proj hxb fun c h => hq _) (real_proj hxb fun c h => hk _) (real_proj hxb fun c h => hv _) t h

end Cert.KernelIdeal.HV

end
-- ==== Proof.lean ====
/-
  A causal attention head as one fused kernel — one matrix product for the three projections, the online softmax
  recurrence over key/value tiles of 256 rows, only the tiles up to the diagonal — against the plain reference
  (three projections, scaled logits, a lower-triangular mask to -∞, a row softmax, the weighted sum of the values).

  The three frames: each program runs to its end and leaves its four argument arrays as launched. For the kernel (as
  printed, and idealized) this is the pipeline's launch theorem over the body's symbolic run; for the reference its
  host operations' run. The idealization replaced one literal, the finite stand-in -1e30 of the mask fill, by -∞, at
  four sites: four times the same statement about the certificate's table. The equivalence: over the extended reals,
  from finite inputs, the kernel's result array is index by index the reference's — the online recurrence's
  numerator over denominator is the softmax-weighted sum, a row's masked tail contributing nothing.
-/
import proofs.«419070_j21440476741642_3_alg».proof.Defs
import proofs.«419070_j21440476741642_3_alg».proof.Proof.Gen.Kernel
import proofs.«419070_j21440476741642_3_alg».proof.Proof.Gen.KernelIdeal
import proofs.«419070_j21440476741642_3_alg».proof.Proof.Gen.ReferenceIdeal
import proofs.«419070_j21440476741642_3_alg».proof.Proof.Gen.Pre_finite_inputs
import proofs.«419070_j21440476741642_3_alg».proof.Proof.Gen.ReferenceIdeal.Run
import proofs.«419070_j21440476741642_3_alg».proof.Proof.Gen.ReferenceIdeal.Read
import proofs.«419070_j21440476741642_3_alg».proof.Proof.K.Frame
import proofs.«419070_j21440476741642_3_alg».proof.Proof.KI.Frame
import proofs.«419070_j21440476741642_3_alg».proof.Proof.Equal
import Idealize.ShloMosaic.PureOps.IdealRules

noncomputable section

namespace Cert.Proof

open Idealize.ShloMosaic Idealize.ShloMosaic.TcCoe Idealize.SL.Sem Idealize.ShloMosaic.ValueIdx

theorem frame_k : Cert.frame_Kernel := fun m ρ _ => Cert.Kernel.H.frame m ρ

theorem frame_ki : Cert.frame_KernelIdeal := fun m ρ _ => Cert.KernelIdeal.H.frame m ρ

theorem frame_ri : Cert.frame_ReferenceIdeal := fun m ρ _ =>
  (θ_run Cert.ReferenceIdeal.defs _ _).mono (fun _ h c => (h c).2) (Cert.ReferenceIdeal.Value.run (F := Ideal) m ρ)

/-- The mask fill's name denotes -∞ in the certificate's table. -/
theorem neg_big : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal := ⟨neg_big, neg_big, neg_big, neg_big⟩

open Cert.KernelIdeal Cert.KernelIdeal.H Cert.KernelIdeal.HV in
/-- Both programs end with the same result array: the kernel's is `GA` of the launch arrays (the fused weights being
    the three weight arrays side by side), the reference's its last stage, and the two agree at every index. -/
theorem algebraic : Cert.algebraic_KernelIdeal_ReferenceIdeal := by
  intro m ρ m' ρ' hpre hagree
  refine ⟨fun c => GA (V m c main_arg0) (V m c main_v0), ?_, ?_⟩
  · exact (θ_run Cert.KernelIdeal.defs _ _).mono (fun r h c => ⟨(h c).1.trans (final m c), (h c).2⟩) (run_blocks m ρ)
  · refine (θ_run Cert.ReferenceIdeal.defs _ _).mono (fun r h c => ⟨(h c).1.trans ?_, (h c).2⟩)
      (Cert.ReferenceIdeal.Value.run (F := Ideal) m' ρ')
    obtain ⟨hX, hK, hQ, hV⟩ := Cert.PreFacts.finite_of_pre _ _ _ _ (hpre c)
    rw [Cert.ReferenceIdeal.Read.val_main_v20_eq, (hagree c).1, (hagree c).2.1, (hagree c).2.2.1, (hagree c).2.2.2]
    show _ = GA (V m c main_arg0) (V m c main_v0)
    rw [V_main_arg0, V_main_v0]
    funext j
    obtain ⟨b, t, h, rfl⟩ : ∃ (b : Fin 16) (t : Fin 1024) (h : Fin 128), j = ix3 b t h := ⟨j 0, j 1, j 2, eq_ix3 j⟩
    rw [Cert.ReferenceIdeal.RefValue.ref_value]
    exact (GA_eq_ref _ _ _ _ hX hK hQ hV b t h).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
